-- ==== Defs.lean ====
def Pre_Kernel [hPre_finite_inputs : Cert.Pre_finite_inputs.Facts] (m : (ℓ : Loc Cert.Kernel.nD Cert.Kernel.τ Cert.Kernel.sig) → Buf (Elt Bits) ℓ) : Prop :=
  ∀ c : Dev Cert.Kernel.nD,
    (Cert.Pre_finite_inputs.fn (F := Bits) (m ((c.tc : Thread Cert.Kernel.nD Cert.Kernel.τ).loc Cert.Kernel.main_arg0)) (m ((c.tc : Thread Cert.Kernel.nD Cert.Kernel.τ).loc Cert.Kernel.main_arg1)) (m ((c.tc : Thread Cert.Kernel.nD Cert.Kernel.τ).loc Cert.Kernel.main_arg2)) (m ((c.tc : Thread Cert.Kernel.nD Cert.Kernel.τ).loc Cert.Kernel.main_arg3)) (m ((c.tc : Thread Cert.Kernel.nD Cert.Kernel.τ).loc Cert.Kernel.main_arg4)) (m ((c.tc : Thread Cert.Kernel.nD Cert.Kernel.τ).loc Cert.Kernel.main_arg5))) = (fun _ => 1#1)

def Pre_KernelIdeal [hPre_finite_inputs : Cert.Pre_finite_inputs.Facts] (m : (ℓ : Loc Cert.KernelIdeal.nD Cert.KernelIdeal.τ Cert.KernelIdeal.sig) → Buf (Elt Ideal) ℓ) : Prop :=
  ∀ c : Dev Cert.KernelIdeal.nD,
    (Cert.Pre_finite_inputs.fn (F := Ideal) (m ((c.tc : Thread Cert.KernelIdeal.nD Cert.KernelIdeal.τ).loc Cert.KernelIdeal.main_arg0)) (m ((c.tc : Thread Cert.KernelIdeal.nD Cert.KernelIdeal.τ).loc Cert.KernelIdeal.main_arg1)) (m ((c.tc : Thread Cert.KernelIdeal.nD Cert.KernelIdeal.τ).loc Cert.KernelIdeal.main_arg2)) (m ((c.tc : Thread Cert.KernelIdeal.nD Cert.KernelIdeal.τ).loc Cert.KernelIdeal.main_arg3)) (m ((c.tc : Thread Cert.KernelIdeal.nD Cert.KernelIdeal.τ).loc Cert.KernelIdeal.main_arg4)) (m ((c.tc : Thread Cert.KernelIdeal.nD Cert.KernelIdeal.τ).loc Cert.KernelIdeal.main_arg5))) = (fun _ => 1#1)

def Pre_ReferenceIdeal [hPre_finite_inputs : Cert.Pre_finite_inputs.Facts] (m : (ℓ : Loc Cert.ReferenceIdeal.nD Cert.ReferenceIdeal.τ Cert.ReferenceIdeal.sig) → Buf (Elt Ideal) ℓ) : Prop :=
  ∀ c : Dev Cert.ReferenceIdeal.nD,
    (Cert.Pre_finite_inputs.fn (F := Ideal) (m ((c.tc : Thread Cert.ReferenceIdeal.nD Cert.ReferenceIdeal.τ).loc Cert.ReferenceIdeal.main_arg0)) (m ((c.tc : Thread Cert.ReferenceIdeal.nD Cert.ReferenceIdeal.τ).loc Cert.ReferenceIdeal.main_arg1)) (m ((c.tc : Thread Cert.ReferenceIdeal.nD Cert.ReferenceIdeal.τ).loc Cert.ReferenceIdeal.main_arg2)) (m ((c.tc : Thread Cert.ReferenceIdeal.nD Cert.ReferenceIdeal.τ).loc Cert.ReferenceIdeal.main_arg3)) (m ((c.tc : Thread Cert.ReferenceIdeal.nD Cert.ReferenceIdeal.τ).loc Cert.ReferenceIdeal.main_arg4)) (m ((c.tc : Thread Cert.ReferenceIdeal.nD Cert.ReferenceIdeal.τ).loc Cert.ReferenceIdeal.main_arg5))) = (fun _ => 1#1)

def frame_Kernel [hKernel : Cert.Kernel.Facts] [hPre_finite_inputs : Cert.Pre_finite_inputs.Facts] : Prop :=
  ∀ (m : (ℓ : Loc Cert.Kernel.nD Cert.Kernel.τ Cert.Kernel.sig) → Buf (Elt Bits) ℓ) (g : Dev Cert.Kernel.nD → PrngReg), Pre_Kernel m →
    θ_run (Cert.Kernel.defs (F := Bits)) (onTc (τ := Cert.Kernel.τ) (Cert.Kernel.main (F := Bits))) ⟨m, fun _ => 0, g⟩ (fun r => ∀ c : Dev Cert.Kernel.nD,
      r.2.mem ((c.tc : Thread Cert.Kernel.nD Cert.Kernel.τ).loc Cert.Kernel.main_arg0) = m ((c.tc : Thread Cert.Kernel.nD Cert.Kernel.τ).loc Cert.Kernel.main_arg0)
      ∧ r.2.mem ((c.tc : Thread Cert.Kernel.nD Cert.Kernel.τ).loc Cert.Kernel.main_arg1) = m ((c.tc : Thread Cert.Kernel.nD Cert.Kernel.τ).loc Cert.Kernel.main_arg1)
      ∧ r.2.mem ((c.tc : Thread Cert.Kernel.nD Cert.Kernel.τ).loc Cert.Kernel.main_arg2) = m ((c.tc : Thread Cert.Kernel.nD Cert.Kernel.τ).loc Cert.Kernel.main_arg2)
      ∧ r.2.mem ((c.tc : Thread Cert.Kernel.nD Cert.Kernel.τ).loc Cert.Kernel.main_arg3) = m ((c.tc : Thread Cert.Kernel.nD Cert.Kernel.τ).loc Cert.Kernel.main_arg3)
      ∧ r.2.mem ((c.tc : Thread Cert.Kernel.nD Cert.Kernel.τ).loc Cert.Kernel.main_arg4) = m ((c.tc : Thread Cert.Kernel.nD Cert.Kernel.τ).loc Cert.Kernel.main_arg4)
      ∧ r.2.mem ((c.tc : Thread Cert.Kernel.nD Cert.Kernel.τ).loc Cert.Kernel.main_arg5) = m ((c.tc : Thread Cert.Kernel.nD Cert.Kernel.τ).loc Cert.Kernel.main_arg5))

def frame_KernelIdeal [hKernelIdeal : Cert.KernelIdeal.Facts] [hPre_finite_inputs : Cert.Pre_finite_inputs.Facts] : Prop :=
  ∀ (m : (ℓ : Loc Cert.KernelIdeal.nD Cert.KernelIdeal.τ Cert.KernelIdeal.sig) → Buf (Elt Ideal) ℓ) (g : Dev Cert.KernelIdeal.nD → PrngReg), Pre_KernelIdeal m →
    θ_run (Cert.KernelIdeal.defs (F := Ideal)) (onTc (τ := Cert.KernelIdeal.τ) (Cert.KernelIdeal.main (F := Ideal))) ⟨m, fun _ => 0, g⟩ (fun r => ∀ c : Dev Cert.KernelIdeal.nD,
      r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
      ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
      ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2)
      ∧ r.2.mem ((c.tc : Thread Cert.KernelIdeal.nD Cert.KernelIdeal.τ).loc Cert.KernelIdeal.main_arg3) = m ((c.tc : Thread Cert.KernelIdeal.nD Cert.KernelIdeal.τ).loc Cert.KernelIdeal.main_arg3)
      ∧ r.2.mem ((c.tc : Thread Cert.KernelIdeal.nD Cert.KernelIdeal.τ).loc Cert.KernelIdeal.main_arg4) = m ((c.tc : Thread Cert.KernelIdeal.nD Cert.KernelIdeal.τ).loc Cert.KernelIdeal.main_arg4)
      ∧ r.2.mem ((c.tc : Thread Cert.KernelIdeal.nD Cert.KernelIdeal.τ).loc Cert.KernelIdeal.main_arg5) = m ((c.tc : Thread Cert.KernelIdeal.nD Cert.KernelIdeal.τ).loc Cert.KernelIdeal.main_arg5))

def frame_ReferenceIdeal [hReferenceIdeal : Cert.ReferenceIdeal.Facts] [hPre_finite_inputs : Cert.Pre_finite_inputs.Facts] : Prop :=
  ∀ (m : (ℓ : Loc Cert.ReferenceIdeal.nD Cert.ReferenceIdeal.τ Cert.ReferenceIdeal.sig) → Buf (Elt Ideal) ℓ) (g : Dev Cert.ReferenceIdeal.nD → PrngReg), Pre_ReferenceIdeal m →
    θ_run (Cert.ReferenceIdeal.defs (F := Ideal)) (onTc (τ := Cert.ReferenceIdeal.τ) (Cert.ReferenceIdeal.main (F := Ideal))) ⟨m, fun _ => 0, g⟩ (fun r => ∀ c : Dev Cert.ReferenceIdeal.nD,
      r.2.mem ((c.tc : Thread Cert.ReferenceIdeal.nD Cert.ReferenceIdeal.τ).loc Cert.ReferenceIdeal.main_arg0) = m ((c.tc : Thread Cert.ReferenceIdeal.nD Cert.ReferenceIdeal.τ).loc Cert.ReferenceIdeal.main_arg0)
      ∧ r.2.mem ((c.tc : Thread Cert.ReferenceIdeal.nD Cert.ReferenceIdeal.τ).loc Cert.ReferenceIdeal.main_arg1) = m ((c.tc : Thread Cert.ReferenceIdeal.nD Cert.ReferenceIdeal.τ).loc Cert.ReferenceIdeal.main_arg1)
      ∧ r.2.mem ((c.tc : Thread Cert.ReferenceIdeal.nD Cert.ReferenceIdeal.τ).loc Cert.ReferenceIdeal.main_arg2) = m ((c.tc : Thread Cert.ReferenceIdeal.nD Cert.ReferenceIdeal.τ).loc Cert.ReferenceIdeal.main_arg2)
      ∧ r.2.mem ((c.tc : Thread Cert.ReferenceIdeal.nD Cert.ReferenceIdeal.τ).loc Cert.ReferenceIdeal.main_arg3) = m ((c.tc : Thread Cert.ReferenceIdeal.nD Cert.ReferenceIdeal.τ).loc Cert.ReferenceIdeal.main_arg3)
      ∧ r.2.mem ((c.tc : Thread Cert.ReferenceIdeal.nD Cert.ReferenceIdeal.τ).loc Cert.ReferenceIdeal.main_arg4) = m ((c.tc : Thread Cert.ReferenceIdeal.nD Cert.ReferenceIdeal.τ).loc Cert.ReferenceIdeal.main_arg4)
      ∧ r.2.mem ((c.tc : Thread Cert.ReferenceIdeal.nD Cert.ReferenceIdeal.τ).loc Cert.ReferenceIdeal.main_arg5) = m ((c.tc : Thread Cert.ReferenceIdeal.nD Cert.ReferenceIdeal.τ).loc Cert.ReferenceIdeal.main_arg5))

def preserves_Kernel_KernelIdeal : Prop :=
  IdealRules.truncf_extf.Statement Cert.KernelIdeal.S64x4096 .f32 .bf16

def algebraic_KernelIdeal_ReferenceIdeal [hKernelIdeal : Cert.KernelIdeal.Facts] [hReferenceIdeal : Cert.ReferenceIdeal.Facts] [hPre_finite_inputs : Cert.Pre_finite_inputs.Facts] : Prop :=
  ∀ (m : (ℓ : Loc Cert.KernelIdeal.nD Cert.KernelIdeal.τ Cert.KernelIdeal.sig) → Buf (Elt Ideal) ℓ) (g : Dev Cert.KernelIdeal.nD → PrngReg)
    (m' : (ℓ : Loc Cert.ReferenceIdeal.nD Cert.ReferenceIdeal.τ Cert.ReferenceIdeal.sig) → Buf (Elt Ideal) ℓ) (g' : Dev Cert.ReferenceIdeal.nD → PrngReg), Pre_KernelIdeal m →
    (∀ c : Dev Cert.KernelIdeal.nD,
      m' ((c.tc : Thread Cert.ReferenceIdeal.nD Cert.ReferenceIdeal.τ).loc Cert.ReferenceIdeal.main_arg0) = m ((c.tc : Thread Cert.KernelIdeal.nD Cert.KernelIdeal.τ).loc Cert.KernelIdeal.main_arg0)
      ∧ m' ((c.tc : Thread Cert.ReferenceIdeal.nD Cert.ReferenceIdeal.τ).loc Cert.ReferenceIdeal.main_arg1) = m ((c.tc : Thread Cert.KernelIdeal.nD Cert.KernelIdeal.τ).loc Cert.KernelIdeal.main_arg1)
      ∧ m' ((c.tc : Thread Cert.ReferenceIdeal.nD Cert.ReferenceIdeal.τ).loc Cert.ReferenceIdeal.main_arg2) = m ((c.tc : Thread Cert.KernelIdeal.nD Cert.KernelIdeal.τ).loc Cert.KernelIdeal.main_arg2)
      ∧ m' ((c.tc : Thread Cert.ReferenceIdeal.nD Cert.ReferenceIdeal.τ).loc Cert.ReferenceIdeal.main_arg3) = m ((c.tc : Thread Cert.KernelIdeal.nD Cert.KernelIdeal.τ).loc Cert.KernelIdeal.main_arg3)
      ∧ m' ((c.tc : Thread Cert.ReferenceIdeal.nD Cert.ReferenceIdeal.τ).loc Cert.ReferenceIdeal.main_arg4) = m ((c.tc : Thread Cert.KernelIdeal.nD Cert.KernelIdeal.τ).loc Cert.KernelIdeal.main_arg4)
      ∧ m' ((c.tc : Thread Cert.ReferenceIdeal.nD Cert.ReferenceIdeal.τ).loc Cert.ReferenceIdeal.main_arg5) = m ((c.tc : Thread Cert.KernelIdeal.nD Cert.KernelIdeal.τ).loc Cert.KernelIdeal.main_arg5)) →
    ∃ (v0 : (c : Dev Cert.KernelIdeal.nD) → Buf (Elt Ideal) ((c.tc : Thread Cert.KernelIdeal.nD Cert.KernelIdeal.τ).loc Cert.KernelIdeal.main_v26)),
      θ_run (Cert.KernelIdeal.defs (F := Ideal)) (onTc (τ := Cert.KernelIdeal.τ) (Cert.KernelIdeal.main (F := Ideal))) ⟨m, fun _ => 0, g⟩ (fun r => ∀ c : Dev Cert.KernelIdeal.nD,
          r.2.mem ((c.tc : Thread Cert.KernelIdeal.nD Cert.KernelIdeal.τ).loc Cert.KernelIdeal.main_v26) = v0 c
          ∧ r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
          ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
          ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2)
          ∧ r.2.mem ((c.tc : Thread Cert.KernelIdeal.nD Cert.KernelIdeal.τ).loc Cert.KernelIdeal.main_arg3) = m ((c.tc : Thread Cert.KernelIdeal.nD Cert.KernelIdeal.τ).loc Cert.KernelIdeal.main_arg3)
          ∧ r.2.mem ((c.tc : Thread Cert.KernelIdeal.nD Cert.KernelIdeal.τ).loc Cert.KernelIdeal.main_arg4) = m ((c.tc : Thread Cert.KernelIdeal.nD Cert.KernelIdeal.τ).loc Cert.KernelIdeal.main_arg4)
          ∧ r.2.mem ((c.tc : Thread Cert.KernelIdeal.nD Cert.KernelIdeal.τ).loc Cert.KernelIdeal.main_arg5) = m ((c.tc : Thread Cert.KernelIdeal.nD Cert.KernelIdeal.τ).loc Cert.KernelIdeal.main_arg5))
      ∧ θ_run (Cert.ReferenceIdeal.defs (F := Ideal)) (onTc (τ := Cert.ReferenceIdeal.τ) (Cert.ReferenceIdeal.main (F := Ideal))) ⟨m', fun _ => 0, g'⟩ (fun r => ∀ c : Dev Cert.ReferenceIdeal.nD,
          r.2.mem ((c.tc : Thread Cert.ReferenceIdeal.nD Cert.ReferenceIdeal.τ).loc Cert.ReferenceIdeal.main_v36) = v0 c
          ∧ r.2.mem ((c.tc : Thread Cert.ReferenceIdeal.nD Cert.ReferenceIdeal.τ).loc Cert.ReferenceIdeal.main_arg0) = m' ((c.tc : Thread Cert.ReferenceIdeal.nD Cert.ReferenceIdeal.τ).loc Cert.ReferenceIdeal.main_arg0)
          ∧ r.2.mem ((c.tc : Thread Cert.ReferenceIdeal.nD Cert.ReferenceIdeal.τ).loc Cert.ReferenceIdeal.main_arg1) = m' ((c.tc : Thread Cert.ReferenceIdeal.nD Cert.ReferenceIdeal.τ).loc Cert.ReferenceIdeal.main_arg1)
          ∧ r.2.mem ((c.tc : Thread Cert.ReferenceIdeal.nD Cert.ReferenceIdeal.τ).loc Cert.ReferenceIdeal.main_arg2) = m' ((c.tc : Thread Cert.ReferenceIdeal.nD Cert.ReferenceIdeal.τ).loc Cert.ReferenceIdeal.main_arg2)
          ∧ r.2.mem ((c.tc : Thread Cert.ReferenceIdeal.nD Cert.ReferenceIdeal.τ).loc Cert.ReferenceIdeal.main_arg3) = m' ((c.tc : Thread Cert.ReferenceIdeal.nD Cert.ReferenceIdeal.τ).loc Cert.ReferenceIdeal.main_arg3)
          ∧ r.2.mem ((c.tc : Thread Cert.ReferenceIdeal.nD Cert.ReferenceIdeal.τ).loc Cert.ReferenceIdeal.main_arg4) = m' ((c.tc : Thread Cert.ReferenceIdeal.nD Cert.ReferenceIdeal.τ).loc Cert.ReferenceIdeal.main_arg4)
          ∧ r.2.mem ((c.tc : Thread Cert.ReferenceIdeal.nD Cert.ReferenceIdeal.τ).loc Cert.ReferenceIdeal.main_arg5) = m' ((c.tc : Thread Cert.ReferenceIdeal.nD Cert.ReferenceIdeal.τ).loc Cert.ReferenceIdeal.main_arg5))

def Claim : Prop :=
  ∃ (hKernel : Cert.Kernel.Facts) (hKernelIdeal : Cert.KernelIdeal.Facts) (hReferenceIdeal : Cert.ReferenceIdeal.Facts) (hPre_finite_inputs : Cert.Pre_finite_inputs.Facts),
    frame_Kernel (hKernel := hKernel) (hPre_finite_inputs := hPre_finite_inputs)
    ∧ frame_KernelIdeal (hKernelIdeal := hKernelIdeal) (hPre_finite_inputs := hPre_finite_inputs)
    ∧ frame_ReferenceIdeal (hReferenceIdeal := hReferenceIdeal) (hPre_finite_inputs := hPre_finite_inputs)
    ∧ preserves_Kernel_KernelIdeal
    ∧ algebraic_KernelIdeal_ReferenceIdeal (hKernelIdeal := hKernelIdeal) (hReferenceIdeal := hReferenceIdeal) (hPre_finite_inputs := hPre_finite_inputs)
-- ==== Pre_finite_inputs.lean ====
abbrev S262144x512 : Shape := ⟨2, ![262144, 512]⟩
abbrev S262144 : Shape := ⟨1, ![262144]⟩
abbrev S512x512 : Shape := ⟨2, ![512, 512]⟩
abbrev S512 : Shape := ⟨1, ![512]⟩
abbrev S_ : Shape := ⟨0, ![]⟩

class Facts : Prop where
  bcast_S_S262144x512 : S_.BroadcastsInDim S262144x512 (![] : Fin 0 → Fin S262144x512.rank)
  reducesTo_S262144x512_S_d0_1 : S262144x512.ReducesTo [0, 1] S_
  h_S_ : 0 < S_.numel
  bcast_S_S512x512 : S_.BroadcastsInDim S512x512 (![] : Fin 0 → Fin S512x512.rank)
  reducesTo_S512x512_S_d0_1 : S512x512.ReducesTo [0, 1] S_
  bcast_S_S512 : S_.BroadcastsInDim S512 (![] : Fin 0 → Fin S512.rank)
  reducesTo_S512_S_d0 : S512.ReducesTo [0] S_
  bcast_S_S262144 : S_.BroadcastsInDim S262144 (![] : Fin 0 → Fin S262144.rank)
  reducesTo_S262144_S_d0 : S262144.ReducesTo [0] S_

variable [Facts]

def fn_part1 {F : FTy → Type} [FloatOps F] (main_arg1 : IVec S262144 32) (main_arg5 : FVec F S512 .f32) (main_v13 : IVec S_ 1) (main_v16 : IVec S512x512 1) : IVec S_ 1 :=
  let main_c_5 : IVec S_ 1 := constantI S_ 1 1#1
  let main_v17 : IVec S_ 1 := (fun x v => Host.reduce IntOp.andi x v reducesTo_S512x512_S_d0_1 h_S_) main_v16 main_c_5
  let main_v18 : IVec S_ 1 := andi main_v13 main_v17
  let main_v19 : FVec F S512 .f32 := Host.absf main_arg5
  let main_cst_6 : FVec F S_ .f32 := constant S_ .f32 0x7F800000#32
  let main_v20 : FVec F S512 .f32 := broadcastInDim S512 ![] bcast_S_S512 main_cst_6
  let main_v21 : IVec S512 1 := cmpf .olt main_v19 main_v20
  let main_c_7 : IVec S_ 1 := constantI S_ 1 1#1
  let main_v22 : IVec S_ 1 := (fun x v => Host.reduce IntOp.andi x v reducesTo_S512_S_d0 h_S_) main_v21 main_c_7
  let main_v23 : IVec S_ 1 := andi main_v18 main_v22
  let main_c_8 : IVec S_ 32 := constantI S_ 32 0#32
  let main_v24 : IVec S262144 32 := broadcastInDim S262144 ![] bcast_S_S262144 main_c_8
  let main_v25 : IVec S262144 1 := cmpi .sge main_arg1 main_v24
  let main_c_9 : IVec S_ 32 := constantI S_ 32 64#32
  let main_v26 : IVec S262144 32 := broadcastInDim S262144 ![] bcast_S_S262144 main_c_9
  let main_v27 : IVec S262144 1 := cmpi .slt main_arg1 main_v26
  let main_v28 : IVec S262144 1 := andi main_v25 main_v27
  let main_c_10 : IVec S_ 1 := constantI S_ 1 1#1
  let main_v29 : IVec S_ 1 := (fun x v => Host.reduce IntOp.andi x v reducesTo_S262144_S_d0 h_S_) main_v28 main_c_10
  let main_v30 : IVec S_ 1 := andi main_v23 main_v29
  main_v30

def fn {F : FTy → Type} [FloatOps F] (main_arg0 : FVec F S262144x512 .f32) (main_arg1 : IVec S262144 32) (main_arg2 : FVec F S512x512 .f32) (main_arg3 : FVec F S512 .f32) (main_arg4 : FVec F S512x512 .f32) (main_arg5 : FVec F S512 .f32) : IVec S_ 1 :=
  let main_v0 : FVec F S262144x512 .f32 := Host.absf main_arg0
  let main_cst : FVec F S_ .f32 := constant S_ .f32 0x7F800000#32
  let main_v1 : FVec F S262144x512 .f32 := broadcastInDim S262144x512 ![] bcast_S_S262144x512 main_cst
  let main_v2 : IVec S262144x512 1 := cmpf .olt main_v0 main_v1
  let main_c : IVec S_ 1 := constantI S_ 1 1#1
  let main_v3 : IVec S_ 1 := (fun x v => Host.reduce IntOp.andi x v reducesTo_S262144x512_S_d0_1 h_S_) main_v2 main_c
  let main_v4 : FVec F S512x512 .f32 := Host.absf main_arg2
  let main_cst_0 : FVec F S_ .f32 := constant S_ .f32 0x7F800000#32
  let main_v5 : FVec F S512x512 .f32 := broadcastInDim S512x512 ![] bcast_S_S512x512 main_cst_0
  let main_v6 : IVec S512x512 1 := cmpf .olt main_v4 main_v5
  let main_c_1 : IVec S_ 1 := constantI S_ 1 1#1
  let main_v7 : IVec S_ 1 := (fun x v => Host.reduce IntOp.andi x v reducesTo_S512x512_S_d0_1 h_S_) main_v6 main_c_1
  let main_v8 : IVec S_ 1 := andi main_v3 main_v7
  let main_v9 : FVec F S512 .f32 := Host.absf main_arg3
  let main_cst_2 : FVec F S_ .f32 := constant S_ .f32 0x7F800000#32
  let main_v10 : FVec F S512 .f32 := broadcastInDim S512 ![] bcast_S_S512 main_cst_2
  let main_v11 : IVec S512 1 := cmpf .olt main_v9 main_v10
  let main_c_3 : IVec S_ 1 := constantI S_ 1 1#1
  let main_v12 : IVec S_ 1 := (fun x v => Host.reduce IntOp.andi x v reducesTo_S512_S_d0 h_S_) main_v11 main_c_3
  let main_v13 : IVec S_ 1 := andi main_v8 main_v12
  let main_v14 : FVec F S512x512 .f32 := Host.absf main_arg4
  let main_cst_4 : FVec F S_ .f32 := constant S_ .f32 0x7F800000#32
  let main_v15 : FVec F S512x512 .f32 := broadcastInDim S512x512 ![] bcast_S_S512x512 main_cst_4
  let main_v16 : IVec S512x512 1 := cmpf .olt main_v14 main_v15
  fn_part1 (F := F) main_arg1 main_arg5 main_v13 main_v16
-- ==== Kernel.lean ====
abbrev S262144x512 : Shape := ⟨2, ![262144, 512]⟩
abbrev S262144 : Shape := ⟨1, ![262144]⟩
abbrev S512x512 : Shape := ⟨2, ![512, 512]⟩
abbrev S512 : Shape := ⟨1, ![512]⟩
abbrev S1x262144 : Shape := ⟨2, ![1, 262144]⟩
abbrev S2x64x512 : Shape := ⟨3, ![2, 64, 512]⟩
abbrev S2x64x128 : Shape := ⟨3, ![2, 64, 128]⟩
abbrev S4096x512 : Shape := ⟨2, ![4096, 512]⟩
abbrev S1x4096 : Shape := ⟨2, ![1, 4096]⟩
abbrev S1x64x512 : Shape := ⟨3, ![1, 64, 512]⟩
abbrev S1x64x128 : Shape := ⟨3, ![1, 64, 128]⟩
abbrev S64x512 : Shape := ⟨2, ![64, 512]⟩
abbrev S64x128 : Shape := ⟨2, ![64, 128]⟩
abbrev S64x4096 : Shape := ⟨2, ![64, 4096]⟩
abbrev S64 : Shape := ⟨1, ![64]⟩
abbrev S64x1 : Shape := ⟨2, ![64, 1]⟩
abbrev S_ : Shape := ⟨0, ![]⟩
abbrev S1x512 : Shape := ⟨2, ![1, 512]⟩
abbrev S2048x512 : Shape := ⟨2, ![2048, 512]⟩
abbrev S1x2048 : Shape := ⟨2, ![1, 2048]⟩
abbrev S64x2048 : Shape := ⟨2, ![64, 2048]⟩

abbrev nBuf : Space → Nat
  | .hbm => 41
  | .vmem => 17
  | .smem => 0
  | _ => 0

abbrev bufTy : (tb : Table) → Fin (tcTables nBuf tb) → BufTy
  | .hbm, ⟨0, _⟩ => ⟨S262144x512, .f32⟩
  | .hbm, ⟨1, _⟩ => ⟨S262144, .i32⟩
  | .hbm, ⟨2, _⟩ => ⟨S512x512, .f32⟩
  | .hbm, ⟨3, _⟩ => ⟨S512, .f32⟩
  | .hbm, ⟨4, _⟩ => ⟨S512x512, .f32⟩
  | .hbm, ⟨5, _⟩ => ⟨S512, .f32⟩
  | .hbm, ⟨6, _⟩ => ⟨S1x262144, .i32⟩
  | .hbm, ⟨7, _⟩ => ⟨S2x64x512, .f32⟩
  | .hbm, ⟨8, _⟩ => ⟨S2x64x128, .f32⟩
  | .hbm, ⟨9, _⟩ => ⟨S_, .f32⟩
  | .hbm, ⟨10, _⟩ => ⟨S64x512, .f32⟩
  | .hbm, ⟨11, _⟩ => ⟨S_, .f32⟩
  | .hbm, ⟨12, _⟩ => ⟨S64x128, .f32⟩
  | .hbm, ⟨13, _⟩ => ⟨S64x1, .f32⟩
  | .hbm, ⟨14, _⟩ => ⟨S_, .f32⟩
  | .hbm, ⟨15, _⟩ => ⟨S64x1, .f32⟩
  | .hbm, ⟨16, _⟩ => ⟨S64x1, .f32⟩
  | .hbm, ⟨17, _⟩ => ⟨S64x512, .f32⟩
  | .hbm, ⟨18, _⟩ => ⟨S64x512, .f32⟩
  | .hbm, ⟨19, _⟩ => ⟨S512x512, .f32⟩
  | .hbm, ⟨20, _⟩ => ⟨S64x512, .f32⟩
  | .hbm, ⟨21, _⟩ => ⟨S1x512, .f32⟩
  | .hbm, ⟨22, _⟩ => ⟨S64x512, .f32⟩
  | .hbm, ⟨23, _⟩ => ⟨S64x512, .f32⟩
  | .hbm, ⟨24, _⟩ => ⟨S_, .f32⟩
  | .hbm, ⟨25, _⟩ => ⟨S64x512, .f32⟩
  | .hbm, ⟨26, _⟩ => ⟨S64x512, .f32⟩
  | .hbm, ⟨27, _⟩ => ⟨S512x512, .f32⟩
  | .hbm, ⟨28, _⟩ => ⟨S64x512, .f32⟩
  | .hbm, ⟨29, _⟩ => ⟨S1x512, .f32⟩
  | .hbm, ⟨30, _⟩ => ⟨S64x512, .f32⟩
  | .hbm, ⟨31, _⟩ => ⟨S64x512, .f32⟩
  | .hbm, ⟨32, _⟩ => ⟨S64x512, .f32⟩
  | .hbm, ⟨33, _⟩ => ⟨S64x512, .f32⟩
  | .hbm, ⟨34, _⟩ => ⟨S_, .f32⟩
  | .hbm, ⟨35, _⟩ => ⟨S64x512, .f32⟩
  | .hbm, ⟨36, _⟩ => ⟨S64x512, .f32⟩
  | .hbm, ⟨37, _⟩ => ⟨S_, .f32⟩
  | .hbm, ⟨38, _⟩ => ⟨S64x512, .f32⟩
  | .hbm, ⟨39, _⟩ => ⟨S64x512, .f32⟩
  | .hbm, ⟨40, _⟩ => ⟨S262144x512, .f32⟩
  | .local _ .vmem, ⟨0, _⟩ => ⟨S4096x512, .f32⟩
  | .local _ .vmem, ⟨1, _⟩ => ⟨S4096x512, .f32⟩
  | .local _ .vmem, ⟨2, _⟩ => ⟨S1x4096, .i32⟩
  | .local _ .vmem, ⟨3, _⟩ => ⟨S1x4096, .i32⟩
  | .local _ .vmem, ⟨4, _⟩ => ⟨S1x64x512, .f32⟩
  | .local _ .vmem, ⟨5, _⟩ => ⟨S1x64x512, .f32⟩
  | .local _ .vmem, ⟨6, _⟩ => ⟨S1x64x128, .f32⟩
  | .local _ .vmem, ⟨7, _⟩ => ⟨S1x64x128, .f32⟩
  | .local _ .vmem, ⟨8, _⟩ => ⟨S64x512, .f32⟩
  | .local _ .vmem, ⟨9, _⟩ => ⟨S64x128, .f32⟩
  | .local _ .vmem, ⟨10, _⟩ => ⟨S2048x512, .f32⟩
  | .local _ .vmem, ⟨11, _⟩ => ⟨S2048x512, .f32⟩
  | .local _ .vmem, ⟨12, _⟩ => ⟨S1x2048, .i32⟩
  | .local _ .vmem, ⟨13, _⟩ => ⟨S1x2048, .i32⟩
  | .local _ .vmem, ⟨14, _⟩ => ⟨S64x512, .f32⟩
  | .local _ .vmem, ⟨15, _⟩ => ⟨S2048x512, .f32⟩
  | .local _ .vmem, ⟨16, _⟩ => ⟨S2048x512, .f32⟩
  | _, _ => ⟨S262144x512, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | .vmem, ⟨9, _⟩ => true
  | .vmem, ⟨10, _⟩ => true
  | .vmem, ⟨11, _⟩ => true
  | .vmem, ⟨12, _⟩ => true
  | .vmem, ⟨13, _⟩ => true
  | .vmem, ⟨14, _⟩ => true
  | .vmem, ⟨15, _⟩ => true
  | .vmem, ⟨16, _⟩ => true
  | _, _ => false

abbrev semScoped : Fin 0 → Bool
  | ⟨_, h⟩ => absurd h (Nat.not_lt_zero _)

abbrev dmaSemScoped : Fin 15 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | ⟨8, _⟩ => true
  | ⟨9, _⟩ => true
  | ⟨10, _⟩ => true
  | ⟨11, _⟩ => true
  | ⟨12, _⟩ => true
  | ⟨13, _⟩ => true
  | ⟨14, _⟩ => true
  | _ => false

abbrev sig : RefSig :=
  ofTc nBuf bufTy 0 15 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_arg5 : Ref sig .tc := ⟨.hbm, 5, rfl⟩
abbrev main_v0 : Ref sig .tc := ⟨.hbm, 6, rfl⟩
abbrev main_v1_0 : Ref sig .tc := ⟨.hbm, 7, rfl⟩
abbrev main_v1_1 : Ref sig .tc := ⟨.hbm, 8, rfl⟩
abbrev main_cst : Ref sig .tc := ⟨.hbm, 9, rfl⟩
abbrev main_v2 : Ref sig .tc := ⟨.hbm, 10, rfl⟩
abbrev main_cst_0 : Ref sig .tc := ⟨.hbm, 11, rfl⟩
abbrev main_v3 : Ref sig .tc := ⟨.hbm, 12, rfl⟩
abbrev main_v4 : Ref sig .tc := ⟨.hbm, 13, rfl⟩
abbrev main_cst_1 : Ref sig .tc := ⟨.hbm, 14, rfl⟩
abbrev main_v5 : Ref sig .tc := ⟨.hbm, 15, rfl⟩
abbrev main_v6 : Ref sig .tc := ⟨.hbm, 16, rfl⟩
abbrev main_v7 : Ref sig .tc := ⟨.hbm, 17, rfl⟩
abbrev main_v8 : Ref sig .tc := ⟨.hbm, 18, rfl⟩
abbrev main_v9 : Ref sig .tc := ⟨.hbm, 19, rfl⟩
abbrev main_v10 : Ref sig .tc := ⟨.hbm, 20, rfl⟩
abbrev main_v11 : Ref sig .tc := ⟨.hbm, 21, rfl⟩
abbrev main_v12 : Ref sig .tc := ⟨.hbm, 22, rfl⟩
abbrev main_v13 : Ref sig .tc := ⟨.hbm, 23, rfl⟩
abbrev main_call0_cst : Ref sig .tc := ⟨.hbm, 24, rfl⟩
abbrev main_call0_v0 : Ref sig .tc := ⟨.hbm, 25, rfl⟩
abbrev main_v14 : Ref sig .tc := ⟨.hbm, 26, rfl⟩
abbrev main_v15 : Ref sig .tc := ⟨.hbm, 27, rfl⟩
abbrev main_v16 : Ref sig .tc := ⟨.hbm, 28, rfl⟩
abbrev main_v17 : Ref sig .tc := ⟨.hbm, 29, rfl⟩
abbrev main_v18 : Ref sig .tc := ⟨.hbm, 30, rfl⟩
abbrev main_v19 : Ref sig .tc := ⟨.hbm, 31, rfl⟩
abbrev main_v20 : Ref sig .tc := ⟨.hbm, 32, rfl⟩
abbrev main_v21 : Ref sig .tc := ⟨.hbm, 33, rfl⟩
abbrev main_cst_2 : Ref sig .tc := ⟨.hbm, 34, rfl⟩
abbrev main_v22 : Ref sig .tc := ⟨.hbm, 35, rfl⟩
abbrev main_v23 : Ref sig .tc := ⟨.hbm, 36, rfl⟩
abbrev main_cst_3 : Ref sig .tc := ⟨.hbm, 37, rfl⟩
abbrev main_v24 : Ref sig .tc := ⟨.hbm, 38, rfl⟩
abbrev main_v25 : Ref sig .tc := ⟨.hbm, 39, rfl⟩
abbrev main_v26 : Ref sig .tc := ⟨.hbm, 40, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg1_1 : Ref sig .tc := ⟨.vmem, 3, rfl⟩
abbrev cc0_stg2_0 : Ref sig .tc := ⟨.vmem, 4, rfl⟩
abbrev cc0_stg2_1 : Ref sig .tc := ⟨.vmem, 5, rfl⟩
abbrev cc0_stg3_0 : Ref sig .tc := ⟨.vmem, 6, rfl⟩
abbrev cc0_stg3_1 : Ref sig .tc := ⟨.vmem, 7, rfl⟩
abbrev cc0_scratch0 : Ref sig .tc := ⟨.vmem, 8, rfl⟩
abbrev cc0_scratch1 : Ref sig .tc := ⟨.vmem, 9, rfl⟩
abbrev cc1_stg0_0 : Ref sig .tc := ⟨.vmem, 10, rfl⟩
abbrev cc1_stg0_1 : Ref sig .tc := ⟨.vmem, 11, rfl⟩
abbrev cc1_stg1_0 : Ref sig .tc := ⟨.vmem, 12, rfl⟩
abbrev cc1_stg1_1 : Ref sig .tc := ⟨.vmem, 13, rfl⟩
abbrev cc1_stg2_0 : Ref sig .tc := ⟨.vmem, 14, rfl⟩
abbrev cc1_stg3_0 : Ref sig .tc := ⟨.vmem, 15, rfl⟩
abbrev cc1_stg3_1 : Ref sig .tc := ⟨.vmem, 16, rfl⟩
abbrev cc0_sem0_0 : DmaSem sig := 0
abbrev cc0_sem0_1 : DmaSem sig := 1
abbrev cc0_sem1_0 : DmaSem sig := 2
abbrev cc0_sem1_1 : DmaSem sig := 3
abbrev cc0_sem2_0 : DmaSem sig := 4
abbrev cc0_sem2_1 : DmaSem sig := 5
abbrev cc0_sem3_0 : DmaSem sig := 6
abbrev cc0_sem3_1 : DmaSem sig := 7
abbrev cc1_sem0_0 : DmaSem sig := 8
abbrev cc1_sem0_1 : DmaSem sig := 9
abbrev cc1_sem1_0 : DmaSem sig := 10
abbrev cc1_sem1_1 : DmaSem sig := 11
abbrev cc1_sem2_0 : DmaSem sig := 12
abbrev cc1_sem3_0 : DmaSem sig := 13
abbrev cc1_sem3_1 : DmaSem sig := 14

abbrev nD : Nat := 1
abbrev τ : Topo := Topo.v7x

variable {F : FTy → Type} [FloatOps F]

abbrev grid0 : Pipeline.Grid := ⟨2, ![2, 32], ![false, false]⟩

def k0_cond2 (i : grid0.Coords) : BitVec 1 :=
  let arg1 : BitVec 32 := BitVec.ofNat 32 (i 1).val
  let c31_i32 : BitVec 32 := 31#32
  let v29 : BitVec 1 := Scalar.cmpi .eq arg1 c31_i32
  let v30 : BitVec 32 := Scalar.extui v29
  let c0_i32_13 : BitVec 32 := 0#32
  let v31 : BitVec 1 := Scalar.cmpi .ne v30 c0_i32_13
  v31

def cc0_transform_0 (i : grid0.Coords) : Fin 2 → Nat :=
  let arg0 : BitVec 32 := BitVec.ofNat 32 (i 0).val
  let arg1 : BitVec 32 := BitVec.ofNat 32 (i 1).val
  let c32_i32 : BitVec 32 := 32#32
  let v0 : BitVec 32 := Scalar.muli arg0 c32_i32
  let v1 : BitVec 32 := Scalar.addi v0 arg1
  let c0_i32 : BitVec 32 := 0#32
  let c0_i32_0 : BitVec 32 := 0#32
  ![v1.toNat, c0_i32.toNat]

def cc0_transform_1 (i : grid0.Coords) : Fin 2 → Nat :=
  let arg0 : BitVec 32 := BitVec.ofNat 32 (i 0).val
  let arg1 : BitVec 32 := BitVec.ofNat 32 (i 1).val
  let c32_i32 : BitVec 32 := 32#32
  let v0 : BitVec 32 := Scalar.muli arg0 c32_i32
  let v1 : BitVec 32 := Scalar.addi v0 arg1
  let c0_i32 : BitVec 32 := 0#32
  let c0_i32_0 : BitVec 32 := 0#32
  ![c0_i32.toNat, v1.toNat]

def cc0_transform_2 (i : grid0.Coords) : Fin 3 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  ![arg0.toNat, c0_i32.toNat, c0_i32_0.toNat]

def cc0_transform_3 (i : grid0.Coords) : Fin 3 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  ![arg0.toNat, c0_i32.toNat, c0_i32_0.toNat]

abbrev stage0_0 : Fin 2 → Memref sig .tc .vmem S4096x512 .f32 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true, true]

abbrev stage0_1 : Fin 2 → Memref sig .tc .vmem S1x4096 .i32 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![true, true]

abbrev stage0_2 : Fin 2 → Memref sig .tc .vmem S1x64x512 .f32 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![true, false]

abbrev stage0_3 : Fin 2 → Memref sig .tc .vmem S1x64x128 .f32 := fun | 0 => Memref.whole cc0_stg3_0 | 1 => Memref.whole cc0_stg3_1 | ⟨_ + 2, h⟩ => absurd h (Nat.not_lt.2 (Nat.le_add_left _ _))
abbrev sem0_3 : Fin 2 → DmaSem sig := fun | 0 => cc0_sem3_0 | 1 => cc0_sem3_1 | ⟨_ + 2, h⟩ => absurd h (Nat.not_lt.2 (Nat.le_add_left _ _))
abbrev reads0_3 : Fin grid0.rank → Bool := ![true, false]

abbrev grid1 : Pipeline.Grid := ⟨1, ![128], ![false]⟩

def cc1_transform_0 (i : grid1.Coords) : Fin 2 → Nat :=
  let arg0 : BitVec 32 := BitVec.ofNat 32 (i 0).val
  let c0_i32 : BitVec 32 := 0#32
  let c0_i32_0 : BitVec 32 := 0#32
  ![arg0.toNat, c0_i32.toNat]

def cc1_transform_1 (i : grid1.Coords) : Fin 2 → Nat :=
  let arg0 : BitVec 32 := BitVec.ofNat 32 (i 0).val
  let c0_i32 : BitVec 32 := 0#32
  let c0_i32_0 : BitVec 32 := 0#32
  ![c0_i32.toNat, arg0.toNat]

def cc1_transform_2 (i : grid1.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc1_transform_3 (i : grid1.Coords) : Fin 2 → Nat :=
  let arg0 : BitVec 32 := BitVec.ofNat 32 (i 0).val
  let c0_i32 : BitVec 32 := 0#32
  let c0_i32_0 : BitVec 32 := 0#32
  ![arg0.toNat, c0_i32.toNat]

abbrev stage1_0 : Fin 2 → Memref sig .tc .vmem S2048x512 .f32 := fun | 0 => Memref.whole cc1_stg0_0 | 1 => Memref.whole cc1_stg0_1 | ⟨_ + 2, h⟩ => absurd h (Nat.not_lt.2 (Nat.le_add_left _ _))
abbrev sem1_0 : Fin 2 → DmaSem sig := fun | 0 => cc1_sem0_0 | 1 => cc1_sem0_1 | ⟨_ + 2, h⟩ => absurd h (Nat.not_lt.2 (Nat.le_add_left _ _))
abbrev reads1_0 : Fin grid1.rank → Bool := ![true]

abbrev stage1_1 : Fin 2 → Memref sig .tc .vmem S1x2048 .i32 := fun | 0 => Memref.whole cc1_stg1_0 | 1 => Memref.whole cc1_stg1_1 | ⟨_ + 2, h⟩ => absurd h (Nat.not_lt.2 (Nat.le_add_left _ _))
abbrev sem1_1 : Fin 2 → DmaSem sig := fun | 0 => cc1_sem1_0 | 1 => cc1_sem1_1 | ⟨_ + 2, h⟩ => absurd h (Nat.not_lt.2 (Nat.le_add_left _ _))
abbrev reads1_1 : Fin grid1.rank → Bool := ![true]

abbrev stage1_2 : Fin 1 → Memref sig .tc .vmem S64x512 .f32 := fun | 0 => Memref.whole cc1_stg2_0 | ⟨_ + 1, h⟩ => absurd h (Nat.not_lt.2 (Nat.le_add_left _ _))
abbrev sem1_2 : Fin 1 → DmaSem sig := fun | 0 => cc1_sem2_0 | ⟨_ + 1, h⟩ => absurd h (Nat.not_lt.2 (Nat.le_add_left _ _))
abbrev reads1_2 : Fin grid1.rank → Bool := ![false]

abbrev stage1_3 : Fin 2 → Memref sig .tc .vmem S2048x512 .f32 := fun | 0 => Memref.whole cc1_stg3_0 | 1 => Memref.whole cc1_stg3_1 | ⟨_ + 2, h⟩ => absurd h (Nat.not_lt.2 (Nat.le_add_left _ _))
abbrev sem1_3 : Fin 2 → DmaSem sig := fun | 0 => cc1_sem3_0 | 1 => cc1_sem3_1 | ⟨_ + 2, h⟩ => absurd h (Nat.not_lt.2 (Nat.le_add_left _ _))
abbrev reads1_3 : Fin grid1.rank → Bool := ![true]

class Facts₀ : Prop where
  shapeCasts_S262144_S1x262144 : S262144.ShapeCasts S1x262144
  inb_S64x512_S64x512_0_0 : ∀ a, (![0, 0] : Fin 2 → Nat) a + S64x512.size a ≤ S64x512.size a
  h_S64x512 : 0 < S64x512.numel
  shapeCasts_S64x512_S64x512 : S64x512.ShapeCasts S64x512
  inb_S64x128_S64x128_0_0 : ∀ a, (![0, 0] : Fin 2 → Nat) a + S64x128.size a ≤ S64x128.size a
  h_S64x128 : 0 < S64x128.numel
  shapeCasts_S64x128_S64x128 : S64x128.ShapeCasts S64x128
  inb_S1x4096_S1x4096_0_0 : ∀ a, (![0, 0] : Fin 2 → Nat) a + S1x4096.size a ≤ S1x4096.size a
  h_S1x4096 : 0 < S1x4096.numel
  shapeCasts_S1x4096_S1x4096 : S1x4096.ShapeCasts S1x4096
  iota_S64x4096_d0_w32 : S64x4096.Iotas .tc 32 [0]
  broadcasts_S1x4096_S64x4096 : S1x4096.Broadcasts S64x4096
  natLt_1_32 : 1 < 32
  bitsLt_bf16_f32 : FTy.bits .bf16 < FTy.bits .f32
  inb_S4096x512_S4096x512_0_0 : ∀ a, (![0, 0] : Fin 2 → Nat) a + S4096x512.size a ≤ S4096x512.size a
  h_S4096x512 : 0 < S4096x512.numel
  reduces_S64x4096_S64 : S64x4096.Reduces [1] S64
  shapeCasts_S64_S64x1 : S64.ShapeCasts S64x1
  shapeCasts_S64x1_S64x1 : S64x1.ShapeCasts S64x1
  broadcasts_S64x1_S64x128 : S64x1.Broadcasts S64x128
  inb_S1x64x512_S1x64x512_0_0_0 : ∀ a, (![0, 0, 0] : Fin 3 → Nat) a + S1x64x512.size a ≤ S1x64x512.size a
  h_S1x64x512 : 0 < S1x64x512.numel
  shapeCasts_S1x64x512_S64x512 : S1x64x512.ShapeCasts S64x512
  shapeCasts_S64x512_S1x64x512 : S64x512.ShapeCasts S1x64x512
  inb_S1x64x128_S1x64x128_0_0_0 : ∀ a, (![0, 0, 0] : Fin 3 → Nat) a + S1x64x128.size a ≤ S1x64x128.size a
  h_S1x64x128 : 0 < S1x64x128.numel
  shapeCasts_S1x64x128_S64x128 : S1x64x128.ShapeCasts S64x128
  shapeCasts_S64x128_S1x64x128 : S64x128.ShapeCasts S1x64x128
  reducesTo_S2x64x512_S64x512_d0 : S2x64x512.ReducesTo [0] S64x512
  h_S_ : 0 < S_.numel
  reducesTo_S2x64x128_S64x128_d0 : S2x64x128.ReducesTo [0] S64x128
  slices_S64x128_S64x1_0_0 : S64x128.Slices ![0, 0] S64x1
  bcast_S_S64x1 : S_.BroadcastsInDim S64x1 (![] : Fin 0 → Fin S64x1.rank)
  bcast_S64x1_S64x512_0_1 : S64x1.BroadcastsInDim S64x512 (![0, 1] : Fin 2 → Fin S64x512.rank)
  transposes_S512x512_S512x512_1_0 : S512x512.Transposes [1, 0] S512x512
  bcast_S512_S1x512_1 : S512.BroadcastsInDim S1x512 (![1] : Fin 1 → Fin S1x512.rank)
  bcast_S1x512_S64x512_0_1 : S1x512.BroadcastsInDim S64x512 (![0, 1] : Fin 2 → Fin S64x512.rank)
  bcast_S_S64x512 : S_.BroadcastsInDim S64x512 (![] : Fin 0 → Fin S64x512.rank)
  inb_S1x2048_S1x2048_0_0 : ∀ a, (![0, 0] : Fin 2 → Nat) a + S1x2048.size a ≤ S1x2048.size a
  h_S1x2048 : 0 < S1x2048.numel
  shapeCasts_S1x2048_S1x2048 : S1x2048.ShapeCasts S1x2048
  iota_S64x2048_d0_w32 : S64x2048.Iotas .tc 32 [0]
  broadcasts_S1x2048_S64x2048 : S1x2048.Broadcasts S64x2048
  inb_S2048x512_S2048x512_0_0 : ∀ a, (![0, 0] : Fin 2 → Nat) a + S2048x512.size a ≤ S2048x512.size a
  h_S2048x512 : 0 < S2048x512.numel
  dot_S64x4096_S4096x512_S64x512_1_0_0_1_n_n_wf : DotDims.WF S64x4096 S4096x512 S64x512 [1] [0] [0] [1] [] []
  dot_S64x512_S512x512_S64x512_1_0_0_1_n_n_wf : DotDims.WF S64x512 S512x512 S64x512 [1] [0] [0] [1] [] []
  dot_S64x2048_S64x512_S2048x512_0_0_1_1_n_n_wf : DotDims.WF S64x2048 S64x512 S2048x512 [0] [0] [1] [1] [] []
  hrank0 : 0 < grid0.rank
  hstage0_0 : ∀ j, (stage0_0 j).IsWhole
  nbuf0_0 : grid0.bufCount reads0_0 false = 2
  hreads0_0 : ∀ i i' : grid0.Coords, (∀ a, reads0_0 a = true → i a = i' a) → cc0_transform_0 i = cc0_transform_0 i'
  hinb0_0 : ∀ (i : grid0.Coords) a, (cc0_transform_0 i a + 1) * S4096x512.size a ≤ S262144x512.size a
  hwx0_0 : ∀ i : grid0.Coords, EltTy.bits .f32 = 32 ∨ (Rect.block (s := S262144x512) S4096x512.size (cc0_transform_0 i) (hinb0_0 i)).WholeWords (EltTy.packing .f32)
  hstage0_1 : ∀ j, (stage0_1 j).IsWhole
  nbuf0_1 : grid0.bufCount reads0_1 false = 2
  hreads0_1 : ∀ i i' : grid0.Coords, (∀ a, reads0_1 a = true → i a = i' a) → cc0_transform_1 i = cc0_transform_1 i'
  hinb0_1 : ∀ (i : grid0.Coords) a, (cc0_transform_1 i a + 1) * S1x4096.size a ≤ S1x262144.size a
  hwx0_1 : ∀ i : grid0.Coords, EltTy.bits .i32 = 32 ∨ (Rect.block (s := S1x262144) S1x4096.size (cc0_transform_1 i) (hinb0_1 i)).WholeWords (EltTy.packing .i32)
  hstage0_2 : ∀ j, (stage0_2 j).IsWhole
  nbuf0_2 : grid0.bufCount reads0_2 false = 2
  hreads0_2 : ∀ i i' : grid0.Coords, (∀ a, reads0_2 a = true → i a = i' a) → cc0_transform_2 i = cc0_transform_2 i'
  hinb0_2 : ∀ (i : grid0.Coords) a, (cc0_transform_2 i a + 1) * S1x64x512.size a ≤ S2x64x512.size a
  hwx0_2 : ∀ i : grid0.Coords, EltTy.bits .f32 = 32 ∨ (Rect.block (s := S2x64x512) S1x64x512.size (cc0_transform_2 i) (hinb0_2 i)).WholeWords (EltTy.packing .f32)
  hstage0_3 : ∀ j, (stage0_3 j).IsWhole
  nbuf0_3 : grid0.bufCount reads0_3 false = 2
  hreads0_3 : ∀ i i' : grid0.Coords, (∀ a, reads0_3 a = true → i a = i' a) → cc0_transform_3 i = cc0_transform_3 i'
  hinb0_3 : ∀ (i : grid0.Coords) a, (cc0_transform_3 i a + 1) * S1x64x128.size a ≤ S2x64x128.size a
  hwx0_3 : ∀ i : grid0.Coords, EltTy.bits .f32 = 32 ∨ (Rect.block (s := S2x64x128) S1x64x128.size (cc0_transform_3 i) (hinb0_3 i)).WholeWords (EltTy.packing .f32)
  hrank1 : 0 < grid1.rank
  hstage1_0 : ∀ j, (stage1_0 j).IsWhole
  nbuf1_0 : grid1.bufCount reads1_0 false = 2
  hreads1_0 : ∀ i i' : grid1.Coords, (∀ a, reads1_0 a = true → i a = i' a) → cc1_transform_0 i = cc1_transform_0 i'
  hinb1_0 : ∀ (i : grid1.Coords) a, (cc1_transform_0 i a + 1) * S2048x512.size a ≤ S262144x512.size a
  hwx1_0 : ∀ i : grid1.Coords, EltTy.bits .f32 = 32 ∨ (Rect.block (s := S262144x512) S2048x512.size (cc1_transform_0 i) (hinb1_0 i)).WholeWords (EltTy.packing .f32)
  hstage1_1 : ∀ j, (stage1_1 j).IsWhole
  nbuf1_1 : grid1.bufCount reads1_1 false = 2
  hreads1_1 : ∀ i i' : grid1.Coords, (∀ a, reads1_1 a = true → i a = i' a) → cc1_transform_1 i = cc1_transform_1 i'
  hinb1_1 : ∀ (i : grid1.Coords) a, (cc1_transform_1 i a + 1) * S1x2048.size a ≤ S1x262144.size a
  hwx1_1 : ∀ i : grid1.Coords, EltTy.bits .i32 = 32 ∨ (Rect.block (s := S1x262144) S1x2048.size (cc1_transform_1 i) (hinb1_1 i)).WholeWords (EltTy.packing .i32)
  hstage1_2 : ∀ j, (stage1_2 j).IsWhole
  nbuf1_2 : grid1.bufCount reads1_2 true = 1
  hreads1_2 : ∀ i i' : grid1.Coords, (∀ a, reads1_2 a = true → i a = i' a) → cc1_transform_2 i = cc1_transform_2 i'
  hinb1_2 : ∀ (i : grid1.Coords) a, (cc1_transform_2 i a + 1) * S64x512.size a ≤ S64x512.size a
  hwx1_2 : ∀ i : grid1.Coords, EltTy.bits .f32 = 32 ∨ (Rect.block (s := S64x512) S64x512.size (cc1_transform_2 i) (hinb1_2 i)).WholeWords (EltTy.packing .f32)
  hstage1_3 : ∀ j, (stage1_3 j).IsWhole
  nbuf1_3 : grid1.bufCount reads1_3 false = 2
  hreads1_3 : ∀ i i' : grid1.Coords, (∀ a, reads1_3 a = true → i a = i' a) → cc1_transform_3 i = cc1_transform_3 i'
  hinb1_3 : ∀ (i : grid1.Coords) a, (cc1_transform_3 i a + 1) * S2048x512.size a ≤ S262144x512.size a
  hwx1_3 : ∀ i : grid1.Coords, EltTy.bits .f32 = 32 ∨ (Rect.block (s := S262144x512) S2048x512.size (cc1_transform_3 i) (hinb1_3 i)).WholeWords (EltTy.packing .f32)

variable [Facts₀]

def dot_S64x4096_S4096x512_S64x512_1_0_0_1_n_n : DotDims S64x4096 S4096x512 S64x512 where
  lhsContracting := [1]
  rhsContracting := [0]
  lhsNonContracting := [0]
  rhsNonContracting := [1]
  lhsBatch := []
  rhsBatch := []
  wf := dot_S64x4096_S4096x512_S64x512_1_0_0_1_n_n_wf
def dot_S64x512_S512x512_S64x512_1_0_0_1_n_n : DotDims S64x512 S512x512 S64x512 where
  lhsContracting := [1]
  rhsContracting := [0]
  lhsNonContracting := [0]
  rhsNonContracting := [1]
  lhsBatch := []
  rhsBatch := []
  wf := dot_S64x512_S512x512_S64x512_1_0_0_1_n_n_wf
def dot_S64x2048_S64x512_S2048x512_0_0_1_1_n_n : DotDims S64x2048 S64x512 S2048x512 where
  lhsContracting := [0]
  rhsContracting := [0]
  lhsNonContracting := [1]
  rhsNonContracting := [1]
  lhsBatch := []
  rhsBatch := []
  wf := dot_S64x2048_S64x512_S2048x512_0_0_1_1_n_n_wf

abbrev win0_0 : Pipeline.Window sig grid0 :=
  Pipeline.Window.ofSpec (Memref.whole main_arg0) S4096x512.size cc0_transform_0 reads0_0 false false 2 stage0_0 sem0_0
    hrank0 hreads0_0 hinb0_0 nbuf0_0 (Memref.isWhole_whole _) hwx0_0 hstage0_0

abbrev win0_1 : Pipeline.Window sig grid0 :=
  Pipeline.Window.ofSpec (Memref.whole main_v0) S1x4096.size cc0_transform_1 reads0_1 false false 2 stage0_1 sem0_1
    hrank0 hreads0_1 hinb0_1 nbuf0_1 (Memref.isWhole_whole _) hwx0_1 hstage0_1

abbrev win0_2 : Pipeline.Window sig grid0 :=
  Pipeline.Window.ofSpec (Memref.whole main_v1_0) S1x64x512.size cc0_transform_2 reads0_2 true false 2 stage0_2 sem0_2
    hrank0 hreads0_2 hinb0_2 nbuf0_2 (Memref.isWhole_whole _) hwx0_2 hstage0_2

abbrev win0_3 : Pipeline.Window sig grid0 :=
  Pipeline.Window.ofSpec (Memref.whole main_v1_1) S1x64x128.size cc0_transform_3 reads0_3 true false 2 stage0_3 sem0_3
    hrank0 hreads0_3 hinb0_3 nbuf0_3 (Memref.isWhole_whole _) hwx0_3 hstage0_3

abbrev win0 : Fin 4 → Pipeline.Window sig grid0 := fun | 0 => win0_0 | 1 => win0_1 | 2 => win0_2 | 3 => win0_3 | ⟨_ + 4, h⟩ => absurd h (Nat.not_lt.2 (Nat.le_add_left _ _))
abbrev spec0 : Fin 4 → Pipeline.WinSpec sig grid0.rank := fun w => (win0 w).toWinSpec

abbrev idle0 : Fin 4 → grid0.Coords → Bool := fun | 0 => fun _ => false | 1 => fun _ => false | 2 => fun i => !(k0_cond2 i == 1#1) | 3 => fun i => !(k0_cond2 i == 1#1) | ⟨_ + 4, h⟩ => absurd h (Nat.not_lt.2 (Nat.le_add_left _ _))

abbrev win1_0 : Pipeline.Window sig grid1 :=
  Pipeline.Window.ofSpec (Memref.whole main_arg0) S2048x512.size cc1_transform_0 reads1_0 false false 2 stage1_0 sem1_0
    hrank1 hreads1_0 hinb1_0 nbuf1_0 (Memref.isWhole_whole _) hwx1_0 hstage1_0

abbrev win1_1 : Pipeline.Window sig grid1 :=
  Pipeline.Window.ofSpec (Memref.whole main_v0) S1x2048.size cc1_transform_1 reads1_1 false false 2 stage1_1 sem1_1
    hrank1 hreads1_1 hinb1_1 nbuf1_1 (Memref.isWhole_whole _) hwx1_1 hstage1_1

abbrev win1_2 : Pipeline.Window sig grid1 :=
  Pipeline.Window.ofSpec (Memref.whole main_v25) S64x512.size cc1_transform_2 reads1_2 false true 1 stage1_2 sem1_2
    hrank1 hreads1_2 hinb1_2 nbuf1_2 (Memref.isWhole_whole _) hwx1_2 hstage1_2

abbrev win1_3 : Pipeline.Window sig grid1 :=
  Pipeline.Window.ofSpec (Memref.whole main_v26) S2048x512.size cc1_transform_3 reads1_3 true false 2 stage1_3 sem1_3
    hrank1 hreads1_3 hinb1_3 nbuf1_3 (Memref.isWhole_whole _) hwx1_3 hstage1_3

abbrev win1 : Fin 4 → Pipeline.Window sig grid1 := fun | 0 => win1_0 | 1 => win1_1 | 2 => win1_2 | 3 => win1_3 | ⟨_ + 4, h⟩ => absurd h (Nat.not_lt.2 (Nat.le_add_left _ _))
abbrev spec1 : Fin 4 → Pipeline.WinSpec sig grid1.rank := fun w => (win1 w).toWinSpec

class Facts : Prop extends Facts₀ where

variable [Facts]
-- ==== ReferenceIdeal.lean ====
abbrev S262144x512 : Shape := ⟨2, ![262144, 512]⟩
abbrev S262144 : Shape := ⟨1, ![262144]⟩
abbrev S512x512 : Shape := ⟨2, ![512, 512]⟩
abbrev S512 : Shape := ⟨1, ![512]⟩
abbrev S_ : Shape := ⟨0, ![]⟩
abbrev S64x512 : Shape := ⟨2, ![64, 512]⟩
abbrev S262144x1 : Shape := ⟨2, ![262144, 1]⟩
abbrev S64 : Shape := ⟨1, ![64]⟩
abbrev S64x1 : Shape := ⟨2, ![64, 1]⟩
abbrev S1x512 : Shape := ⟨2, ![1, 512]⟩

abbrev nBuf : Space → Nat
  | .hbm => 53
  | .vmem => 0
  | .smem => 0
  | _ => 0

abbrev bufTy : (tb : Table) → Fin (tcTables nBuf tb) → BufTy
  | .hbm, ⟨0, _⟩ => ⟨S262144x512, .f32⟩
  | .hbm, ⟨1, _⟩ => ⟨S262144, .i32⟩
  | .hbm, ⟨2, _⟩ => ⟨S512x512, .f32⟩
  | .hbm, ⟨3, _⟩ => ⟨S512, .f32⟩
  | .hbm, ⟨4, _⟩ => ⟨S512x512, .f32⟩
  | .hbm, ⟨5, _⟩ => ⟨S512, .f32⟩
  | .hbm, ⟨6, _⟩ => ⟨S_, .f32⟩
  | .hbm, ⟨7, _⟩ => ⟨S64x512, .f32⟩
  | .hbm, ⟨8, _⟩ => ⟨S262144x1, .i32⟩
  | .hbm, ⟨9, _⟩ => ⟨S64x512, .f32⟩
  | .hbm, ⟨10, _⟩ => ⟨S_, .f32⟩
  | .hbm, ⟨11, _⟩ => ⟨S262144, .f32⟩
  | .hbm, ⟨12, _⟩ => ⟨S_, .f32⟩
  | .hbm, ⟨13, _⟩ => ⟨S64, .f32⟩
  | .hbm, ⟨14, _⟩ => ⟨S262144x1, .i32⟩
  | .hbm, ⟨15, _⟩ => ⟨S64, .f32⟩
  | .hbm, ⟨16, _⟩ => ⟨S_, .f32⟩
  | .hbm, ⟨17, _⟩ => ⟨S64, .f32⟩
  | .hbm, ⟨18, _⟩ => ⟨S64, .f32⟩
  | .hbm, ⟨19, _⟩ => ⟨S64x1, .f32⟩
  | .hbm, ⟨20, _⟩ => ⟨S64x512, .f32⟩
  | .hbm, ⟨21, _⟩ => ⟨S64x512, .f32⟩
  | .hbm, ⟨22, _⟩ => ⟨S512x512, .f32⟩
  | .hbm, ⟨23, _⟩ => ⟨S64x512, .f32⟩
  | .hbm, ⟨24, _⟩ => ⟨S1x512, .f32⟩
  | .hbm, ⟨25, _⟩ => ⟨S64x512, .f32⟩
  | .hbm, ⟨26, _⟩ => ⟨S64x512, .f32⟩
  | .hbm, ⟨27, _⟩ => ⟨S_, .f32⟩
  | .hbm, ⟨28, _⟩ => ⟨S64x512, .f32⟩
  | .hbm, ⟨29, _⟩ => ⟨S64x512, .f32⟩
  | .hbm, ⟨30, _⟩ => ⟨S512x512, .f32⟩
  | .hbm, ⟨31, _⟩ => ⟨S64x512, .f32⟩
  | .hbm, ⟨32, _⟩ => ⟨S1x512, .f32⟩
  | .hbm, ⟨33, _⟩ => ⟨S64x512, .f32⟩
  | .hbm, ⟨34, _⟩ => ⟨S64x512, .f32⟩
  | .hbm, ⟨35, _⟩ => ⟨S64x512, .f32⟩
  | .hbm, ⟨36, _⟩ => ⟨S64x512, .f32⟩
  | .hbm, ⟨37, _⟩ => ⟨S_, .f32⟩
  | .hbm, ⟨38, _⟩ => ⟨S64x512, .f32⟩
  | .hbm, ⟨39, _⟩ => ⟨S64x512, .f32⟩
  | .hbm, ⟨40, _⟩ => ⟨S_, .f32⟩
  | .hbm, ⟨41, _⟩ => ⟨S64x512, .f32⟩
  | .hbm, ⟨42, _⟩ => ⟨S64x512, .f32⟩
  | .hbm, ⟨43, _⟩ => ⟨S_, .i32⟩
  | .hbm, ⟨44, _⟩ => ⟨S262144, .i32⟩
  | .hbm, ⟨45, _⟩ => ⟨S262144, .i1⟩
  | .hbm, ⟨46, _⟩ => ⟨S_, .i32⟩
  | .hbm, ⟨47, _⟩ => ⟨S262144, .i32⟩
  | .hbm, ⟨48, _⟩ => ⟨S262144, .i32⟩
  | .hbm, ⟨49, _⟩ => ⟨S262144, .i32⟩
  | .hbm, ⟨50, _⟩ => ⟨S262144x1, .i32⟩
  | .hbm, ⟨51, _⟩ => ⟨S262144x512, .f32⟩
  | .hbm, ⟨52, _⟩ => ⟨S262144x512, .f32⟩
  | _, _ => ⟨S262144x512, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_arg5 : Ref sig .tc := ⟨.hbm, 5, rfl⟩
abbrev main_cst : Ref sig .tc := ⟨.hbm, 6, rfl⟩
abbrev main_v0 : Ref sig .tc := ⟨.hbm, 7, rfl⟩
abbrev main_v1 : Ref sig .tc := ⟨.hbm, 8, rfl⟩
abbrev main_v2 : Ref sig .tc := ⟨.hbm, 9, rfl⟩
abbrev main_cst_0 : Ref sig .tc := ⟨.hbm, 10, rfl⟩
abbrev main_v3 : Ref sig .tc := ⟨.hbm, 11, rfl⟩
abbrev main_cst_1 : Ref sig .tc := ⟨.hbm, 12, rfl⟩
abbrev main_v4 : Ref sig .tc := ⟨.hbm, 13, rfl⟩
abbrev main_v5 : Ref sig .tc := ⟨.hbm, 14, rfl⟩
abbrev main_v6 : Ref sig .tc := ⟨.hbm, 15, rfl⟩
abbrev main_cst_2 : Ref sig .tc := ⟨.hbm, 16, rfl⟩
abbrev main_v7 : Ref sig .tc := ⟨.hbm, 17, rfl⟩
abbrev main_v8 : Ref sig .tc := ⟨.hbm, 18, rfl⟩
abbrev main_v9 : Ref sig .tc := ⟨.hbm, 19, rfl⟩
abbrev main_v10 : Ref sig .tc := ⟨.hbm, 20, rfl⟩
abbrev main_v11 : Ref sig .tc := ⟨.hbm, 21, rfl⟩
abbrev main_v12 : Ref sig .tc := ⟨.hbm, 22, rfl⟩
abbrev main_v13 : Ref sig .tc := ⟨.hbm, 23, rfl⟩
abbrev main_v14 : Ref sig .tc := ⟨.hbm, 24, rfl⟩
abbrev main_v15 : Ref sig .tc := ⟨.hbm, 25, rfl⟩
abbrev main_v16 : Ref sig .tc := ⟨.hbm, 26, rfl⟩
abbrev main_call0_cst : Ref sig .tc := ⟨.hbm, 27, rfl⟩
abbrev main_call0_v0 : Ref sig .tc := ⟨.hbm, 28, rfl⟩
abbrev main_v17 : Ref sig .tc := ⟨.hbm, 29, rfl⟩
abbrev main_v18 : Ref sig .tc := ⟨.hbm, 30, rfl⟩
abbrev main_v19 : Ref sig .tc := ⟨.hbm, 31, rfl⟩
abbrev main_v20 : Ref sig .tc := ⟨.hbm, 32, rfl⟩
abbrev main_v21 : Ref sig .tc := ⟨.hbm, 33, rfl⟩
abbrev main_v22 : Ref sig .tc := ⟨.hbm, 34, rfl⟩
abbrev main_v23 : Ref sig .tc := ⟨.hbm, 35, rfl⟩
abbrev main_v24 : Ref sig .tc := ⟨.hbm, 36, rfl⟩
abbrev main_cst_3 : Ref sig .tc := ⟨.hbm, 37, rfl⟩
abbrev main_v25 : Ref sig .tc := ⟨.hbm, 38, rfl⟩
abbrev main_v26 : Ref sig .tc := ⟨.hbm, 39, rfl⟩
abbrev main_cst_4 : Ref sig .tc := ⟨.hbm, 40, rfl⟩
abbrev main_v27 : Ref sig .tc := ⟨.hbm, 41, rfl⟩
abbrev main_v28 : Ref sig .tc := ⟨.hbm, 42, rfl⟩
abbrev main_c : Ref sig .tc := ⟨.hbm, 43, rfl⟩
abbrev main_v29 : Ref sig .tc := ⟨.hbm, 44, rfl⟩
abbrev main_v30 : Ref sig .tc := ⟨.hbm, 45, rfl⟩
abbrev main_c_5 : Ref sig .tc := ⟨.hbm, 46, rfl⟩
abbrev main_v31 : Ref sig .tc := ⟨.hbm, 47, rfl⟩
abbrev main_v32 : Ref sig .tc := ⟨.hbm, 48, rfl⟩
abbrev main_v33 : Ref sig .tc := ⟨.hbm, 49, rfl⟩
abbrev main_v34 : Ref sig .tc := ⟨.hbm, 50, rfl⟩
abbrev main_v35 : Ref sig .tc := ⟨.hbm, 51, rfl⟩
abbrev main_v36 : Ref sig .tc := ⟨.hbm, 52, rfl⟩

abbrev nD : Nat := 1
abbrev τ : Topo := Topo.v7x

variable {F : FTy → Type} [FloatOps F]

class Facts₀ : Prop where
  bcast_S_S64x512 : S_.BroadcastsInDim S64x512 (![] : Fin 0 → Fin S64x512.rank)
  bcast_S262144_S262144x1_0 : S262144.BroadcastsInDim S262144x1 (![0] : Fin 1 → Fin S262144x1.rank)
  bcast_S_S262144 : S_.BroadcastsInDim S262144 (![] : Fin 0 → Fin S262144.rank)
  bcast_S_S64 : S_.BroadcastsInDim S64 (![] : Fin 0 → Fin S64.rank)
  bcast_S64_S64x1_0 : S64.BroadcastsInDim S64x1 (![0] : Fin 1 → Fin S64x1.rank)
  bcast_S64x1_S64x512_0_1 : S64x1.BroadcastsInDim S64x512 (![0, 1] : Fin 2 → Fin S64x512.rank)
  transposes_S512x512_S512x512_1_0 : S512x512.Transposes [1, 0] S512x512
  bcast_S512_S1x512_1 : S512.BroadcastsInDim S1x512 (![1] : Fin 1 → Fin S1x512.rank)
  bcast_S1x512_S64x512_0_1 : S1x512.BroadcastsInDim S64x512 (![0, 1] : Fin 2 → Fin S64x512.rank)
  scatter_S64x512_S262144x1_S262144x512_1_0_0_1_wf : ScatterDims.WF S64x512 S262144x1 S262144x512 [1] [0] [0] 1
  scatter_S64_S262144x1_S262144_n_0_0_1_wf : ScatterDims.WF S64 S262144x1 S262144 [] [0] [0] 1
  dot_S64x512_S512x512_S64x512_1_0_0_1_n_n_wf : DotDims.WF S64x512 S512x512 S64x512 [1] [0] [0] [1] [] []
  gather_S64x512_S262144x1_S262144x512_1_0_n_n_0_1_1512_wf : GatherDims.WF S64x512 S262144x1 S262144x512 [1] [0] [] [0] [] 1 ![1, 512]

variable [Facts₀]

def scatter_S64x512_S262144x1_S262144x512_1_0_0_1 : ScatterDims S64x512 S262144x1 S262144x512 where
  updateWindowDims := [1]
  insertedWindowDims := [0]
  scatterDimsToOperandDims := [0]
  indexVectorDim := 1
  wf := scatter_S64x512_S262144x1_S262144x512_1_0_0_1_wf
def scatter_S64_S262144x1_S262144_n_0_0_1 : ScatterDims S64 S262144x1 S262144 where
  updateWindowDims := []
  insertedWindowDims := [0]
  scatterDimsToOperandDims := [0]
  indexVectorDim := 1
  wf := scatter_S64_S262144x1_S262144_n_0_0_1_wf
def dot_S64x512_S512x512_S64x512_1_0_0_1_n_n : DotDims S64x512 S512x512 S64x512 where
  lhsContracting := [1]
  rhsContracting := [0]
  lhsNonContracting := [0]
  rhsNonContracting := [1]
  lhsBatch := []
  rhsBatch := []
  wf := dot_S64x512_S512x512_S64x512_1_0_0_1_n_n_wf
def gather_S64x512_S262144x1_S262144x512_1_0_n_n_0_1_1512 : GatherDims S64x512 S262144x1 S262144x512 where
  offsetDims := [1]
  collapsedSliceDims := [0]
  operandBatchingDims := []
  startIndicesBatchingDims := []
  startIndexMap := [0]
  indexVectorDim := 1
  sliceSizes := ![1, 512]
  wf := gather_S64x512_S262144x1_S262144x512_1_0_n_n_0_1_1512_wf

class Facts : Prop extends Facts₀ where

variable [Facts]
-- ==== Proof.R0.lean ====
/-
  Region 0 (the segment-sum reduction) as pipeline proof data, at any float family: what the two VMEM
  accumulators hold after each grid point, and what the pipeline's windows hold.

  The grid is 2 x 32, point t = 32 * c + i. At point t the body adds to the accumulators the one-hot
  product of the point's id block with the point's row block (and, to the row counter, the one-hot's
  lane sums), starting from zero when i = 0; when i = 31 it copies both accumulators to the output
  windows' staging buffers, which the pipeline writes back exactly there.
-/
import proofs.«409112_j63488206570149_3_alg».proof.Proof.Gen.KernelIdeal.Launch
import proofs.«409112_j63488206570149_3_alg».proof.Proof.Gen.KernelIdeal.Skeleton
import proofs.«409112_j63488206570149_3_alg».proof.Proof.Gen.KernelIdeal.Points
import Idealize.ShloMosaic.Lib.Pipeline.FrameBody
import Idealize.ShloMosaic.Lib.Pipeline.Value
import Idealize.ShloMosaic.Lib.Pipeline.RegionsLoop
import Idealize.ShloMosaic.Lib.Pipeline.FrameSuffix
import Idealize.ShloMosaic.Lib.Ring
import Idealize.ShloMosaic.Lib.Tactic

set_option maxRecDepth 16384

noncomputable section

namespace Cert.KernelIdeal.R0

open Cert.KernelIdeal Cert.KernelIdeal.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ (UR sig nD τ) ℕ

variable (V : (c : Dev nD) → (b : Ref sig .tc) → Buf (Elt F) ((c : Thread nD τ).loc b))

/-- Window `w`'s block at point `t`, read off its array as the region finds it. -/
def iblk0 (c : Dev nD) (w : Fin cfg0.W) (t : Fin cfg0.N) : ((cfg0.win w).xblock (cfg0.grid.coords t)).Idx → Elt F (cfg0.win w).elt :=
  ((cfg0.win w).blk t).view.read (Elt F) (V c (Pipeline.arrRef spec0 w))

/-- The sum accumulator [64, 512] after point `n`: the point's one-hot product added to zero at the first
    inner step of a core, to what the point before left otherwise. -/
def accS (c : Dev nD) : (n : ℕ) → n < cfg0.N → Vec F S64x512 .f32
  | 0, hn => k0_pay4 (iblk0 V c 1 ⟨0, hn⟩) (iblk0 V c 0 ⟨0, hn⟩) (k0_pay1 (F := F))
  | n + 1, hn => k0_pay4 (iblk0 V c 1 ⟨n + 1, hn⟩) (iblk0 V c 0 ⟨n + 1, hn⟩)
      (if (n + 1) % 32 = 0 then (k0_pay1 (F := F)) else accS c n (Nat.lt_of_succ_lt hn))
/-- The row counter [64, 128] after point `n`, likewise. -/
def accC (c : Dev nD) : (n : ℕ) → n < cfg0.N → Vec F S64x128 .f32
  | 0, hn => k0_pay5 (iblk0 V c 1 ⟨0, hn⟩) (k0_pay2 (F := F))
  | n + 1, hn => k0_pay5 (iblk0 V c 1 ⟨n + 1, hn⟩)
      (if (n + 1) % 32 = 0 then (k0_pay2 (F := F)) else accC c n (Nat.lt_of_succ_lt hn))

/-- The two accumulators as whole memrefs. -/
abbrev scS : Memref sig .tc .vmem S64x512 .f32 := Memref.whole cc0_scratch0
abbrev scC : Memref sig .tc .vmem S64x128 .f32 := Memref.whole cc0_scratch1

/-- The core's other scoped buffers that are no staging buffer of this pipeline (the second pipeline's seven
    staging buffers), each whole at some contents. -/
abbrev restBufs (c : Dev nD) : sProp 𝕄 :=
  iprop((∃ d, owns (c : Thread nD τ) (Memref.whole cc1_stg0_0) fullShare d) ∗ (∃ d, owns (c : Thread nD τ) (Memref.whole cc1_stg0_1) fullShare d)
    ∗ (∃ d, owns (c : Thread nD τ) (Memref.whole cc1_stg1_0) fullShare d) ∗ (∃ d, owns (c : Thread nD τ) (Memref.whole cc1_stg1_1) fullShare d)
    ∗ (∃ d, owns (c : Thread nD τ) (Memref.whole cc1_stg2_0) fullShare d) ∗ (∃ d, owns (c : Thread nD τ) (Memref.whole cc1_stg3_0) fullShare d)
    ∗ (∃ d, owns (c : Thread nD τ) (Memref.whole cc1_stg3_1) fullShare d))

/-- The region's invariant before position `n`: before the first point what the launch hands the region (every
    scoped buffer that is no staging buffer of this pipeline at anything, the generator register at some
    state); afterwards the same with the two accumulators at what the point before left. -/
def PhiS (c : Dev nD) : (n : ℕ) → n ≤ cfg0.N → sProp 𝕄
  | 0, _ => Pipeline.ΦA spec0 c
  | n + 1, hn => iprop(iprop(owns (c : Thread nD τ) scS fullShare (accS V c n hn) ∗ owns (c : Thread nD τ) scC fullShare (accC V c n hn)
      ∗ restBufs c) ∗ (∃ r, prngReg c r))

/-- The class invariant with the two accumulators and the other scoped buffers as memrefs owned at some contents. -/
theorem PhiA0_eq (c : Dev nD) :
    (Pipeline.ΦA spec0 c : sProp 𝕄)
      = iprop(iprop((∃ d, owns (c : Thread nD τ) scS fullShare d) ∗ (∃ d, owns (c : Thread nD τ) scC fullShare d) ∗ restBufs c) ∗ (∃ r, prngReg c r)) := by
  unfold Pipeline.ΦA; rw [scopedRest0_eq]; simp only [scS, scC, restBufs, owns_whole]; try rfl

/-- The proof data of pipeline 0 on core `c`. -/
def dat0 (c : Dev nD) : Dat τ (Elt F) Unit ℕ (UR sig nD τ) ℕ cfg0 c where
  A w := V c (Pipeline.arrRef spec0 w)
  after w t := match w with
    | ⟨0, _⟩ => iblk0 V c 0 t
    | ⟨1, _⟩ => iblk0 V c 1 t
    | ⟨2, _⟩ => k0_pay6 (accS V c t.val t.isLt)
    | ⟨3, _⟩ => k0_pay7 (accC V c t.val t.isLt)
  Φ t := PhiS V c t.val (Nat.le_of_lt_succ t.isLt)
  q _ := fullShare
  owed _ := 0

variable {V}

/-- The proof data's arrays are the region-entry contents. -/
theorem A_eq0 (c : Dev nD) (w : Fin cfg0.W) : (dat0 V c).A w = V c (Pipeline.arrRef spec0 w) := by
  dsimp only [dat0]
theorem after0_0 (c : Dev nD) (t : Fin cfg0.N) : (dat0 V c).after 0 t = iblk0 V c 0 t := by dsimp only [dat0]
theorem after0_1 (c : Dev nD) (t : Fin cfg0.N) : (dat0 V c).after 1 t = iblk0 V c 1 t := by dsimp only [dat0]
theorem after0_2 (c : Dev nD) (t : Fin cfg0.N) : (dat0 V c).after 2 t = k0_pay6 (accS V c t.val t.isLt) := by dsimp only [dat0]
theorem after0_3 (c : Dev nD) (t : Fin cfg0.N) : (dat0 V c).after 3 t = k0_pay7 (accC V c t.val t.isLt) := by dsimp only [dat0]

variable (V)

/-! ## The body's two branch conditions, in closed form over the grid -/

/-- The first branch's condition (the inner grid coordinate is 0), from the grid coordinates. -/
abbrev condFirst (i : grid0.Coords) : Prop :=
  (Scalar.cmpi .ne (Scalar.extui (Scalar.cmpi .eq (BitVec.ofNat 32 (i 1).val) 0#32)) 0#32) = 1#1
/-- It holds exactly at the points that are 0 modulo 32: decided over the 64 points. -/
theorem hcondFirst : ∀ t : Fin cfg0.N, condFirst (grid0.coords t) ↔ t.val % 32 = 0 :=
  (by decide +kernel : ∀ t : Fin grid0.N, condFirst (grid0.coords t) ↔ t.val % 32 = 0)

/-- The second branch's condition (the inner grid coordinate is 31). -/
abbrev condLast (i : grid0.Coords) : Prop := k0_cond2 i = 1#1
/-- It holds exactly at the points that are 31 modulo 32. -/
theorem hcondLast : ∀ t : Fin cfg0.N, condLast (grid0.coords t) ↔ t.val % 32 = 31 :=
  (by decide +kernel : ∀ t : Fin grid0.N, condLast (grid0.coords t) ↔ t.val % 32 = 31)

/-! ## Where the windows are idle -/

theorem live0_0 : ∀ t : Fin cfg0.N, cfg0.idle 0 (grid0.coords t) = false := by decide +kernel
theorem live0_1 : ∀ t : Fin cfg0.N, cfg0.idle 1 (grid0.coords t) = false := by decide +kernel
/-- Away from the last inner step the two output windows are idle and are not written back. -/
theorem idle0_2 : ∀ t : Fin cfg0.N, ¬condLast (grid0.coords t) → cfg0.idle 2 (grid0.coords t) = true := by decide +kernel
theorem idle0_3 : ∀ t : Fin cfg0.N, ¬condLast (grid0.coords t) → cfg0.idle 3 (grid0.coords t) = true := by decide +kernel
theorem noFlush0_2 : ∀ t : Fin cfg0.N, ¬condLast (grid0.coords t) → (cfg0.win 2).flush t = false := by decide +kernel
theorem noFlush0_3 : ∀ t : Fin cfg0.N, ¬condLast (grid0.coords t) → (cfg0.win 3).flush t = false := by decide +kernel
/-- At the last inner step they are live. -/
theorem live0_2 : ∀ t : Fin cfg0.N, condLast (grid0.coords t) → cfg0.idle 2 (grid0.coords t) = false := by decide +kernel
theorem live0_3 : ∀ t : Fin cfg0.N, condLast (grid0.coords t) → cfg0.idle 3 (grid0.coords t) = false := by decide +kernel

/-! ## The input windows' buffers hold their blocks at every point -/

theorem before0_0 (c : Dev nD) (t : Fin cfg0.N) (d) : (dat0 V c).before 0 t d = iblk0 V c 0 t :=
  ((dat0 V c).before_in_eq_fetched 0 rfl (fun _ => rfl) (fun _ _ _ => rfl)
    (fun t => by rw [after0_0]; unfold Dat.blockOf iblk0; rw [A_eq0]; try rfl) t d).trans
    (by unfold Dat.fetched Dat.blockOf iblk0; rw [A_eq0]; try rfl)
theorem before0_1 (c : Dev nD) (t : Fin cfg0.N) (d) : (dat0 V c).before 1 t d = iblk0 V c 1 t :=
  ((dat0 V c).before_in_eq_fetched 1 rfl (fun _ => rfl) (fun _ _ _ => rfl)
    (fun t => by rw [after0_1]; unfold Dat.blockOf iblk0; rw [A_eq0]; try rfl) t d).trans
    (by unfold Dat.fetched Dat.blockOf iblk0; rw [A_eq0]; try rfl)

/-! ## The invariant and the accumulators, unfolded at a point -/

theorem PhiS_zero (c : Dev nD) (n : ℕ) (h : n ≤ cfg0.N) (hz : n = 0) : PhiS V c n h = Pipeline.ΦA spec0 c := by
  subst hz; rfl

theorem PhiS_succ (c : Dev nD) (n : ℕ) (hn : n < cfg0.N) :
    PhiS V c (n + 1) hn = iprop(iprop(owns (c : Thread nD τ) scS fullShare (accS V c n hn) ∗ owns (c : Thread nD τ) scC fullShare (accC V c n hn)
      ∗ restBufs c) ∗ (∃ r, prngReg c r)) := rfl

theorem PhiS_pos (c : Dev nD) (n : ℕ) (h : n ≤ cfg0.N) (hz : n ≠ 0) :
    PhiS V c n h = iprop(iprop(owns (c : Thread nD τ) scS fullShare (accS V c (n - 1) (by omega)) ∗ owns (c : Thread nD τ) scC fullShare (accC V c (n - 1) (by omega))
      ∗ restBufs c) ∗ (∃ r, prngReg c r)) := by
  cases n with
  | zero => exact absurd rfl hz
  | succ n => rfl

theorem PhiS_castSucc (c : Dev nD) (t : Fin cfg0.N) :
    (dat0 V c).Φ t.castSucc = PhiS V c t.val (Nat.le_of_lt t.isLt) := by
  dsimp only [dat0]; simp only [Fin.coe_castSucc]

/-- The sum accumulator after a point that opens a core's sweep: the point's product added to zero. -/
theorem accS_first (c : Dev nD) (t : Fin cfg0.N) (h0 : t.val % 32 = 0) :
    accS V c t.val t.isLt = k0_pay4 (iblk0 V c 1 t) (iblk0 V c 0 t) (k0_pay1 (F := F)) := by
  obtain ⟨n, hn⟩ := t
  cases n with
  | zero => rfl
  | succ n => exact congrArg (k0_pay4 _ _) (if_pos h0)
/-- After any other point: the point's product added to what the point before left. -/
theorem accS_next (c : Dev nD) (t : Fin cfg0.N) (h0 : ¬t.val % 32 = 0) :
    accS V c t.val t.isLt = k0_pay4 (iblk0 V c 1 t) (iblk0 V c 0 t) (accS V c (t.val - 1) (Nat.lt_of_le_of_lt (Nat.sub_le _ _) t.isLt)) := by
  obtain ⟨n, hn⟩ := t
  cases n with
  | zero => exact absurd (Nat.zero_mod _) h0
  | succ n => exact congrArg (k0_pay4 _ _) (if_neg h0)
theorem accC_first (c : Dev nD) (t : Fin cfg0.N) (h0 : t.val % 32 = 0) :
    accC V c t.val t.isLt = k0_pay5 (iblk0 V c 1 t) (k0_pay2 (F := F)) := by
  obtain ⟨n, hn⟩ := t
  cases n with
  | zero => rfl
  | succ n => exact congrArg (k0_pay5 _) (if_pos h0)
theorem accC_next (c : Dev nD) (t : Fin cfg0.N) (h0 : ¬t.val % 32 = 0) :
    accC V c t.val t.isLt = k0_pay5 (iblk0 V c 1 t) (accC V c (t.val - 1) (Nat.lt_of_le_of_lt (Nat.sub_le _ _) t.isLt)) := by
  obtain ⟨n, hn⟩ := t
  cases n with
  | zero => exact absurd (Nat.zero_mod _) h0
  | succ n => exact congrArg (k0_pay5 _) (if_neg h0)

/-! ## Whole-buffer accesses: every load and store of the body is through the full rectangle at offset zero -/

theorem zero_off2 : (![0, 0] : Fin 2 → ℕ) = fun _ => 0 := by funext a; fin_cases a <;> rfl
theorem zero_off3 : (![0, 0, 0] : Fin 3 → ℕ) = fun _ => 0 := by funext a; fin_cases a <;> rfl

/-- A load through the full rectangle at offset zero reads the buffer's contents. -/
theorem readAt_full {S : Shape} {e : EltTy} {sp : Space} (v : View sig .tc sp S e) (f : v.ty.Contents (Elt F))
    {off : Fin S.rank → ℕ} (h : off = fun _ => 0) (inb : ∀ a, off a + S.size a ≤ S.size a) :
    View.readAt (Elt F) v (Rect.unit off S.size inb).toLoadRect f = v.read (Elt F) f := by
  rw [View.readAt_eq_ld, View.ld_unit_zero h]

/-- A store through the full rectangle at offset zero, the last of a run's stores, leaves exactly its payload. -/
theorem read_store_full {S : Shape} {e : EltTy} {sp : Space} (v : View sig .tc sp S e) (f : v.ty.Contents (Elt F))
    {off : Fin S.rank → ℕ} (h : off = fun _ => 0) (inb : ∀ a, off a + S.size a ≤ S.size a) (w : S.Idx → Elt F e)
    (L : List (View.Piece (Elt F) S e)) :
    v.read (Elt F) (v.writes (Elt F) f (⟨Rect.unit off S.size inb, w⟩ :: L)) = w := by
  rw [View.read_writes_eq_canon _ _ _ (fun y => ⟨_, List.mem_cons_self .., View.mem_set_unit_zero h inb y⟩),
    View.canon_cons_unit_zero h]

/-! ## The body's triple, case by case

Over any whole memrefs: arg2 the row block (x0), arg3 the id block (x1), arg4 and arg5 the two output windows'
buffers, arg6 and arg7 the two accumulators. -/

set_option maxHeartbeats 2000000 in
/-- A point that opens a core's sweep (first branch taken, second not): the accumulators, found at anything, are
    zeroed and then updated; the inputs and the two output buffers are left as found. -/
theorem kernel_first (c : Dev nD) (E : Set ℕ) (i : grid0.Coords)
    (arg2 : Memref sig .tc .vmem S4096x512 .f32) (harg2 : arg2.IsWhole) (arg3 : Memref sig .tc .vmem S1x4096 .i32) (harg3 : arg3.IsWhole)
    (arg4 : Memref sig .tc .vmem S1x64x512 .f32) (harg4 : arg4.IsWhole) (arg5 : Memref sig .tc .vmem S1x64x128 .f32) (harg5 : arg5.IsWhole)
    (arg6 : Memref sig .tc .vmem S64x512 .f32) (harg6 : arg6.IsWhole) (arg7 : Memref sig .tc .vmem S64x128 .f32) (harg7 : arg7.IsWhole)
    (hc0 : condFirst i) (hc1 : ¬condLast i)
    (x0 : Vec F S4096x512 .f32) (x1 : Vec F S1x4096 .i32) (d4 : Vec F S1x64x512 .f32) (d5 : Vec F S1x64x128 .f32)
    (K : PUnit → sProp 𝕄) :
    iprop(owns (c : Thread nD τ) arg2 fullShare x0 ∗ owns (c : Thread nD τ) arg3 fullShare x1
        ∗ owns (c : Thread nD τ) arg4 fullShare d4 ∗ owns (c : Thread nD τ) arg5 fullShare d5
        ∗ (∃ d, owns (c : Thread nD τ) arg6 fullShare d) ∗ (∃ d, owns (c : Thread nD τ) arg7 fullShare d)
        ∗ (iprop(owns (c : Thread nD τ) arg2 fullShare x0 ∗ owns (c : Thread nD τ) arg3 fullShare x1
            ∗ owns (c : Thread nD τ) arg4 fullShare d4 ∗ owns (c : Thread nD τ) arg5 fullShare d5
            ∗ owns (c : Thread nD τ) arg6 fullShare (k0_pay4 x1 x0 (k0_pay1 (F := F))) ∗ owns (c : Thread nD τ) arg7 fullShare (k0_pay5 x1 (k0_pay2 (F := F)))) -∗ K ⟨⟩))
      ⊢ wp frame (wpE (defs₀ (F := F)) Variants.none c none) E (cc0__reduce_kernel i arg2 harg2 arg3 harg3 arg4 harg4 arg5 harg5 arg6 harg6 arg7 harg7) K := by
  simp only [cc0__reduce_kernel_eq_skeleton]; unfold cc0__reduce_kernel_skel
  unfold owns
  iintro ⟨⟨%f2, %hf2, H2⟩, ⟨%f3, %hf3, H3⟩, ⟨%f4, %hf4, H4⟩, ⟨%f5, %hf5, H5⟩, ⟨%d6, %f6, -, H6⟩, ⟨%d7, %f7, -, H7⟩, Hk⟩
  subst hf2; subst hf3; subst hf4; subst hf5
  sl_exec (disch := first | exact hc0 | exact hc1)
  sl_step
  iapply Hk
  isplitl [H2]
  · iexists f2; isplitr; · ipureintro; rfl
    iexact H2
  isplitl [H3]
  · iexists f3; isplitr; · ipureintro; rfl
    iexact H3
  isplitl [H4]
  · iexists f4; isplitr; · ipureintro; rfl
    iexact H4
  isplitl [H5]
  · iexists f5; isplitr; · ipureintro; rfl
    iexact H5
  isplitl [H6]
  · iexists _; isplitr
    swap; · iexact H6
    ipureintro
    sl_unfold_run_names
    rw [read_store_full (F := F) arg6.view _ zero_off2]
    simp only [View.readCov_unit_zero (S := S64x512) arg6.view zero_off2, View.readCov_unit_zero (S := S64x128) arg7.view zero_off2, readAt_full (F := F) arg3.view f3 zero_off2, readAt_full (F := F) arg2.view f2 zero_off2, readAt_full (F := F) arg6.view f6 zero_off2, readAt_full (F := F) arg7.view f7 zero_off2]
  iexists _; isplitr
  swap; · iexact H7
  ipureintro
  sl_unfold_run_names
  rw [read_store_full (F := F) arg7.view _ zero_off2]
  simp only [View.readCov_unit_zero (S := S64x512) arg6.view zero_off2, View.readCov_unit_zero (S := S64x128) arg7.view zero_off2, readAt_full (F := F) arg3.view f3 zero_off2, readAt_full (F := F) arg2.view f2 zero_off2, readAt_full (F := F) arg6.view f6 zero_off2, readAt_full (F := F) arg7.view f7 zero_off2]

set_option maxHeartbeats 2000000 in
/-- A point strictly inside a core's sweep (neither branch taken): the accumulators, found at S and C, are left at
    the point's update of them; the inputs and the two output buffers are left as found. -/
theorem kernel_mid (c : Dev nD) (E : Set ℕ) (i : grid0.Coords)
    (arg2 : Memref sig .tc .vmem S4096x512 .f32) (harg2 : arg2.IsWhole) (arg3 : Memref sig .tc .vmem S1x4096 .i32) (harg3 : arg3.IsWhole)
    (arg4 : Memref sig .tc .vmem S1x64x512 .f32) (harg4 : arg4.IsWhole) (arg5 : Memref sig .tc .vmem S1x64x128 .f32) (harg5 : arg5.IsWhole)
    (arg6 : Memref sig .tc .vmem S64x512 .f32) (harg6 : arg6.IsWhole) (arg7 : Memref sig .tc .vmem S64x128 .f32) (harg7 : arg7.IsWhole)
    (hc0 : ¬condFirst i) (hc1 : ¬condLast i)
    (x0 : Vec F S4096x512 .f32) (x1 : Vec F S1x4096 .i32) (d4 : Vec F S1x64x512 .f32) (d5 : Vec F S1x64x128 .f32)
    (S : Vec F S64x512 .f32) (C : Vec F S64x128 .f32) (K : PUnit → sProp 𝕄) :
    iprop(owns (c : Thread nD τ) arg2 fullShare x0 ∗ owns (c : Thread nD τ) arg3 fullShare x1
        ∗ owns (c : Thread nD τ) arg4 fullShare d4 ∗ owns (c : Thread nD τ) arg5 fullShare d5
        ∗ owns (c : Thread nD τ) arg6 fullShare S ∗ owns (c : Thread nD τ) arg7 fullShare C
        ∗ (iprop(owns (c : Thread nD τ) arg2 fullShare x0 ∗ owns (c : Thread nD τ) arg3 fullShare x1
            ∗ owns (c : Thread nD τ) arg4 fullShare d4 ∗ owns (c : Thread nD τ) arg5 fullShare d5
            ∗ owns (c : Thread nD τ) arg6 fullShare (k0_pay4 x1 x0 S) ∗ owns (c : Thread nD τ) arg7 fullShare (k0_pay5 x1 C)) -∗ K ⟨⟩))
      ⊢ wp frame (wpE (defs₀ (F := F)) Variants.none c none) E (cc0__reduce_kernel i arg2 harg2 arg3 harg3 arg4 harg4 arg5 harg5 arg6 harg6 arg7 harg7) K := by
  simp only [cc0__reduce_kernel_eq_skeleton]; unfold cc0__reduce_kernel_skel
  unfold owns
  iintro ⟨⟨%f2, %hf2, H2⟩, ⟨%f3, %hf3, H3⟩, ⟨%f4, %hf4, H4⟩, ⟨%f5, %hf5, H5⟩, ⟨%f6, %hf6, H6⟩, ⟨%f7, %hf7, H7⟩, Hk⟩
  subst hf2; subst hf3; subst hf4; subst hf5; subst hf6; subst hf7
  sl_exec (disch := first | exact hc0 | exact hc1)
  sl_step
  iapply Hk
  isplitl [H2]
  · iexists f2; isplitr; · ipureintro; rfl
    iexact H2
  isplitl [H3]
  · iexists f3; isplitr; · ipureintro; rfl
    iexact H3
  isplitl [H4]
  · iexists f4; isplitr; · ipureintro; rfl
    iexact H4
  isplitl [H5]
  · iexists f5; isplitr; · ipureintro; rfl
    iexact H5
  isplitl [H6]
  · iexists _; isplitr
    swap; · iexact H6
    ipureintro
    sl_unfold_run_names
    rw [read_store_full (F := F) arg6.view _ zero_off2]
    simp only [View.readCov_unit_zero (S := S64x512) arg6.view zero_off2, View.readCov_unit_zero (S := S64x128) arg7.view zero_off2, readAt_full (F := F) arg3.view f3 zero_off2, readAt_full (F := F) arg2.view f2 zero_off2, readAt_full (F := F) arg6.view f6 zero_off2, readAt_full (F := F) arg7.view f7 zero_off2]
  iexists _; isplitr
  swap; · iexact H7
  ipureintro
  sl_unfold_run_names
  rw [read_store_full (F := F) arg7.view _ zero_off2]
  simp only [View.readCov_unit_zero (S := S64x512) arg6.view zero_off2, View.readCov_unit_zero (S := S64x128) arg7.view zero_off2, readAt_full (F := F) arg3.view f3 zero_off2, readAt_full (F := F) arg2.view f2 zero_off2, readAt_full (F := F) arg6.view f6 zero_off2, readAt_full (F := F) arg7.view f7 zero_off2]

set_option maxHeartbeats 2000000 in
/-- A point that closes a core's sweep (first branch not taken, second taken): the accumulators are updated and
    then copied into the two output buffers, found at anything. -/
theorem kernel_last (c : Dev nD) (E : Set ℕ) (i : grid0.Coords)
    (arg2 : Memref sig .tc .vmem S4096x512 .f32) (harg2 : arg2.IsWhole) (arg3 : Memref sig .tc .vmem S1x4096 .i32) (harg3 : arg3.IsWhole)
    (arg4 : Memref sig .tc .vmem S1x64x512 .f32) (harg4 : arg4.IsWhole) (arg5 : Memref sig .tc .vmem S1x64x128 .f32) (harg5 : arg5.IsWhole)
    (arg6 : Memref sig .tc .vmem S64x512 .f32) (harg6 : arg6.IsWhole) (arg7 : Memref sig .tc .vmem S64x128 .f32) (harg7 : arg7.IsWhole)
    (hc0 : ¬condFirst i) (hc1 : condLast i)
    (x0 : Vec F S4096x512 .f32) (x1 : Vec F S1x4096 .i32)
    (S : Vec F S64x512 .f32) (C : Vec F S64x128 .f32) (K : PUnit → sProp 𝕄) :
    iprop(owns (c : Thread nD τ) arg2 fullShare x0 ∗ owns (c : Thread nD τ) arg3 fullShare x1
        ∗ (∃ d, owns (c : Thread nD τ) arg4 fullShare d) ∗ (∃ d, owns (c : Thread nD τ) arg5 fullShare d)
        ∗ owns (c : Thread nD τ) arg6 fullShare S ∗ owns (c : Thread nD τ) arg7 fullShare C
        ∗ (iprop(owns (c : Thread nD τ) arg2 fullShare x0 ∗ owns (c : Thread nD τ) arg3 fullShare x1
            ∗ owns (c : Thread nD τ) arg4 fullShare (k0_pay6 (k0_pay4 x1 x0 S)) ∗ owns (c : Thread nD τ) arg5 fullShare (k0_pay7 (k0_pay5 x1 C))
            ∗ owns (c : Thread nD τ) arg6 fullShare (k0_pay4 x1 x0 S) ∗ owns (c : Thread nD τ) arg7 fullShare (k0_pay5 x1 C)) -∗ K ⟨⟩))
      ⊢ wp frame (wpE (defs₀ (F := F)) Variants.none c none) E (cc0__reduce_kernel i arg2 harg2 arg3 harg3 arg4 harg4 arg5 harg5 arg6 harg6 arg7 harg7) K := by
  simp only [cc0__reduce_kernel_eq_skeleton]; unfold cc0__reduce_kernel_skel
  unfold owns
  iintro ⟨⟨%f2, %hf2, H2⟩, ⟨%f3, %hf3, H3⟩, ⟨%d4, %f4, -, H4⟩, ⟨%d5, %f5, -, H5⟩, ⟨%f6, %hf6, H6⟩, ⟨%f7, %hf7, H7⟩, Hk⟩
  subst hf2; subst hf3; subst hf6; subst hf7
  sl_exec (disch := first | exact hc0 | exact hc1)
  sl_step
  iapply Hk
  isplitl [H2]
  · iexists f2; isplitr; · ipureintro; rfl
    iexact H2
  isplitl [H3]
  · iexists f3; isplitr; · ipureintro; rfl
    iexact H3
  isplitl [H4]
  · iexists _; isplitr
    swap; · iexact H4
    ipureintro
    sl_unfold_run_names
    rw [read_store_full (F := F) arg4.view _ zero_off3]
    simp only [View.readCov_unit_zero (S := S64x512) arg6.view zero_off2, View.readCov_unit_zero (S := S64x128) arg7.view zero_off2, readAt_full (F := F) arg3.view f3 zero_off2, readAt_full (F := F) arg2.view f2 zero_off2, readAt_full (F := F) arg6.view f6 zero_off2, readAt_full (F := F) arg7.view f7 zero_off2]
  isplitl [H5]
  · iexists _; isplitr
    swap; · iexact H5
    ipureintro
    sl_unfold_run_names
    rw [read_store_full (F := F) arg5.view _ zero_off3]
    simp only [View.readCov_unit_zero (S := S64x512) arg6.view zero_off2, View.readCov_unit_zero (S := S64x128) arg7.view zero_off2, readAt_full (F := F) arg3.view f3 zero_off2, readAt_full (F := F) arg2.view f2 zero_off2, readAt_full (F := F) arg6.view f6 zero_off2, readAt_full (F := F) arg7.view f7 zero_off2]
  isplitl [H6]
  · iexists _; isplitr
    swap; · iexact H6
    ipureintro
    sl_unfold_run_names
    rw [read_store_full (F := F) arg6.view _ zero_off2]
    simp only [View.readCov_unit_zero (S := S64x512) arg6.view zero_off2, View.readCov_unit_zero (S := S64x128) arg7.view zero_off2, readAt_full (F := F) arg3.view f3 zero_off2, readAt_full (F := F) arg2.view f2 zero_off2, readAt_full (F := F) arg6.view f6 zero_off2, readAt_full (F := F) arg7.view f7 zero_off2]
  iexists _; isplitr
  swap; · iexact H7
  ipureintro
  sl_unfold_run_names
  rw [read_store_full (F := F) arg7.view _ zero_off2]
  simp only [View.readCov_unit_zero (S := S64x512) arg6.view zero_off2, View.readCov_unit_zero (S := S64x128) arg7.view zero_off2, readAt_full (F := F) arg3.view f3 zero_off2, readAt_full (F := F) arg2.view f2 zero_off2, readAt_full (F := F) arg6.view f6 zero_off2, readAt_full (F := F) arg7.view f7 zero_off2]

/-! ## The body obligation, at a generic point -/

/-- What the body is called with at point t: the invariant, nothing owed, every window's current buffer. -/
def bodyPre0 (c : Dev nD) (t : Fin cfg0.N) : sProp 𝕄 :=
  iprop((dat0 V c).Φ t.castSucc ∗ (dat0 V c).owesAt () t.castSucc
    ∗ (∃ d, owns (c : Thread nD τ) (st0_0 t) fullShare ((dat0 V c).before 0 t d))
    ∗ (∃ d, owns (c : Thread nD τ) (st0_1 t) fullShare ((dat0 V c).before 1 t d))
    ∗ (∃ d, owns (c : Thread nD τ) (st0_2 t) fullShare ((dat0 V c).before 2 t d))
    ∗ (∃ d, owns (c : Thread nD τ) (st0_3 t) fullShare ((dat0 V c).before 3 t d)))

/-- and what it returns: an output window idle at the point is handed back as found. -/
def bodyPost0 (c : Dev nD) (t : Fin cfg0.N) : sProp 𝕄 :=
  iprop((dat0 V c).Φ t.succ ∗ (dat0 V c).owesAt () t.succ
    ∗ (dat0 V c).leavesExact 0 t ∗ (dat0 V c).leavesExact 1 t
    ∗ (dat0 V c).leavesExact 2 t ∗ (dat0 V c).leavesExact 3 t)

set_option maxHeartbeats 4000000 in
/-- The body at any point, by the point's place in its core's sweep of 32: opening it (the accumulators come from
    the invariant at anything at the very first point, at the previous sweep's totals at point 32), inside it, or
    closing it. The invariant takes the accumulators back at this point's contents. -/
theorem sound_body0 (c : Dev nD) (t : Fin cfg0.N) :
    bodyPre0 V c t ⊢ wp frame (wpE (defs₀ (F := F)) Variants.none c none) Set.univ (bodyAt0 t) (fun _ => bodyPost0 V c t) := by
  unfold bodyPre0 bodyPost0 bodyAt0
  simp only [before0_0, before0_1]
  rw [show (dat0 V c).owesAt () t.succ = (dat0 V c).owesAt () t.castSucc from rfl]
  rw [show (dat0 V c).Φ t.succ = PhiS V c (t.val + 1) t.isLt from rfl, PhiS_succ]
  rw [show (dat0 V c).leavesExact 0 t = owns (c : Thread nD τ) (st0_0 t) fullShare ((dat0 V c).after 0 t) from by
    unfold Dat.leavesExact; rw [live0_0 t], after0_0]
  rw [show (dat0 V c).leavesExact 1 t = owns (c : Thread nD τ) (st0_1 t) fullShare ((dat0 V c).after 1 t) from by
    unfold Dat.leavesExact; rw [live0_1 t], after0_1]
  have hN : t.val < 64 := lt_of_lt_of_eq t.isLt (show cfg0.N = 64 from N_0)
  by_cases h0 : t.val % 32 = 0
  · have h1 : ¬t.val % 32 = 31 := by omega
    have hc0 : condFirst (grid0.coords t) := (hcondFirst t).mpr h0
    have hc1 : ¬condLast (grid0.coords t) := fun h => h1 ((hcondLast t).mp h)
    rw [Dat.leavesExact_idle (dat0 V c) 2 t (idle0_2 t hc1) (noFlush0_2 t hc1),
      Dat.leavesExact_idle (dat0 V c) 3 t (idle0_3 t hc1) (noFlush0_3 t hc1)]
    rw [accS_first V c t h0, accC_first V c t h0]
    by_cases hz : t.val = 0
    · rw [PhiS_castSucc V c t, PhiS_zero V c _ _ hz, PhiA0_eq]
      iintro ⟨⟨⟨HS, HC, HR⟩, Hg⟩, Ho, ⟨%d0, H0⟩, ⟨%d1, H1⟩, ⟨%d2, H2⟩, ⟨%d3, H3⟩⟩
      iapply (kernel_first c Set.univ (grid0.coords t) _ _ _ _ _ _ _ _ _ _ _ _ hc0 hc1 (iblk0 V c 0 t) (iblk0 V c 1 t)
        ((dat0 V c).before 2 t d2) ((dat0 V c).before 3 t d3) _)
      isplitl [H0]; · iexact H0
      isplitl [H1]; · iexact H1
      isplitl [H2]; · iexact H2
      isplitl [H3]; · iexact H3
      isplitl [HS]; · iexact HS
      isplitl [HC]; · iexact HC
      iintro ⟨H0, H1, H2, H3, HS, HC⟩
      isplitl [HS HC HR Hg]
      · isplitl [HS HC HR]
        · isplitl [HS]; · iexact HS
          isplitl [HC]; · iexact HC
          iexact HR
        iexact Hg
      isplitl [Ho]; · iexact Ho
      isplitl [H0]; · iexact H0
      isplitl [H1]; · iexact H1
      isplitl [H2]; · iexists _; iexact H2
      iexists _; iexact H3
    · rw [PhiS_castSucc V c t, PhiS_pos V c _ _ hz]
      iintro ⟨⟨⟨HS, HC, HR⟩, Hg⟩, Ho, ⟨%d0, H0⟩, ⟨%d1, H1⟩, ⟨%d2, H2⟩, ⟨%d3, H3⟩⟩
      iapply (kernel_first c Set.univ (grid0.coords t) _ _ _ _ _ _ _ _ _ _ _ _ hc0 hc1 (iblk0 V c 0 t) (iblk0 V c 1 t)
        ((dat0 V c).before 2 t d2) ((dat0 V c).before 3 t d3) _)
      isplitl [H0]; · iexact H0
      isplitl [H1]; · iexact H1
      isplitl [H2]; · iexact H2
      isplitl [H3]; · iexact H3
      isplitl [HS]; · iexists _; iexact HS
      isplitl [HC]; · iexists _; iexact HC
      iintro ⟨H0, H1, H2, H3, HS, HC⟩
      isplitl [HS HC HR Hg]
      · isplitl [HS HC HR]
        · isplitl [HS]; · iexact HS
          isplitl [HC]; · iexact HC
          iexact HR
        iexact Hg
      isplitl [Ho]; · iexact Ho
      isplitl [H0]; · iexact H0
      isplitl [H1]; · iexact H1
      isplitl [H2]; · iexists _; iexact H2
      iexists _; iexact H3
  · have hz : t.val ≠ 0 := fun e => h0 (by rw [e])
    have hc0 : ¬condFirst (grid0.coords t) := fun h => h0 ((hcondFirst t).mp h)
    rw [accS_next V c t h0, accC_next V c t h0]
    rw [PhiS_castSucc V c t, PhiS_pos V c _ _ hz]
    by_cases h1 : t.val % 32 = 31
    · have hc1 : condLast (grid0.coords t) := (hcondLast t).mpr h1
      rw [show (dat0 V c).leavesExact 2 t = owns (c : Thread nD τ) (st0_2 t) fullShare ((dat0 V c).after 2 t) from by
        unfold Dat.leavesExact; rw [live0_2 t hc1], after0_2]
      rw [show (dat0 V c).leavesExact 3 t = owns (c : Thread nD τ) (st0_3 t) fullShare ((dat0 V c).after 3 t) from by
        unfold Dat.leavesExact; rw [live0_3 t hc1], after0_3]
      rw [accS_next V c t h0, accC_next V c t h0]
      iintro ⟨⟨⟨HS, HC, HR⟩, Hg⟩, Ho, ⟨%d0, H0⟩, ⟨%d1, H1⟩, ⟨%d2, H2⟩, ⟨%d3, H3⟩⟩
      iapply (kernel_last c Set.univ (grid0.coords t) _ _ _ _ _ _ _ _ _ _ _ _ hc0 hc1 (iblk0 V c 0 t) (iblk0 V c 1 t)
        (accS V c (t.val - 1) (Nat.lt_of_le_of_lt (Nat.sub_le _ _) t.isLt)) (accC V c (t.val - 1) (Nat.lt_of_le_of_lt (Nat.sub_le _ _) t.isLt)) _)
      isplitl [H0]; · iexact H0
      isplitl [H1]; · iexact H1
      isplitl [H2]; · iexists _; iexact H2
      isplitl [H3]; · iexists _; iexact H3
      isplitl [HS]; · iexact HS
      isplitl [HC]; · iexact HC
      iintro ⟨H0, H1, H2, H3, HS, HC⟩
      isplitl [HS HC HR Hg]
      · isplitl [HS HC HR]
        · isplitl [HS]; · iexact HS
          isplitl [HC]; · iexact HC
          iexact HR
        iexact Hg
      isplitl [Ho]; · iexact Ho
      isplitl [H0]; · iexact H0
      isplitl [H1]; · iexact H1
      isplitl [H2]; · iexact H2
      iexact H3
    · have hc1 : ¬condLast (grid0.coords t) := fun h => h1 ((hcondLast t).mp h)
      rw [Dat.leavesExact_idle (dat0 V c) 2 t (idle0_2 t hc1) (noFlush0_2 t hc1),
        Dat.leavesExact_idle (dat0 V c) 3 t (idle0_3 t hc1) (noFlush0_3 t hc1)]
      iintro ⟨⟨⟨HS, HC, HR⟩, Hg⟩, Ho, ⟨%d0, H0⟩, ⟨%d1, H1⟩, ⟨%d2, H2⟩, ⟨%d3, H3⟩⟩
      iapply (kernel_mid c Set.univ (grid0.coords t) _ _ _ _ _ _ _ _ _ _ _ _ hc0 hc1 (iblk0 V c 0 t) (iblk0 V c 1 t)
        ((dat0 V c).before 2 t d2) ((dat0 V c).before 3 t d3)
        (accS V c (t.val - 1) (Nat.lt_of_le_of_lt (Nat.sub_le _ _) t.isLt)) (accC V c (t.val - 1) (Nat.lt_of_le_of_lt (Nat.sub_le _ _) t.isLt)) _)
      isplitl [H0]; · iexact H0
      isplitl [H1]; · iexact H1
      isplitl [H2]; · iexact H2
      isplitl [H3]; · iexact H3
      isplitl [HS]; · iexact HS
      isplitl [HC]; · iexact HC
      iintro ⟨H0, H1, H2, H3, HS, HC⟩
      isplitl [HS HC HR Hg]
      · isplitl [HS HC HR]
        · isplitl [HS]; · iexact HS
          isplitl [HC]; · iexact HC
          iexact HR
        iexact Hg
      isplitl [Ho]; · iexact Ho
      isplitl [H0]; · iexact H0
      isplitl [H1]; · iexact H1
      isplitl [H2]; · iexists _; iexact H2
      iexists _; iexact H3

/-- The library's body obligation, at every point. -/
theorem body_obligation0 (c : Dev nD) : BodyObligation (dat0 (F := F) V c) (defs₀ (F := F)) Variants.none () Set.univ := fun t => by
  rw [bigSep_W0, bigSep_W0]
  exact sound_body0 V c t

/-- What the launch hands the region is the invariant before the first point. -/
theorem hin0 (c : Dev nD) : Pipeline.ΦA spec0 c ⊢ (dat0 V c).Φ 0 := by
  rw [show (dat0 V c).Φ 0 = PhiS V c 0 (Nat.zero_le _) from rfl, PhiS_zero V c 0 _ rfl]
  try exact Idealize.SL.BI.Entails.refl _

/-- After the last point the invariant gives the class invariant back: the accumulators' contents are forgotten. -/
theorem hout0 (c : Dev nD) : (dat0 V c).Φ (Fin.last cfg0.N) ⊢ Pipeline.ΦA spec0 c := by
  rw [show (dat0 V c).Φ (Fin.last cfg0.N) = PhiS V c (Fin.last cfg0.N).val (Nat.le_of_lt_succ (Fin.last cfg0.N).isLt) from rfl,
    PhiS_pos V c _ _ (by rw [Fin.val_last]; have : cfg0.N = 64 := N_0; omega), PhiA0_eq]
  iintro ⟨⟨HS, HC, HR⟩, Hg⟩
  isplitl [HS HC HR]
  · isplitl [HS]; · iexists _; iexact HS
    isplitl [HC]; · iexists _; iexact HC
    iexact HR
  iexact Hg

end Cert.KernelIdeal.R0

end
-- ==== Proof.R1.lean ====
/- REGION 1 of the program: the second TensorCore call (the gather-and-multiply kernel, pipeline 1), as pipeline
   proof data with its body obligation, at any float family and at a PARAMETER V: the TensorCore's buffer
   contents when the region is entered.

   The kernel reads its three input windows whole (the row block of h, the segment-id block, the gate table),
   reads its output buffer once without using the value, and writes the product of the h block with the
   gathered gate rows over the whole output buffer. So after the body each input buffer holds its block as
   before, and the output buffer holds exactly the stored value. -/
import proofs.«409112_j63488206570149_3_alg».proof.Proof.Gen.KernelIdeal.Launch
import proofs.«409112_j63488206570149_3_alg».proof.Proof.Gen.KernelIdeal.Skeleton
import proofs.«409112_j63488206570149_3_alg».proof.Proof.Gen.KernelIdeal.Points
import Idealize.ShloMosaic.Lib.Pipeline.FrameBody
import Idealize.ShloMosaic.Lib.Pipeline.RegionsLoop
import Idealize.ShloMosaic.Lib.Pipeline.FrameSuffix
import Idealize.ShloMosaic.Lib.Ring
import Idealize.ShloMosaic.Lib.Tactic

-- membership of an index in a rectangle of these extents is decided coordinate by coordinate along the long axes
set_option maxRecDepth 16384

noncomputable section

namespace Cert.KernelIdeal.R1

open Cert.KernelIdeal Cert.KernelIdeal.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ (UR sig nD τ) ℕ

-- the TensorCore's buffer contents when the region is entered
variable (V : (c : Dev nD) → (b : Ref sig .tc) → Buf (Elt F) ((c : Thread nD τ).loc b))

/-! ## The windows' blocks -/

/-- Window w's block at point t, read off its array as the region finds it. -/
def iblk1 (c : Dev nD) (w : Fin cfg1.W) (t : Fin cfg1.N) : ((cfg1.win w).xblock (cfg1.grid.coords t)).Idx → Elt F (cfg1.win w).elt :=
  ((cfg1.win w).blk t).view.read (Elt F) (V c (Pipeline.arrRef spec1 w))

/-- An input window's current staging buffer holds the window's block at every point, whether the block was
    fetched at that point or carried over from the point before (then the block index has not moved): for any
    proof data whose array is the entry contents and whose body leaves the block in place. The three input
    windows are uncut and never idle. -/
theorem before1_0_of {c : Dev nD} (dat : Dat τ (Elt F) Unit ℕ (UR sig nD τ) ℕ cfg1 c) (hA : dat.A 0 = V c (Pipeline.arrRef spec1 0))
    (hafter : ∀ t, dat.after 0 t = iblk1 V c 0 t) (t : Fin cfg1.N) (d) : dat.before 0 t d = iblk1 V c 0 t :=
  (dat.before_in_eq_fetched 0 rfl (fun _ => rfl) (fun _ _ _ => rfl) (fun t => by rw [hafter]; unfold Dat.blockOf iblk1; rw [hA]; try rfl) t d).trans
    (by unfold Dat.fetched Dat.blockOf iblk1; rw [hA]; try rfl)

theorem before1_1_of {c : Dev nD} (dat : Dat τ (Elt F) Unit ℕ (UR sig nD τ) ℕ cfg1 c) (hA : dat.A 1 = V c (Pipeline.arrRef spec1 1))
    (hafter : ∀ t, dat.after 1 t = iblk1 V c 1 t) (t : Fin cfg1.N) (d) : dat.before 1 t d = iblk1 V c 1 t :=
  (dat.before_in_eq_fetched 1 rfl (fun _ => rfl) (fun _ _ _ => rfl) (fun t => by rw [hafter]; unfold Dat.blockOf iblk1; rw [hA]; try rfl) t d).trans
    (by unfold Dat.fetched Dat.blockOf iblk1; rw [hA]; try rfl)

theorem before1_2_of {c : Dev nD} (dat : Dat τ (Elt F) Unit ℕ (UR sig nD τ) ℕ cfg1 c) (hA : dat.A 2 = V c (Pipeline.arrRef spec1 2))
    (hafter : ∀ t, dat.after 2 t = iblk1 V c 2 t) (t : Fin cfg1.N) (d) : dat.before 2 t d = iblk1 V c 2 t :=
  (dat.before_in_eq_fetched 2 rfl (fun _ => rfl) (fun _ _ _ => rfl) (fun t => by rw [hafter]; unfold Dat.blockOf iblk1; rw [hA]; try rfl) t d).trans
    (by unfold Dat.fetched Dat.blockOf iblk1; rw [hA]; try rfl)

/-! ## The body's accesses: each buffer is read, and the output written, as a whole -/

abbrev rH : Rect S2048x512 := Rect.unit (s := S2048x512) ![0, 0] S2048x512.size inb_S2048x512_S2048x512_0_0
abbrev rB : Rect S1x2048 := Rect.unit (s := S1x2048) ![0, 0] S1x2048.size inb_S1x2048_S1x2048_0_0
abbrev rG : Rect S64x512 := Rect.unit (s := S64x512) ![0, 0] S64x512.size inb_S64x512_S64x512_0_0

/-! ## What the body leaves in the output window's buffer -/

/-- Window 3's staging buffer after the body, from the input windows' blocks: the single store, whose value is
    the h block times the gate rows selected by the segment ids. -/
def out1_3 (x0 : Vec F S2048x512 .f32) (x1 : Vec F S1x2048 .i32) (x2 : Vec F S64x512 .f32) : Vec F S2048x512 .f32 :=
  View.canon [⟨rH, k1_pay1 (View.ld x1 rB) (View.ld x2 rG) (View.ld x0 rH)⟩]

/-- The store's rectangle is the whole buffer, so it covers every index. -/
theorem cover1_3 (p0 : Vec F S2048x512 .f32) (y : S2048x512.Idx) :
    ∃ pc ∈ ([⟨rH, p0⟩] : List (View.Piece (Elt F) S2048x512 .f32)), y ∈ pc.1.set :=
  View.cover_of_tiled [⟨rH, p0⟩] S2048x512.size (by rfl) y

/-! ## The body's triple -/

set_option maxHeartbeats 1000000 in
/-- The kernel body on whole staging memrefs, the inputs' at contents x0 x1 x2 and the output's at anything,
    runs to the continuation holding the inputs' as they were and the output's at out1_3 of the inputs'. -/
theorem sound_kernel1 (c : Dev nD) (E : Set ℕ) (i : grid1.Coords)
    (arg1 : Memref sig .tc .vmem S2048x512 .f32) (harg1 : arg1.IsWhole) (arg2 : Memref sig .tc .vmem S1x2048 .i32) (harg2 : arg2.IsWhole)
    (arg3 : Memref sig .tc .vmem S64x512 .f32) (harg3 : arg3.IsWhole) (arg4 : Memref sig .tc .vmem S2048x512 .f32) (harg4 : arg4.IsWhole)
    (x0 : Vec F S2048x512 .f32) (x1 : Vec F S1x2048 .i32) (x2 : Vec F S64x512 .f32) (K : PUnit → sProp 𝕄) :
    iprop(owns (c : Thread nD τ) arg1 fullShare x0 ∗ owns (c : Thread nD τ) arg2 fullShare x1 ∗ owns (c : Thread nD τ) arg3 fullShare x2
        ∗ (∃ d, owns (c : Thread nD τ) arg4 fullShare d)
        ∗ (iprop(owns (c : Thread nD τ) arg1 fullShare x0 ∗ owns (c : Thread nD τ) arg2 fullShare x1 ∗ owns (c : Thread nD τ) arg3 fullShare x2
            ∗ owns (c : Thread nD τ) arg4 fullShare (out1_3 x0 x1 x2)) -∗ K ⟨⟩))
      ⊢ wp frame (wpE (defs₀ (F := F)) Variants.none c none) E (cc1__gather_mul_kernel i arg1 harg1 arg2 harg2 arg3 harg3 arg4 harg4) K := by
  simp only [cc1__gather_mul_kernel_eq_skeleton]; unfold cc1__gather_mul_kernel_skel
  unfold owns
  iintro ⟨⟨%f1, %hf1, H1⟩, ⟨%f2, %hf2, H2⟩, ⟨%f3, %hf3, H3⟩, ⟨%d4, %f4, -, H4⟩, Hk⟩
  subst hf1; subst hf2; subst hf3
  sl_exec
  sl_step
  iapply Hk
  isplitl [H1]
  · iexists f1; isplitr; · ipureintro; rfl
    iexact H1
  isplitl [H2]
  · iexists f2; isplitr; · ipureintro; rfl
    iexact H2
  isplitl [H3]
  · iexists f3; isplitr; · ipureintro; rfl
    iexact H3
  iexists _; isplitr
  swap; · iexact H4
  ipureintro
  exact View.read_writes_eq_canon _ _ _ (cover1_3 _)

/-! ## The pipeline's proof data -/

/-- The proof data of pipeline 1 on core c: the arrays as the region finds them; after the body at point t each
    input's buffer at its block and the output's at out1_3 of the input blocks; the invariant the scoped rest and
    the generator register, untouched; nothing owed; full shares. -/
def dat1 (c : Dev nD) : Dat τ (Elt F) Unit ℕ (UR sig nD τ) ℕ cfg1 c where
  A w := V c (Pipeline.arrRef spec1 w)
  after w t := match w with
    | ⟨0, _⟩ => iblk1 V c 0 t
    | ⟨1, _⟩ => iblk1 V c 1 t
    | ⟨2, _⟩ => iblk1 V c 2 t
    | ⟨3, _⟩ => out1_3 (iblk1 V c 0 t) (iblk1 V c 1 t) (iblk1 V c 2 t)
  Φ _ := Pipeline.ΦA spec1 c
  q _ := fullShare
  owed _ := 0

theorem A_eq1 (c : Dev nD) (w : Fin cfg1.W) : (dat1 V c).A w = V c (Pipeline.arrRef spec1 w) := by
  dsimp only [dat1]

theorem after1_0 (c : Dev nD) (t : Fin cfg1.N) : (dat1 V c).after 0 t = iblk1 V c 0 t := by dsimp only [dat1]
theorem after1_1 (c : Dev nD) (t : Fin cfg1.N) : (dat1 V c).after 1 t = iblk1 V c 1 t := by dsimp only [dat1]
theorem after1_2 (c : Dev nD) (t : Fin cfg1.N) : (dat1 V c).after 2 t = iblk1 V c 2 t := by dsimp only [dat1]
theorem after1_3 (c : Dev nD) (t : Fin cfg1.N) :
    (dat1 V c).after 3 t = out1_3 (iblk1 V c 0 t) (iblk1 V c 1 t) (iblk1 V c 2 t) := by dsimp only [dat1]

theorem before1_0 (c : Dev nD) (t : Fin cfg1.N) (d) : (dat1 V c).before 0 t d = iblk1 V c 0 t :=
  before1_0_of V (dat1 V c) (A_eq1 V c 0) (after1_0 V c) t d
theorem before1_1 (c : Dev nD) (t : Fin cfg1.N) (d) : (dat1 V c).before 1 t d = iblk1 V c 1 t :=
  before1_1_of V (dat1 V c) (A_eq1 V c 1) (after1_1 V c) t d
theorem before1_2 (c : Dev nD) (t : Fin cfg1.N) (d) : (dat1 V c).before 2 t d = iblk1 V c 2 t :=
  before1_2_of V (dat1 V c) (A_eq1 V c 2) (after1_2 V c) t d

/-! ## The body obligation, at a generic point -/

def bodyPre1 (c : Dev nD) (t : Fin cfg1.N) : sProp 𝕄 :=
  iprop((dat1 V c).Φ t.castSucc ∗ (dat1 V c).owesAt () t.castSucc
    ∗ (∃ d, owns (c : Thread nD τ) (st1_0 t) fullShare ((dat1 V c).before 0 t d))
    ∗ (∃ d, owns (c : Thread nD τ) (st1_1 t) fullShare ((dat1 V c).before 1 t d))
    ∗ (∃ d, owns (c : Thread nD τ) (st1_2 t) fullShare ((dat1 V c).before 2 t d))
    ∗ (∃ d, owns (c : Thread nD τ) (st1_3 t) fullShare ((dat1 V c).before 3 t d)))

def bodyPost1 (c : Dev nD) (t : Fin cfg1.N) : sProp 𝕄 :=
  iprop((dat1 V c).Φ t.succ ∗ (dat1 V c).owesAt () t.succ
    ∗ owns (c : Thread nD τ) (st1_0 t) fullShare ((dat1 V c).after 0 t)
    ∗ owns (c : Thread nD τ) (st1_1 t) fullShare ((dat1 V c).after 1 t)
    ∗ owns (c : Thread nD τ) (st1_2 t) fullShare ((dat1 V c).after 2 t)
    ∗ owns (c : Thread nD τ) (st1_3 t) fullShare ((dat1 V c).after 3 t))

theorem sound_body1 (c : Dev nD) (t : Fin cfg1.N) :
    bodyPre1 V c t ⊢ wp frame (wpE (defs₀ (F := F)) Variants.none c none) Set.univ (bodyAt1 t) (fun _ => bodyPost1 V c t) := by
  unfold bodyPre1 bodyPost1 bodyAt1
  simp only [before1_0, before1_1, before1_2]
  rw [show (dat1 V c).Φ t.succ = (dat1 V c).Φ t.castSucc from rfl,
    show (dat1 V c).owesAt () t.succ = (dat1 V c).owesAt () t.castSucc from rfl,
    after1_0, after1_1, after1_2, after1_3]
  iintro ⟨HΦ, Ho, ⟨%d0, H0⟩, ⟨%d1, H1⟩, ⟨%d2, H2⟩, ⟨%d3, H3⟩⟩
  iapply (sound_kernel1 c Set.univ _ _ _ _ _ _ _ _ _ (iblk1 V c 0 t) (iblk1 V c 1 t) (iblk1 V c 2 t) _)
  isplitl [H0]; · iexact H0
  isplitl [H1]; · iexact H1
  isplitl [H2]; · iexact H2
  isplitl [H3]; · iexists _; iexact H3
  iintro ⟨H0, H1, H2, H3⟩
  isplitl [HΦ]; · iexact HΦ
  isplitl [Ho]; · iexact Ho
  isplitl [H0]; · iexact H0
  isplitl [H1]; · iexact H1
  isplitl [H2]; · iexact H2
  iexact H3

theorem body_obligation1 (c : Dev nD) : BodyObligation (dat1 (F := F) V c) (defs₀ (F := F)) Variants.none () Set.univ := fun t => by
  rw [bigSep_W1, bigSep_W1]
  exact sound_body1 V c t

end Cert.KernelIdeal.R1

end
-- ==== Proof.Run.lean ====
/-
  The run of the whole program: @main's two kernel regions and the host stretches between them, from the launch
  to the return, at any float family.

  Between two items a core holds every unscoped buffer at a valuation: the launch contents, then what each host
  stretch computes, and after a region its arrays at what the pipeline's write-backs leave (an input array as it
  was found, an output array with every written-back block in place). Region 0 is entered at the valuation after
  the first host stretch and leaves its two results; region 1 is entered after the three host stretches that
  compute the gate table from those results and leaves the program's result. The generator register and the core's
  empty debt ride along unchanged.
-/
import proofs.«409112_j63488206570149_3_alg».proof.Proof.RunCond
import proofs.«409112_j63488206570149_3_alg».proof.Proof.R0
import proofs.«409112_j63488206570149_3_alg».proof.Proof.R1

set_option maxRecDepth 16384

noncomputable section

namespace Cert.KernelIdeal.Run

open Cert.KernelIdeal Cert.KernelIdeal.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ (UR sig nD τ) ℕ

variable (m : (ℓ : Loc nD τ sig) → Buf (Elt F) ℓ) (ρ : Dev nD → PrngReg)

/-! ## The contents at the regions' entries and exits -/

/-- What region 0 finds: the launch contents after the first host stretch, read at the TensorCore's references. -/
abbrev entry0 : (c : Dev nD) → (b : Ref sig .tc) → Buf (Elt F) ((c : Thread nD τ).loc b) := fun c b => V1 m c b

/-- At region 0's exit: its arrays at what the pipeline leaves, every other buffer as entered. -/
def exit0 (c : Dev nD) : Valuation τ sig (Elt F) :=
  Pipeline.withArrays spec0 c (V1 m c) fun w => (R0.dat0 (entry0 m) c).arrAt w cfg0.N

/-- The regions' results up to region 0's: only the entries read after region 0 matter. -/
def outsA : Outs (F := F) := fun _ r c => exit0 m c (Proc.devRef .tc r)

/-- What region 1 finds: after the three host stretches that follow region 0. -/
abbrev entry1 : (c : Dev nD) → (b : Ref sig .tc) → Buf (Elt F) ((c : Thread nD τ).loc b) := fun c b => V5 m (outsA m) c b

/-- At region 1's exit: its arrays at what the pipeline leaves, every other buffer as entered. -/
def exit1 (c : Dev nD) : Valuation τ sig (Elt F) :=
  Pipeline.withArrays spec1 c (V5 m (outsA m) c) fun w => (R1.dat1 (entry1 m) c).arrAt w cfg1.N

/-- What the regions leave in the buffers they may change: region 0's results (read after item 1), region 1's
    (read after item 5). -/
def outs : Outs (F := F) := fun J r c => match J with
  | 6 => exit1 m c (Proc.devRef .tc r)
  | _ => exit0 m c (Proc.devRef .tc r)

theorem V5_outs (c : Dev nD) : V5 m (outs m) c = V5 m (outsA m) c := rfl

/-- Every pipeline's proof data, each at its region's entry contents. -/
def pdats : (p : Fin 2) → (c : Dev nD) → Dat τ (Elt F) Unit ℕ (UR sig nD τ) ℕ (cfgs p) c
  | ⟨0, _⟩ => fun c => R0.dat0 (entry0 m) c
  | ⟨1, _⟩ => fun c => R1.dat1 (entry1 m) c

/-! ## The regions' arrays at their exits -/

theorem exit0_arr (c : Dev nD) (w : Fin cfg0.W) :
    exit0 m c (Proc.devRef .tc (Pipeline.arrRef spec0 w)) = (R0.dat0 (entry0 m) c).arrAt w cfg0.N := by
  unfold exit0; exact Pipeline.withArrays_arr spec0 launch0.win.arr_inj c _ _ w
theorem exit1_arr (c : Dev nD) (w : Fin cfg1.W) :
    exit1 m c (Proc.devRef .tc (Pipeline.arrRef spec1 w)) = (R1.dat1 (entry1 m) c).arrAt w cfg1.N := by
  unfold exit1; exact Pipeline.withArrays_arr spec1 launch1.win.arr_inj c _ _ w

/-- At region 0's exit each of its arrays holds what the pipeline leaves: an input array is as entered, a result is
    the recorded contents. -/
theorem hF0 (c : Dev nD) (w : Fin cfg0.W) :
    (pdats m 0 c).arrAt w cfg0.N = V2 m (outs m) c (Pipeline.arrRef spec0 w) := by
  match w with
  | ⟨0, _⟩ =>
    exact (((R0.dat0 (entry0 m) c).arrAt_in 0 rfl _).trans (R0.A_eq0 c 0)).trans (V2_of m (outs m) c main_arg0 (by decide)).symm
  | ⟨1, _⟩ =>
    exact (((R0.dat0 (entry0 m) c).arrAt_in 1 rfl _).trans (R0.A_eq0 c 1)).trans (V2_of m (outs m) c main_v0 (by decide)).symm
  | ⟨2, _⟩ =>
    refine (exit0_arr m c 2).symm.trans ?_
    show outs m 2 main_v1_0 c = V2 m (outs m) c main_v1_0
    simp only [V2]
    rw [Function.update_of_ne (StableHlo.devRef_ne_of_ne (by decide) : (Proc.devRef .tc main_v1_0 : DevRef τ sig) ≠ Proc.devRef .tc main_v1_1),
      Function.update_self]
  | ⟨3, _⟩ =>
    refine (exit0_arr m c 3).symm.trans ?_
    show outs m 2 main_v1_1 c = V2 m (outs m) c main_v1_1
    simp only [V2]
    rw [Function.update_self]
/-- Every other buffer is as entered. -/
theorem hrest0 (c : Dev nD) : ∀ b : Ref sig .tc, b ∉ Finset.univ.image (Pipeline.arrRef spec0) → V2 m (outs m) c b = V1 m c b :=
  fun b hb => V2_of m (outs m) c b (by
    intro h
    rcases List.mem_cons.mp h with h | h
    · exact hb (Finset.mem_image.mpr ⟨2, Finset.mem_univ _, h.symm⟩)
    · rcases List.mem_cons.mp h with h | h
      · exact hb (Finset.mem_image.mpr ⟨3, Finset.mem_univ _, h.symm⟩)
      · exact absurd h (List.not_mem_nil))

theorem hF1 (c : Dev nD) (w : Fin cfg1.W) :
    (pdats m 1 c).arrAt w cfg1.N = V6 m (outs m) c (Pipeline.arrRef spec1 w) := by
  match w with
  | ⟨0, _⟩ =>
    exact (((R1.dat1 (entry1 m) c).arrAt_in 0 rfl _).trans (R1.A_eq1 (entry1 m) c 0)).trans (V6_of m (outs m) c main_arg0 (by decide)).symm
  | ⟨1, _⟩ =>
    exact (((R1.dat1 (entry1 m) c).arrAt_in 1 rfl _).trans (R1.A_eq1 (entry1 m) c 1)).trans (V6_of m (outs m) c main_v0 (by decide)).symm
  | ⟨2, _⟩ =>
    exact (((R1.dat1 (entry1 m) c).arrAt_in 2 rfl _).trans (R1.A_eq1 (entry1 m) c 2)).trans (V6_of m (outs m) c main_v25 (by decide)).symm
  | ⟨3, _⟩ =>
    refine (exit1_arr m c 3).symm.trans ?_
    show outs m 6 main_v26 c = V6 m (outs m) c main_v26
    simp only [V6]
    rw [Function.update_self]
theorem hrest1 (c : Dev nD) : ∀ b : Ref sig .tc, b ∉ Finset.univ.image (Pipeline.arrRef spec1) → V6 m (outs m) c b = V5 m (outs m) c b :=
  fun b hb => V6_of m (outs m) c b (by
    intro h
    rcases List.mem_cons.mp h with h | h
    · exact hb (Finset.mem_image.mpr ⟨3, Finset.mem_univ _, h.symm⟩)
    · exact absurd h (List.not_mem_nil))

/-! ## The thread state and the regions as segments -/

abbrev 𝒱₀ : Variants := Variants.none
/-- No core owes another anything: no level is assigned. -/
abbrev L : GSem nD τ sig → Finset Unit := fun _ => ∅
abbrev lv : GSem nD τ sig → Unit → ℕ := fun _ _ => 0
/-- What rides beside the buffers through every item: the core's generator register at some state and its debt,
    which is empty. -/
abbrev R (c : Dev nD) : sProp 𝕄 := iprop((∃ r, prngReg c r) ∗ ∃ W, owes (c : Thread nD τ) (0 : CellTallies nD τ sig Unit) W)

-- a library lemma stated over the pinned configuration unifies with the printed one only when unification may
-- unfold plain definitions in a metavariable's type
set_option backward.isDefEq.respectTransparency.types false in
/-- Region 0 over the thread state: entered from every unscoped buffer at the valuation before it, left at the
    valuation after it. Its arrays are split out of the unscoped buffers at entry and put back at their final
    contents at exit; the generator register goes into the invariant and comes back; nothing is owed; the kernel
    has no semaphore of its own. -/
def reg0 : Pipeline.RegionSeg (pcfgs (F := F)) adm (pdats m) () defs₀ 𝒱₀ L lv 0 where
  win := launch0.win.to₀
  block_pos := launch0.block_pos
  stage_whole := launch0.stage_whole
  K := PEmpty
  osem k := k.elim
  ho := Pipeline.OwnSemFacts.none _
  hbody c := (R0.body_obligation0 (entry0 m) c).loose
  hwaits := Pipeline.hwaits_of_owed_zero _ _ _ _ L lv 0 fun _ _ => rfl
  pre c := iprop(StableHlo.held (c : Thread nD τ) (Pipeline.ucRefs τ sig) (V1 m c) ∗ R c)
  post c := iprop(StableHlo.held (c : Thread nD τ) (Pipeline.ucRefs τ sig) (V2 m (outs m) c) ∗ R c)
  X c := iprop(∃ r, prngReg c r)
  Y c := iprop(∃ r, prngReg c r)
  Z c := Pipeline.unscopedRest (Ix := Unit) (Name := ℕ) (U := UR sig nD τ) (Lvl := ℕ) spec0 c (entry0 m c)
  hentry c := by
    rw [Pipeline.ownSems0_none]
    have hsplit := Pipeline.arrays_of_unscopedBufs (p := 0) (pcfgs (F := F)) adm (pdats m) launch0.win launch0.arr_whole c
      ((pdats m 0 c).share_full fun _ => rfl) (entry0 m c) fun _ => rfl
    rw [Pipeline.unscopedBufs_held] at hsplit
    iintro ⟨⟨Hub, Hp, HO⟩, -, -⟩
    ihave H := hsplit $$ Hub
    icases H with ⟨Ha, Hrest⟩
    imodintro
    isplitl [Ha]; · iexact Ha
    isplitr; · unfold Pipeline.prefHeld; rw [show (Finset.univ : Finset (Fin 0)) = ∅ from rfl, BI.bigSep_empty]; iempintro
    isplitl [HO]
    · unfold Pipeline.Dat.owesAt Pipeline.owesWithin
      icases HO with ⟨%W, HO⟩; iexists W; isplitr; · ipureintro; exact fun _ _ => Or.inl trivial
      iexact HO
    isplitl [Hp]; · iexact Hp
    iexact Hrest
  hin c := by
    refine BIBase.Entails.trans ?_ (R0.hin0 (entry0 m) c)
    unfold Pipeline.ΦA
    iintro ⟨Hp, -, Hr⟩
    isplitl [Hr]; · iexact Hr
    iexact Hp
  hout c := by
    refine BIBase.Entails.trans (R0.hout0 (entry0 m) c) ?_
    rw [Pipeline.ownSems0_none]; unfold Pipeline.ΦA
    iintro ⟨Hr, Hp⟩
    isplitl [Hp]; · iexact Hp
    isplitr; · iempintro
    iexact Hr
  hexit c := by
    have hjoin := Pipeline.unscopedBufs_of_arrays (p := 0) (pcfgs (F := F)) adm (Ix := Unit) (Name := ℕ) (U := UR sig nD τ) (Lvl := ℕ)
      launch0.win launch0.arr_whole c (pdats m) ((pdats m 0 c).share_full fun _ => rfl)
      (entry0 m c) (fun b => V2 m (outs m) c b) ((pdats m 0 c).arrAt · cfg0.N) (hF0 m c) (hrest0 m c)
    rw [Pipeline.unscopedBufs_held] at hjoin
    iintro ⟨Ha, HO, HY, Hrest⟩
    imodintro
    isplitl [Ha Hrest]
    · iapply hjoin; isplitl [Ha] <;> iassumption
    isplitl [HY]; · iexact HY
    unfold Pipeline.Dat.owesAt Pipeline.owesWithin
    icases HO with ⟨%W, -, HO⟩; iexists W; iexact HO

-- a library lemma stated over the pinned configuration unifies with the printed one only when unification may
-- unfold plain definitions in a metavariable's type
set_option backward.isDefEq.respectTransparency.types false in
/-- Region 1 over the thread state: entered from every unscoped buffer at the valuation before it, left at the
    valuation after it. Its arrays are split out of the unscoped buffers at entry and put back at their final
    contents at exit; the generator register goes into the invariant and comes back; nothing is owed; the kernel
    has no semaphore of its own. -/
def reg1 : Pipeline.RegionSeg (pcfgs (F := F)) adm (pdats m) () defs₀ 𝒱₀ L lv 1 where
  win := launch1.win.to₀
  block_pos := launch1.block_pos
  stage_whole := launch1.stage_whole
  K := PEmpty
  osem k := k.elim
  ho := Pipeline.OwnSemFacts.none _
  hbody c := (R1.body_obligation1 (entry1 m) c).loose
  hwaits := Pipeline.hwaits_of_owed_zero _ _ _ _ L lv 1 fun _ _ => rfl
  pre c := iprop(StableHlo.held (c : Thread nD τ) (Pipeline.ucRefs τ sig) (V5 m (outsA m) c) ∗ R c)
  post c := iprop(StableHlo.held (c : Thread nD τ) (Pipeline.ucRefs τ sig) (V6 m (outs m) c) ∗ R c)
  X c := iprop(∃ r, prngReg c r)
  Y c := iprop(∃ r, prngReg c r)
  Z c := Pipeline.unscopedRest (Ix := Unit) (Name := ℕ) (U := UR sig nD τ) (Lvl := ℕ) spec1 c (entry1 m c)
  hentry c := by
    rw [Pipeline.ownSems0_none]
    have hsplit := Pipeline.arrays_of_unscopedBufs (p := 1) (pcfgs (F := F)) adm (pdats m) launch1.win launch1.arr_whole c
      ((pdats m 1 c).share_full fun _ => rfl) (entry1 m c) fun _ => rfl
    rw [Pipeline.unscopedBufs_held] at hsplit
    iintro ⟨⟨Hub, Hp, HO⟩, -, -⟩
    ihave H := hsplit $$ Hub
    icases H with ⟨Ha, Hrest⟩
    imodintro
    isplitl [Ha]; · iexact Ha
    isplitr; · unfold Pipeline.prefHeld; rw [show (Finset.univ : Finset (Fin 0)) = ∅ from rfl, BI.bigSep_empty]; iempintro
    isplitl [HO]
    · unfold Pipeline.Dat.owesAt Pipeline.owesWithin
      icases HO with ⟨%W, HO⟩; iexists W; isplitr; · ipureintro; exact fun _ _ => Or.inl trivial
      iexact HO
    isplitl [Hp]; · iexact Hp
    iexact Hrest
  hin c := by
    rw [show (pdats m 1 c).Φ 0 = Pipeline.ΦA spec1 c from rfl]; unfold Pipeline.ΦA
    iintro ⟨Hp, -, Hr⟩
    isplitl [Hr]; · iexact Hr
    iexact Hp
  hout c := by
    rw [Pipeline.ownSems0_none, show (pdats m 1 c).Φ (Fin.last _) = Pipeline.ΦA spec1 c from rfl]; unfold Pipeline.ΦA
    iintro ⟨Hr, Hp⟩
    isplitl [Hp]; · iexact Hp
    isplitr; · iempintro
    iexact Hr
  hexit c := by
    have hjoin := Pipeline.unscopedBufs_of_arrays (p := 1) (pcfgs (F := F)) adm (Ix := Unit) (Name := ℕ) (U := UR sig nD τ) (Lvl := ℕ)
      launch1.win launch1.arr_whole c (pdats m) ((pdats m 1 c).share_full fun _ => rfl)
      (entry1 m c) (fun b => V6 m (outs m) c b) ((pdats m 1 c).arrAt · cfg1.N) (hF1 m c) (hrest1 m c)
    rw [Pipeline.unscopedBufs_held] at hjoin
    iintro ⟨Ha, HO, HY, Hrest⟩
    imodintro
    isplitl [Ha Hrest]
    · iapply hjoin; isplitl [Ha] <;> iassumption
    isplitl [HY]; · iexact HY
    unfold Pipeline.Dat.owesAt Pipeline.owesWithin
    icases HO with ⟨%W, -, HO⟩; iexists W; iexact HO

/-! ## The run -/

set_option backward.isDefEq.respectTransparency.types false in
/-- From any memory with zero counters every weakly fair execution of @main terminates, nothing faulting; in every
    final state the result buffer holds what region 1's write-backs leave and every argument is as launched. -/
theorem run : θ_run defs (onTc (τ := τ) (main (F := F))) ⟨m, fun _ => 0, ρ⟩ (fun r => ∀ c : Dev nD,
      r.2.mem ((c.tc : Thread nD τ).loc main_v26) = outs m 6 main_v26 c
      ∧ r.2.mem ((c.tc : Thread nD τ).loc main_arg0) = m ((c.tc : Thread nD τ).loc main_arg0)
      ∧ r.2.mem ((c.tc : Thread nD τ).loc main_arg1) = m ((c.tc : Thread nD τ).loc main_arg1)
      ∧ r.2.mem ((c.tc : Thread nD τ).loc main_arg2) = m ((c.tc : Thread nD τ).loc main_arg2)
      ∧ r.2.mem ((c.tc : Thread nD τ).loc main_arg3) = m ((c.tc : Thread nD τ).loc main_arg3)
      ∧ r.2.mem ((c.tc : Thread nD τ).loc main_arg4) = m ((c.tc : Thread nD τ).loc main_arg4)
      ∧ r.2.mem ((c.tc : Thread nD τ).loc main_arg5) = m ((c.tc : Thread nD τ).loc main_arg5)) :=
  run_cond m emb₁ () 𝒱₀ L lv (fun _ _ => rfl) ρ (outs m) (pdats m) (O₀ := 0) (G := fun _ => iprop(emp))
    (u₀ := initOf (Pipeline.cells cfgs cellOf_inj) (Pipeline.launchToks cfgs cellOf_inj))
    (hu₀ := by
      iintro Hu; imodintro
      isplitl [Hu]
      · iapply (show (ownU (initOf (Pipeline.cells cfgs cellOf_inj) (Pipeline.launchToks cfgs cellOf_inj)) : sProp 𝕄)
            ⊢ BI.own (emb₁ (initOf (Pipeline.cells cfgs cellOf_inj) (Pipeline.launchToks cfgs cellOf_inj))) from .rfl)
        iexact Hu
      iapply (show (BI.emp : sProp 𝕄) ⊢ bigSep Finset.univ (fun _ : Dev nD => (BI.emp : sProp 𝕄)) from by rw [BI.bigSep_emp_const])
      iempintro)
    (E := fun _ c => R c)
    (hE0 := by
      refine Pipeline.initEach L lv fun c => ?_
      iintro ⟨⟨-, HO, -, Hp, -⟩, -⟩
      imodintro
      isplitl [Hp]; · iexists _; iexact Hp
      iexists ∅; iexact HO)
    (hE2 := fun c => by iintro ⟨-, HO⟩; iexact HO)
    (reg0 m) (fun _ => .rfl) (fun _ => .rfl) (reg1 m) (fun _ => .rfl) (fun _ => .rfl)

end Cert.KernelIdeal.Run

end
-- ==== Proof.R0K.lean ====
/-
  Region 0 (the segment-sum reduction) as pipeline proof data, at any float family: what the two VMEM
  accumulators hold after each grid point, and what the pipeline's windows hold.

  The grid is 2 x 32, point t = 32 * c + i. At point t the body adds to the accumulators the one-hot
  product of the point's id block with the point's row block (and, to the row counter, the one-hot's
  lane sums), starting from zero when i = 0; when i = 31 it copies both accumulators to the output
  windows' staging buffers, which the pipeline writes back exactly there.
-/
import proofs.«409112_j63488206570149_3_alg».proof.Proof.Gen.Kernel.Launch
import proofs.«409112_j63488206570149_3_alg».proof.Proof.Gen.Kernel.Skeleton
import proofs.«409112_j63488206570149_3_alg».proof.Proof.Gen.Kernel.Points
import Idealize.ShloMosaic.Lib.Pipeline.FrameBody
import Idealize.ShloMosaic.Lib.Pipeline.Value
import Idealize.ShloMosaic.Lib.Pipeline.RegionsLoop
import Idealize.ShloMosaic.Lib.Pipeline.FrameSuffix
import Idealize.ShloMosaic.Lib.Ring
import Idealize.ShloMosaic.Lib.Tactic

set_option maxRecDepth 16384

noncomputable section

namespace Cert.Kernel.R0

open Cert.Kernel Cert.Kernel.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ (UR sig nD τ) ℕ

variable (V : (c : Dev nD) → (b : Ref sig .tc) → Buf (Elt F) ((c : Thread nD τ).loc b))

/-- Window `w`'s block at point `t`, read off its array as the region finds it. -/
def iblk0 (c : Dev nD) (w : Fin cfg0.W) (t : Fin cfg0.N) : ((cfg0.win w).xblock (cfg0.grid.coords t)).Idx → Elt F (cfg0.win w).elt :=
  ((cfg0.win w).blk t).view.read (Elt F) (V c (Pipeline.arrRef spec0 w))

/-- The sum accumulator [64, 512] after point `n`: the point's one-hot product added to zero at the first
    inner step of a core, to what the point before left otherwise. -/
def accS (c : Dev nD) : (n : ℕ) → n < cfg0.N → Vec F S64x512 .f32
  | 0, hn => k0_pay4 (iblk0 V c 1 ⟨0, hn⟩) (iblk0 V c 0 ⟨0, hn⟩) (k0_pay1 (F := F))
  | n + 1, hn => k0_pay4 (iblk0 V c 1 ⟨n + 1, hn⟩) (iblk0 V c 0 ⟨n + 1, hn⟩)
      (if (n + 1) % 32 = 0 then (k0_pay1 (F := F)) else accS c n (Nat.lt_of_succ_lt hn))
/-- The row counter [64, 128] after point `n`, likewise. -/
def accC (c : Dev nD) : (n : ℕ) → n < cfg0.N → Vec F S64x128 .f32
  | 0, hn => k0_pay5 (iblk0 V c 1 ⟨0, hn⟩) (k0_pay2 (F := F))
  | n + 1, hn => k0_pay5 (iblk0 V c 1 ⟨n + 1, hn⟩)
      (if (n + 1) % 32 = 0 then (k0_pay2 (F := F)) else accC c n (Nat.lt_of_succ_lt hn))

/-- The two accumulators as whole memrefs. -/
abbrev scS : Memref sig .tc .vmem S64x512 .f32 := Memref.whole cc0_scratch0
abbrev scC : Memref sig .tc .vmem S64x128 .f32 := Memref.whole cc0_scratch1

/-- The core's other scoped buffers that are no staging buffer of this pipeline (the second pipeline's seven
    staging buffers), each whole at some contents. -/
abbrev restBufs (c : Dev nD) : sProp 𝕄 :=
  iprop((∃ d, owns (c : Thread nD τ) (Memref.whole cc1_stg0_0) fullShare d) ∗ (∃ d, owns (c : Thread nD τ) (Memref.whole cc1_stg0_1) fullShare d)
    ∗ (∃ d, owns (c : Thread nD τ) (Memref.whole cc1_stg1_0) fullShare d) ∗ (∃ d, owns (c : Thread nD τ) (Memref.whole cc1_stg1_1) fullShare d)
    ∗ (∃ d, owns (c : Thread nD τ) (Memref.whole cc1_stg2_0) fullShare d) ∗ (∃ d, owns (c : Thread nD τ) (Memref.whole cc1_stg3_0) fullShare d)
    ∗ (∃ d, owns (c : Thread nD τ) (Memref.whole cc1_stg3_1) fullShare d))

/-- The region's invariant before position `n`: before the first point what the launch hands the region (every
    scoped buffer that is no staging buffer of this pipeline at anything, the generator register at some
    state); afterwards the same with the two accumulators at what the point before left. -/
def PhiS (c : Dev nD) : (n : ℕ) → n ≤ cfg0.N → sProp 𝕄
  | 0, _ => Pipeline.ΦA spec0 c
  | n + 1, hn => iprop(iprop(owns (c : Thread nD τ) scS fullShare (accS V c n hn) ∗ owns (c : Thread nD τ) scC fullShare (accC V c n hn)
      ∗ restBufs c) ∗ (∃ r, prngReg c r))

/-- The class invariant with the two accumulators and the other scoped buffers as memrefs owned at some contents. -/
theorem PhiA0_eq (c : Dev nD) :
    (Pipeline.ΦA spec0 c : sProp 𝕄)
      = iprop(iprop((∃ d, owns (c : Thread nD τ) scS fullShare d) ∗ (∃ d, owns (c : Thread nD τ) scC fullShare d) ∗ restBufs c) ∗ (∃ r, prngReg c r)) := by
  unfold Pipeline.ΦA; rw [scopedRest0_eq]; simp only [scS, scC, restBufs, owns_whole]; try rfl

/-- The proof data of pipeline 0 on core `c`. -/
def dat0 (c : Dev nD) : Dat τ (Elt F) Unit ℕ (UR sig nD τ) ℕ cfg0 c where
  A w := V c (Pipeline.arrRef spec0 w)
  after w t := match w with
    | ⟨0, _⟩ => iblk0 V c 0 t
    | ⟨1, _⟩ => iblk0 V c 1 t
    | ⟨2, _⟩ => k0_pay6 (accS V c t.val t.isLt)
    | ⟨3, _⟩ => k0_pay7 (accC V c t.val t.isLt)
  Φ t := PhiS V c t.val (Nat.le_of_lt_succ t.isLt)
  q _ := fullShare
  owed _ := 0

variable {V}

/-- The proof data's arrays are the region-entry contents. -/
theorem A_eq0 (c : Dev nD) (w : Fin cfg0.W) : (dat0 V c).A w = V c (Pipeline.arrRef spec0 w) := by
  dsimp only [dat0]
theorem after0_0 (c : Dev nD) (t : Fin cfg0.N) : (dat0 V c).after 0 t = iblk0 V c 0 t := by dsimp only [dat0]
theorem after0_1 (c : Dev nD) (t : Fin cfg0.N) : (dat0 V c).after 1 t = iblk0 V c 1 t := by dsimp only [dat0]
theorem after0_2 (c : Dev nD) (t : Fin cfg0.N) : (dat0 V c).after 2 t = k0_pay6 (accS V c t.val t.isLt) := by dsimp only [dat0]
theorem after0_3 (c : Dev nD) (t : Fin cfg0.N) : (dat0 V c).after 3 t = k0_pay7 (accC V c t.val t.isLt) := by dsimp only [dat0]

variable (V)

/-! ## The body's two branch conditions, in closed form over the grid -/

/-- The first branch's condition (the inner grid coordinate is 0), from the grid coordinates. -/
abbrev condFirst (i : grid0.Coords) : Prop :=
  (Scalar.cmpi .ne (Scalar.extui (Scalar.cmpi .eq (BitVec.ofNat 32 (i 1).val) 0#32)) 0#32) = 1#1
/-- It holds exactly at the points that are 0 modulo 32: decided over the 64 points. -/
theorem hcondFirst : ∀ t : Fin cfg0.N, condFirst (grid0.coords t) ↔ t.val % 32 = 0 :=
  (by decide +kernel : ∀ t : Fin grid0.N, condFirst (grid0.coords t) ↔ t.val % 32 = 0)

/-- The second branch's condition (the inner grid coordinate is 31). -/
abbrev condLast (i : grid0.Coords) : Prop := k0_cond2 i = 1#1
/-- It holds exactly at the points that are 31 modulo 32. -/
theorem hcondLast : ∀ t : Fin cfg0.N, condLast (grid0.coords t) ↔ t.val % 32 = 31 :=
  (by decide +kernel : ∀ t : Fin grid0.N, condLast (grid0.coords t) ↔ t.val % 32 = 31)

/-! ## Where the windows are idle -/

theorem live0_0 : ∀ t : Fin cfg0.N, cfg0.idle 0 (grid0.coords t) = false := by decide +kernel
theorem live0_1 : ∀ t : Fin cfg0.N, cfg0.idle 1 (grid0.coords t) = false := by decide +kernel
/-- Away from the last inner step the two output windows are idle and are not written back. -/
theorem idle0_2 : ∀ t : Fin cfg0.N, ¬condLast (grid0.coords t) → cfg0.idle 2 (grid0.coords t) = true := by decide +kernel
theorem idle0_3 : ∀ t : Fin cfg0.N, ¬condLast (grid0.coords t) → cfg0.idle 3 (grid0.coords t) = true := by decide +kernel
theorem noFlush0_2 : ∀ t : Fin cfg0.N, ¬condLast (grid0.coords t) → (cfg0.win 2).flush t = false := by decide +kernel
theorem noFlush0_3 : ∀ t : Fin cfg0.N, ¬condLast (grid0.coords t) → (cfg0.win 3).flush t = false := by decide +kernel
/-- At the last inner step they are live. -/
theorem live0_2 : ∀ t : Fin cfg0.N, condLast (grid0.coords t) → cfg0.idle 2 (grid0.coords t) = false := by decide +kernel
theorem live0_3 : ∀ t : Fin cfg0.N, condLast (grid0.coords t) → cfg0.idle 3 (grid0.coords t) = false := by decide +kernel

/-! ## The input windows' buffers hold their blocks at every point -/

theorem before0_0 (c : Dev nD) (t : Fin cfg0.N) (d) : (dat0 V c).before 0 t d = iblk0 V c 0 t :=
  ((dat0 V c).before_in_eq_fetched 0 rfl (fun _ => rfl) (fun _ _ _ => rfl)
    (fun t => by rw [after0_0]; unfold Dat.blockOf iblk0; rw [A_eq0]; try rfl) t d).trans
    (by unfold Dat.fetched Dat.blockOf iblk0; rw [A_eq0]; try rfl)
theorem before0_1 (c : Dev nD) (t : Fin cfg0.N) (d) : (dat0 V c).before 1 t d = iblk0 V c 1 t :=
  ((dat0 V c).before_in_eq_fetched 1 rfl (fun _ => rfl) (fun _ _ _ => rfl)
    (fun t => by rw [after0_1]; unfold Dat.blockOf iblk0; rw [A_eq0]; try rfl) t d).trans
    (by unfold Dat.fetched Dat.blockOf iblk0; rw [A_eq0]; try rfl)

/-! ## The invariant and the accumulators, unfolded at a point -/

theorem PhiS_zero (c : Dev nD) (n : ℕ) (h : n ≤ cfg0.N) (hz : n = 0) : PhiS V c n h = Pipeline.ΦA spec0 c := by
  subst hz; rfl

theorem PhiS_succ (c : Dev nD) (n : ℕ) (hn : n < cfg0.N) :
    PhiS V c (n + 1) hn = iprop(iprop(owns (c : Thread nD τ) scS fullShare (accS V c n hn) ∗ owns (c : Thread nD τ) scC fullShare (accC V c n hn)
      ∗ restBufs c) ∗ (∃ r, prngReg c r)) := rfl

theorem PhiS_pos (c : Dev nD) (n : ℕ) (h : n ≤ cfg0.N) (hz : n ≠ 0) :
    PhiS V c n h = iprop(iprop(owns (c : Thread nD τ) scS fullShare (accS V c (n - 1) (by omega)) ∗ owns (c : Thread nD τ) scC fullShare (accC V c (n - 1) (by omega))
      ∗ restBufs c) ∗ (∃ r, prngReg c r)) := by
  cases n with
  | zero => exact absurd rfl hz
  | succ n => rfl

theorem PhiS_castSucc (c : Dev nD) (t : Fin cfg0.N) :
    (dat0 V c).Φ t.castSucc = PhiS V c t.val (Nat.le_of_lt t.isLt) := by
  dsimp only [dat0]; simp only [Fin.coe_castSucc]

/-- The sum accumulator after a point that opens a core's sweep: the point's product added to zero. -/
theorem accS_first (c : Dev nD) (t : Fin cfg0.N) (h0 : t.val % 32 = 0) :
    accS V c t.val t.isLt = k0_pay4 (iblk0 V c 1 t) (iblk0 V c 0 t) (k0_pay1 (F := F)) := by
  obtain ⟨n, hn⟩ := t
  cases n with
  | zero => rfl
  | succ n => exact congrArg (k0_pay4 _ _) (if_pos h0)
/-- After any other point: the point's product added to what the point before left. -/
theorem accS_next (c : Dev nD) (t : Fin cfg0.N) (h0 : ¬t.val % 32 = 0) :
    accS V c t.val t.isLt = k0_pay4 (iblk0 V c 1 t) (iblk0 V c 0 t) (accS V c (t.val - 1) (Nat.lt_of_le_of_lt (Nat.sub_le _ _) t.isLt)) := by
  obtain ⟨n, hn⟩ := t
  cases n with
  | zero => exact absurd (Nat.zero_mod _) h0
  | succ n => exact congrArg (k0_pay4 _ _) (if_neg h0)
theorem accC_first (c : Dev nD) (t : Fin cfg0.N) (h0 : t.val % 32 = 0) :
    accC V c t.val t.isLt = k0_pay5 (iblk0 V c 1 t) (k0_pay2 (F := F)) := by
  obtain ⟨n, hn⟩ := t
  cases n with
  | zero => rfl
  | succ n => exact congrArg (k0_pay5 _) (if_pos h0)
theorem accC_next (c : Dev nD) (t : Fin cfg0.N) (h0 : ¬t.val % 32 = 0) :
    accC V c t.val t.isLt = k0_pay5 (iblk0 V c 1 t) (accC V c (t.val - 1) (Nat.lt_of_le_of_lt (Nat.sub_le _ _) t.isLt)) := by
  obtain ⟨n, hn⟩ := t
  cases n with
  | zero => exact absurd (Nat.zero_mod _) h0
  | succ n => exact congrArg (k0_pay5 _) (if_neg h0)

/-! ## Whole-buffer accesses: every load and store of the body is through the full rectangle at offset zero -/

theorem zero_off2 : (![0, 0] : Fin 2 → ℕ) = fun _ => 0 := by funext a; fin_cases a <;> rfl
theorem zero_off3 : (![0, 0, 0] : Fin 3 → ℕ) = fun _ => 0 := by funext a; fin_cases a <;> rfl

/-- A load through the full rectangle at offset zero reads the buffer's contents. -/
theorem readAt_full {S : Shape} {e : EltTy} {sp : Space} (v : View sig .tc sp S e) (f : v.ty.Contents (Elt F))
    {off : Fin S.rank → ℕ} (h : off = fun _ => 0) (inb : ∀ a, off a + S.size a ≤ S.size a) :
    View.readAt (Elt F) v (Rect.unit off S.size inb).toLoadRect f = v.read (Elt F) f := by
  rw [View.readAt_eq_ld, View.ld_unit_zero h]

/-- A store through the full rectangle at offset zero, the last of a run's stores, leaves exactly its payload. -/
theorem read_store_full {S : Shape} {e : EltTy} {sp : Space} (v : View sig .tc sp S e) (f : v.ty.Contents (Elt F))
    {off : Fin S.rank → ℕ} (h : off = fun _ => 0) (inb : ∀ a, off a + S.size a ≤ S.size a) (w : S.Idx → Elt F e)
    (L : List (View.Piece (Elt F) S e)) :
    v.read (Elt F) (v.writes (Elt F) f (⟨Rect.unit off S.size inb, w⟩ :: L)) = w := by
  rw [View.read_writes_eq_canon _ _ _ (fun y => ⟨_, List.mem_cons_self .., View.mem_set_unit_zero h inb y⟩),
    View.canon_cons_unit_zero h]

/-! ## The body's triple, case by case

Over any whole memrefs: arg2 the row block (x0), arg3 the id block (x1), arg4 and arg5 the two output windows'
buffers, arg6 and arg7 the two accumulators. -/

set_option maxHeartbeats 2000000 in
/-- A point that opens a core's sweep (first branch taken, second not): the accumulators, found at anything, are
    zeroed and then updated; the inputs and the two output buffers are left as found. -/
theorem kernel_first (c : Dev nD) (E : Set ℕ) (i : grid0.Coords)
    (arg2 : Memref sig .tc .vmem S4096x512 .f32) (harg2 : arg2.IsWhole) (arg3 : Memref sig .tc .vmem S1x4096 .i32) (harg3 : arg3.IsWhole)
    (arg4 : Memref sig .tc .vmem S1x64x512 .f32) (harg4 : arg4.IsWhole) (arg5 : Memref sig .tc .vmem S1x64x128 .f32) (harg5 : arg5.IsWhole)
    (arg6 : Memref sig .tc .vmem S64x512 .f32) (harg6 : arg6.IsWhole) (arg7 : Memref sig .tc .vmem S64x128 .f32) (harg7 : arg7.IsWhole)
    (hc0 : condFirst i) (hc1 : ¬condLast i)
    (x0 : Vec F S4096x512 .f32) (x1 : Vec F S1x4096 .i32) (d4 : Vec F S1x64x512 .f32) (d5 : Vec F S1x64x128 .f32)
    (K : PUnit → sProp 𝕄) :
    iprop(owns (c : Thread nD τ) arg2 fullShare x0 ∗ owns (c : Thread nD τ) arg3 fullShare x1
        ∗ owns (c : Thread nD τ) arg4 fullShare d4 ∗ owns (c : Thread nD τ) arg5 fullShare d5
        ∗ (∃ d, owns (c : Thread nD τ) arg6 fullShare d) ∗ (∃ d, owns (c : Thread nD τ) arg7 fullShare d)
        ∗ (iprop(owns (c : Thread nD τ) arg2 fullShare x0 ∗ owns (c : Thread nD τ) arg3 fullShare x1
            ∗ owns (c : Thread nD τ) arg4 fullShare d4 ∗ owns (c : Thread nD τ) arg5 fullShare d5
            ∗ owns (c : Thread nD τ) arg6 fullShare (k0_pay4 x1 x0 (k0_pay1 (F := F))) ∗ owns (c : Thread nD τ) arg7 fullShare (k0_pay5 x1 (k0_pay2 (F := F)))) -∗ K ⟨⟩))
      ⊢ wp frame (wpE (defs₀ (F := F)) Variants.none c none) E (cc0__reduce_kernel i arg2 harg2 arg3 harg3 arg4 harg4 arg5 harg5 arg6 harg6 arg7 harg7) K := by
  simp only [cc0__reduce_kernel_eq_skeleton]; unfold cc0__reduce_kernel_skel
  unfold owns
  iintro ⟨⟨%f2, %hf2, H2⟩, ⟨%f3, %hf3, H3⟩, ⟨%f4, %hf4, H4⟩, ⟨%f5, %hf5, H5⟩, ⟨%d6, %f6, -, H6⟩, ⟨%d7, %f7, -, H7⟩, Hk⟩
  subst hf2; subst hf3; subst hf4; subst hf5
  sl_exec (disch := first | exact hc0 | exact hc1)
  sl_step
  iapply Hk
  isplitl [H2]
  · iexists f2; isplitr; · ipureintro; rfl
    iexact H2
  isplitl [H3]
  · iexists f3; isplitr; · ipureintro; rfl
    iexact H3
  isplitl [H4]
  · iexists f4; isplitr; · ipureintro; rfl
    iexact H4
  isplitl [H5]
  · iexists f5; isplitr; · ipureintro; rfl
    iexact H5
  isplitl [H6]
  · iexists _; isplitr
    swap; · iexact H6
    ipureintro
    sl_unfold_run_names
    rw [read_store_full (F := F) arg6.view _ zero_off2]
    simp only [View.readCov_unit_zero (S := S64x512) arg6.view zero_off2, View.readCov_unit_zero (S := S64x128) arg7.view zero_off2, readAt_full (F := F) arg3.view f3 zero_off2, readAt_full (F := F) arg2.view f2 zero_off2, readAt_full (F := F) arg6.view f6 zero_off2, readAt_full (F := F) arg7.view f7 zero_off2]
  iexists _; isplitr
  swap; · iexact H7
  ipureintro
  sl_unfold_run_names
  rw [read_store_full (F := F) arg7.view _ zero_off2]
  simp only [View.readCov_unit_zero (S := S64x512) arg6.view zero_off2, View.readCov_unit_zero (S := S64x128) arg7.view zero_off2, readAt_full (F := F) arg3.view f3 zero_off2, readAt_full (F := F) arg2.view f2 zero_off2, readAt_full (F := F) arg6.view f6 zero_off2, readAt_full (F := F) arg7.view f7 zero_off2]

set_option maxHeartbeats 2000000 in
/-- A point strictly inside a core's sweep (neither branch taken): the accumulators, found at S and C, are left at
    the point's update of them; the inputs and the two output buffers are left as found. -/
theorem kernel_mid (c : Dev nD) (E : Set ℕ) (i : grid0.Coords)
    (arg2 : Memref sig .tc .vmem S4096x512 .f32) (harg2 : arg2.IsWhole) (arg3 : Memref sig .tc .vmem S1x4096 .i32) (harg3 : arg3.IsWhole)
    (arg4 : Memref sig .tc .vmem S1x64x512 .f32) (harg4 : arg4.IsWhole) (arg5 : Memref sig .tc .vmem S1x64x128 .f32) (harg5 : arg5.IsWhole)
    (arg6 : Memref sig .tc .vmem S64x512 .f32) (harg6 : arg6.IsWhole) (arg7 : Memref sig .tc .vmem S64x128 .f32) (harg7 : arg7.IsWhole)
    (hc0 : ¬condFirst i) (hc1 : ¬condLast i)
    (x0 : Vec F S4096x512 .f32) (x1 : Vec F S1x4096 .i32) (d4 : Vec F S1x64x512 .f32) (d5 : Vec F S1x64x128 .f32)
    (S : Vec F S64x512 .f32) (C : Vec F S64x128 .f32) (K : PUnit → sProp 𝕄) :
    iprop(owns (c : Thread nD τ) arg2 fullShare x0 ∗ owns (c : Thread nD τ) arg3 fullShare x1
        ∗ owns (c : Thread nD τ) arg4 fullShare d4 ∗ owns (c : Thread nD τ) arg5 fullShare d5
        ∗ owns (c : Thread nD τ) arg6 fullShare S ∗ owns (c : Thread nD τ) arg7 fullShare C
        ∗ (iprop(owns (c : Thread nD τ) arg2 fullShare x0 ∗ owns (c : Thread nD τ) arg3 fullShare x1
            ∗ owns (c : Thread nD τ) arg4 fullShare d4 ∗ owns (c : Thread nD τ) arg5 fullShare d5
            ∗ owns (c : Thread nD τ) arg6 fullShare (k0_pay4 x1 x0 S) ∗ owns (c : Thread nD τ) arg7 fullShare (k0_pay5 x1 C)) -∗ K ⟨⟩))
      ⊢ wp frame (wpE (defs₀ (F := F)) Variants.none c none) E (cc0__reduce_kernel i arg2 harg2 arg3 harg3 arg4 harg4 arg5 harg5 arg6 harg6 arg7 harg7) K := by
  simp only [cc0__reduce_kernel_eq_skeleton]; unfold cc0__reduce_kernel_skel
  unfold owns
  iintro ⟨⟨%f2, %hf2, H2⟩, ⟨%f3, %hf3, H3⟩, ⟨%f4, %hf4, H4⟩, ⟨%f5, %hf5, H5⟩, ⟨%f6, %hf6, H6⟩, ⟨%f7, %hf7, H7⟩, Hk⟩
  subst hf2; subst hf3; subst hf4; subst hf5; subst hf6; subst hf7
  sl_exec (disch := first | exact hc0 | exact hc1)
  sl_step
  iapply Hk
  isplitl [H2]
  · iexists f2; isplitr; · ipureintro; rfl
    iexact H2
  isplitl [H3]
  · iexists f3; isplitr; · ipureintro; rfl
    iexact H3
  isplitl [H4]
  · iexists f4; isplitr; · ipureintro; rfl
    iexact H4
  isplitl [H5]
  · iexists f5; isplitr; · ipureintro; rfl
    iexact H5
  isplitl [H6]
  · iexists _; isplitr
    swap; · iexact H6
    ipureintro
    sl_unfold_run_names
    rw [read_store_full (F := F) arg6.view _ zero_off2]
    simp only [View.readCov_unit_zero (S := S64x512) arg6.view zero_off2, View.readCov_unit_zero (S := S64x128) arg7.view zero_off2, readAt_full (F := F) arg3.view f3 zero_off2, readAt_full (F := F) arg2.view f2 zero_off2, readAt_full (F := F) arg6.view f6 zero_off2, readAt_full (F := F) arg7.view f7 zero_off2]
  iexists _; isplitr
  swap; · iexact H7
  ipureintro
  sl_unfold_run_names
  rw [read_store_full (F := F) arg7.view _ zero_off2]
  simp only [View.readCov_unit_zero (S := S64x512) arg6.view zero_off2, View.readCov_unit_zero (S := S64x128) arg7.view zero_off2, readAt_full (F := F) arg3.view f3 zero_off2, readAt_full (F := F) arg2.view f2 zero_off2, readAt_full (F := F) arg6.view f6 zero_off2, readAt_full (F := F) arg7.view f7 zero_off2]

set_option maxHeartbeats 2000000 in
/-- A point that closes a core's sweep (first branch not taken, second taken): the accumulators are updated and
    then copied into the two output buffers, found at anything. -/
theorem kernel_last (c : Dev nD) (E : Set ℕ) (i : grid0.Coords)
    (arg2 : Memref sig .tc .vmem S4096x512 .f32) (harg2 : arg2.IsWhole) (arg3 : Memref sig .tc .vmem S1x4096 .i32) (harg3 : arg3.IsWhole)
    (arg4 : Memref sig .tc .vmem S1x64x512 .f32) (harg4 : arg4.IsWhole) (arg5 : Memref sig .tc .vmem S1x64x128 .f32) (harg5 : arg5.IsWhole)
    (arg6 : Memref sig .tc .vmem S64x512 .f32) (harg6 : arg6.IsWhole) (arg7 : Memref sig .tc .vmem S64x128 .f32) (harg7 : arg7.IsWhole)
    (hc0 : ¬condFirst i) (hc1 : condLast i)
    (x0 : Vec F S4096x512 .f32) (x1 : Vec F S1x4096 .i32)
    (S : Vec F S64x512 .f32) (C : Vec F S64x128 .f32) (K : PUnit → sProp 𝕄) :
    iprop(owns (c : Thread nD τ) arg2 fullShare x0 ∗ owns (c : Thread nD τ) arg3 fullShare x1
        ∗ (∃ d, owns (c : Thread nD τ) arg4 fullShare d) ∗ (∃ d, owns (c : Thread nD τ) arg5 fullShare d)
        ∗ owns (c : Thread nD τ) arg6 fullShare S ∗ owns (c : Thread nD τ) arg7 fullShare C
        ∗ (iprop(owns (c : Thread nD τ) arg2 fullShare x0 ∗ owns (c : Thread nD τ) arg3 fullShare x1
            ∗ owns (c : Thread nD τ) arg4 fullShare (k0_pay6 (k0_pay4 x1 x0 S)) ∗ owns (c : Thread nD τ) arg5 fullShare (k0_pay7 (k0_pay5 x1 C))
            ∗ owns (c : Thread nD τ) arg6 fullShare (k0_pay4 x1 x0 S) ∗ owns (c : Thread nD τ) arg7 fullShare (k0_pay5 x1 C)) -∗ K ⟨⟩))
      ⊢ wp frame (wpE (defs₀ (F := F)) Variants.none c none) E (cc0__reduce_kernel i arg2 harg2 arg3 harg3 arg4 harg4 arg5 harg5 arg6 harg6 arg7 harg7) K := by
  simp only [cc0__reduce_kernel_eq_skeleton]; unfold cc0__reduce_kernel_skel
  unfold owns
  iintro ⟨⟨%f2, %hf2, H2⟩, ⟨%f3, %hf3, H3⟩, ⟨%d4, %f4, -, H4⟩, ⟨%d5, %f5, -, H5⟩, ⟨%f6, %hf6, H6⟩, ⟨%f7, %hf7, H7⟩, Hk⟩
  subst hf2; subst hf3; subst hf6; subst hf7
  sl_exec (disch := first | exact hc0 | exact hc1)
  sl_step
  iapply Hk
  isplitl [H2]
  · iexists f2; isplitr; · ipureintro; rfl
    iexact H2
  isplitl [H3]
  · iexists f3; isplitr; · ipureintro; rfl
    iexact H3
  isplitl [H4]
  · iexists _; isplitr
    swap; · iexact H4
    ipureintro
    sl_unfold_run_names
    rw [read_store_full (F := F) arg4.view _ zero_off3]
    simp only [View.readCov_unit_zero (S := S64x512) arg6.view zero_off2, View.readCov_unit_zero (S := S64x128) arg7.view zero_off2, readAt_full (F := F) arg3.view f3 zero_off2, readAt_full (F := F) arg2.view f2 zero_off2, readAt_full (F := F) arg6.view f6 zero_off2, readAt_full (F := F) arg7.view f7 zero_off2]
  isplitl [H5]
  · iexists _; isplitr
    swap; · iexact H5
    ipureintro
    sl_unfold_run_names
    rw [read_store_full (F := F) arg5.view _ zero_off3]
    simp only [View.readCov_unit_zero (S := S64x512) arg6.view zero_off2, View.readCov_unit_zero (S := S64x128) arg7.view zero_off2, readAt_full (F := F) arg3.view f3 zero_off2, readAt_full (F := F) arg2.view f2 zero_off2, readAt_full (F := F) arg6.view f6 zero_off2, readAt_full (F := F) arg7.view f7 zero_off2]
  isplitl [H6]
  · iexists _; isplitr
    swap; · iexact H6
    ipureintro
    sl_unfold_run_names
    rw [read_store_full (F := F) arg6.view _ zero_off2]
    simp only [View.readCov_unit_zero (S := S64x512) arg6.view zero_off2, View.readCov_unit_zero (S := S64x128) arg7.view zero_off2, readAt_full (F := F) arg3.view f3 zero_off2, readAt_full (F := F) arg2.view f2 zero_off2, readAt_full (F := F) arg6.view f6 zero_off2, readAt_full (F := F) arg7.view f7 zero_off2]
  iexists _; isplitr
  swap; · iexact H7
  ipureintro
  sl_unfold_run_names
  rw [read_store_full (F := F) arg7.view _ zero_off2]
  simp only [View.readCov_unit_zero (S := S64x512) arg6.view zero_off2, View.readCov_unit_zero (S := S64x128) arg7.view zero_off2, readAt_full (F := F) arg3.view f3 zero_off2, readAt_full (F := F) arg2.view f2 zero_off2, readAt_full (F := F) arg6.view f6 zero_off2, readAt_full (F := F) arg7.view f7 zero_off2]

/-! ## The body obligation, at a generic point -/

/-- What the body is called with at point t: the invariant, nothing owed, every window's current buffer. -/
def bodyPre0 (c : Dev nD) (t : Fin cfg0.N) : sProp 𝕄 :=
  iprop((dat0 V c).Φ t.castSucc ∗ (dat0 V c).owesAt () t.castSucc
    ∗ (∃ d, owns (c : Thread nD τ) (st0_0 t) fullShare ((dat0 V c).before 0 t d))
    ∗ (∃ d, owns (c : Thread nD τ) (st0_1 t) fullShare ((dat0 V c).before 1 t d))
    ∗ (∃ d, owns (c : Thread nD τ) (st0_2 t) fullShare ((dat0 V c).before 2 t d))
    ∗ (∃ d, owns (c : Thread nD τ) (st0_3 t) fullShare ((dat0 V c).before 3 t d)))

/-- and what it returns: an output window idle at the point is handed back as found. -/
def bodyPost0 (c : Dev nD) (t : Fin cfg0.N) : sProp 𝕄 :=
  iprop((dat0 V c).Φ t.succ ∗ (dat0 V c).owesAt () t.succ
    ∗ (dat0 V c).leavesExact 0 t ∗ (dat0 V c).leavesExact 1 t
    ∗ (dat0 V c).leavesExact 2 t ∗ (dat0 V c).leavesExact 3 t)

set_option maxHeartbeats 4000000 in
/-- The body at any point, by the point's place in its core's sweep of 32: opening it (the accumulators come from
    the invariant at anything at the very first point, at the previous sweep's totals at point 32), inside it, or
    closing it. The invariant takes the accumulators back at this point's contents. -/
theorem sound_body0 (c : Dev nD) (t : Fin cfg0.N) :
    bodyPre0 V c t ⊢ wp frame (wpE (defs₀ (F := F)) Variants.none c none) Set.univ (bodyAt0 t) (fun _ => bodyPost0 V c t) := by
  unfold bodyPre0 bodyPost0 bodyAt0
  simp only [before0_0, before0_1]
  rw [show (dat0 V c).owesAt () t.succ = (dat0 V c).owesAt () t.castSucc from rfl]
  rw [show (dat0 V c).Φ t.succ = PhiS V c (t.val + 1) t.isLt from rfl, PhiS_succ]
  rw [show (dat0 V c).leavesExact 0 t = owns (c : Thread nD τ) (st0_0 t) fullShare ((dat0 V c).after 0 t) from by
    unfold Dat.leavesExact; rw [live0_0 t], after0_0]
  rw [show (dat0 V c).leavesExact 1 t = owns (c : Thread nD τ) (st0_1 t) fullShare ((dat0 V c).after 1 t) from by
    unfold Dat.leavesExact; rw [live0_1 t], after0_1]
  have hN : t.val < 64 := lt_of_lt_of_eq t.isLt (show cfg0.N = 64 from N_0)
  by_cases h0 : t.val % 32 = 0
  · have h1 : ¬t.val % 32 = 31 := by omega
    have hc0 : condFirst (grid0.coords t) := (hcondFirst t).mpr h0
    have hc1 : ¬condLast (grid0.coords t) := fun h => h1 ((hcondLast t).mp h)
    rw [Dat.leavesExact_idle (dat0 V c) 2 t (idle0_2 t hc1) (noFlush0_2 t hc1),
      Dat.leavesExact_idle (dat0 V c) 3 t (idle0_3 t hc1) (noFlush0_3 t hc1)]
    rw [accS_first V c t h0, accC_first V c t h0]
    by_cases hz : t.val = 0
    · rw [PhiS_castSucc V c t, PhiS_zero V c _ _ hz, PhiA0_eq]
      iintro ⟨⟨⟨HS, HC, HR⟩, Hg⟩, Ho, ⟨%d0, H0⟩, ⟨%d1, H1⟩, ⟨%d2, H2⟩, ⟨%d3, H3⟩⟩
      iapply (kernel_first c Set.univ (grid0.coords t) _ _ _ _ _ _ _ _ _ _ _ _ hc0 hc1 (iblk0 V c 0 t) (iblk0 V c 1 t)
        ((dat0 V c).before 2 t d2) ((dat0 V c).before 3 t d3) _)
      isplitl [H0]; · iexact H0
      isplitl [H1]; · iexact H1
      isplitl [H2]; · iexact H2
      isplitl [H3]; · iexact H3
      isplitl [HS]; · iexact HS
      isplitl [HC]; · iexact HC
      iintro ⟨H0, H1, H2, H3, HS, HC⟩
      isplitl [HS HC HR Hg]
      · isplitl [HS HC HR]
        · isplitl [HS]; · iexact HS
          isplitl [HC]; · iexact HC
          iexact HR
        iexact Hg
      isplitl [Ho]; · iexact Ho
      isplitl [H0]; · iexact H0
      isplitl [H1]; · iexact H1
      isplitl [H2]; · iexists _; iexact H2
      iexists _; iexact H3
    · rw [PhiS_castSucc V c t, PhiS_pos V c _ _ hz]
      iintro ⟨⟨⟨HS, HC, HR⟩, Hg⟩, Ho, ⟨%d0, H0⟩, ⟨%d1, H1⟩, ⟨%d2, H2⟩, ⟨%d3, H3⟩⟩
      iapply (kernel_first c Set.univ (grid0.coords t) _ _ _ _ _ _ _ _ _ _ _ _ hc0 hc1 (iblk0 V c 0 t) (iblk0 V c 1 t)
        ((dat0 V c).before 2 t d2) ((dat0 V c).before 3 t d3) _)
      isplitl [H0]; · iexact H0
      isplitl [H1]; · iexact H1
      isplitl [H2]; · iexact H2
      isplitl [H3]; · iexact H3
      isplitl [HS]; · iexists _; iexact HS
      isplitl [HC]; · iexists _; iexact HC
      iintro ⟨H0, H1, H2, H3, HS, HC⟩
      isplitl [HS HC HR Hg]
      · isplitl [HS HC HR]
        · isplitl [HS]; · iexact HS
          isplitl [HC]; · iexact HC
          iexact HR
        iexact Hg
      isplitl [Ho]; · iexact Ho
      isplitl [H0]; · iexact H0
      isplitl [H1]; · iexact H1
      isplitl [H2]; · iexists _; iexact H2
      iexists _; iexact H3
  · have hz : t.val ≠ 0 := fun e => h0 (by rw [e])
    have hc0 : ¬condFirst (grid0.coords t) := fun h => h0 ((hcondFirst t).mp h)
    rw [accS_next V c t h0, accC_next V c t h0]
    rw [PhiS_castSucc V c t, PhiS_pos V c _ _ hz]
    by_cases h1 : t.val % 32 = 31
    · have hc1 : condLast (grid0.coords t) := (hcondLast t).mpr h1
      rw [show (dat0 V c).leavesExact 2 t = owns (c : Thread nD τ) (st0_2 t) fullShare ((dat0 V c).after 2 t) from by
        unfold Dat.leavesExact; rw [live0_2 t hc1], after0_2]
      rw [show (dat0 V c).leavesExact 3 t = owns (c : Thread nD τ) (st0_3 t) fullShare ((dat0 V c).after 3 t) from by
        unfold Dat.leavesExact; rw [live0_3 t hc1], after0_3]
      rw [accS_next V c t h0, accC_next V c t h0]
      iintro ⟨⟨⟨HS, HC, HR⟩, Hg⟩, Ho, ⟨%d0, H0⟩, ⟨%d1, H1⟩, ⟨%d2, H2⟩, ⟨%d3, H3⟩⟩
      iapply (kernel_last c Set.univ (grid0.coords t) _ _ _ _ _ _ _ _ _ _ _ _ hc0 hc1 (iblk0 V c 0 t) (iblk0 V c 1 t)
        (accS V c (t.val - 1) (Nat.lt_of_le_of_lt (Nat.sub_le _ _) t.isLt)) (accC V c (t.val - 1) (Nat.lt_of_le_of_lt (Nat.sub_le _ _) t.isLt)) _)
      isplitl [H0]; · iexact H0
      isplitl [H1]; · iexact H1
      isplitl [H2]; · iexists _; iexact H2
      isplitl [H3]; · iexists _; iexact H3
      isplitl [HS]; · iexact HS
      isplitl [HC]; · iexact HC
      iintro ⟨H0, H1, H2, H3, HS, HC⟩
      isplitl [HS HC HR Hg]
      · isplitl [HS HC HR]
        · isplitl [HS]; · iexact HS
          isplitl [HC]; · iexact HC
          iexact HR
        iexact Hg
      isplitl [Ho]; · iexact Ho
      isplitl [H0]; · iexact H0
      isplitl [H1]; · iexact H1
      isplitl [H2]; · iexact H2
      iexact H3
    · have hc1 : ¬condLast (grid0.coords t) := fun h => h1 ((hcondLast t).mp h)
      rw [Dat.leavesExact_idle (dat0 V c) 2 t (idle0_2 t hc1) (noFlush0_2 t hc1),
        Dat.leavesExact_idle (dat0 V c) 3 t (idle0_3 t hc1) (noFlush0_3 t hc1)]
      iintro ⟨⟨⟨HS, HC, HR⟩, Hg⟩, Ho, ⟨%d0, H0⟩, ⟨%d1, H1⟩, ⟨%d2, H2⟩, ⟨%d3, H3⟩⟩
      iapply (kernel_mid c Set.univ (grid0.coords t) _ _ _ _ _ _ _ _ _ _ _ _ hc0 hc1 (iblk0 V c 0 t) (iblk0 V c 1 t)
        ((dat0 V c).before 2 t d2) ((dat0 V c).before 3 t d3)
        (accS V c (t.val - 1) (Nat.lt_of_le_of_lt (Nat.sub_le _ _) t.isLt)) (accC V c (t.val - 1) (Nat.lt_of_le_of_lt (Nat.sub_le _ _) t.isLt)) _)
      isplitl [H0]; · iexact H0
      isplitl [H1]; · iexact H1
      isplitl [H2]; · iexact H2
      isplitl [H3]; · iexact H3
      isplitl [HS]; · iexact HS
      isplitl [HC]; · iexact HC
      iintro ⟨H0, H1, H2, H3, HS, HC⟩
      isplitl [HS HC HR Hg]
      · isplitl [HS HC HR]
        · isplitl [HS]; · iexact HS
          isplitl [HC]; · iexact HC
          iexact HR
        iexact Hg
      isplitl [Ho]; · iexact Ho
      isplitl [H0]; · iexact H0
      isplitl [H1]; · iexact H1
      isplitl [H2]; · iexists _; iexact H2
      iexists _; iexact H3

/-- The library's body obligation, at every point. -/
theorem body_obligation0 (c : Dev nD) : BodyObligation (dat0 (F := F) V c) (defs₀ (F := F)) Variants.none () Set.univ := fun t => by
  rw [bigSep_W0, bigSep_W0]
  exact sound_body0 V c t

/-- What the launch hands the region is the invariant before the first point. -/
theorem hin0 (c : Dev nD) : Pipeline.ΦA spec0 c ⊢ (dat0 V c).Φ 0 := by
  rw [show (dat0 V c).Φ 0 = PhiS V c 0 (Nat.zero_le _) from rfl, PhiS_zero V c 0 _ rfl]
  try exact Idealize.SL.BI.Entails.refl _

/-- After the last point the invariant gives the class invariant back: the accumulators' contents are forgotten. -/
theorem hout0 (c : Dev nD) : (dat0 V c).Φ (Fin.last cfg0.N) ⊢ Pipeline.ΦA spec0 c := by
  rw [show (dat0 V c).Φ (Fin.last cfg0.N) = PhiS V c (Fin.last cfg0.N).val (Nat.le_of_lt_succ (Fin.last cfg0.N).isLt) from rfl,
    PhiS_pos V c _ _ (by rw [Fin.val_last]; have : cfg0.N = 64 := N_0; omega), PhiA0_eq]
  iintro ⟨⟨HS, HC, HR⟩, Hg⟩
  isplitl [HS HC HR]
  · isplitl [HS]; · iexists _; iexact HS
    isplitl [HC]; · iexists _; iexact HC
    iexact HR
  iexact Hg

end Cert.Kernel.R0

end
-- ==== Proof.R1K.lean ====
/- REGION 1 of the program: the second TensorCore call (the gather-and-multiply kernel, pipeline 1), as pipeline
   proof data with its body obligation, at any float family and at a PARAMETER V: the TensorCore's buffer
   contents when the region is entered.

   The kernel reads its three input windows whole (the row block of h, the segment-id block, the gate table),
   reads its output buffer once without using the value, and writes the product of the h block with the
   gathered gate rows over the whole output buffer. So after the body each input buffer holds its block as
   before, and the output buffer holds exactly the stored value. -/
import proofs.«409112_j63488206570149_3_alg».proof.Proof.Gen.Kernel.Launch
import proofs.«409112_j63488206570149_3_alg».proof.Proof.Gen.Kernel.Skeleton
import proofs.«409112_j63488206570149_3_alg».proof.Proof.Gen.Kernel.Points
import Idealize.ShloMosaic.Lib.Pipeline.FrameBody
import Idealize.ShloMosaic.Lib.Pipeline.RegionsLoop
import Idealize.ShloMosaic.Lib.Pipeline.FrameSuffix
import Idealize.ShloMosaic.Lib.Ring
import Idealize.ShloMosaic.Lib.Tactic

-- membership of an index in a rectangle of these extents is decided coordinate by coordinate along the long axes
set_option maxRecDepth 16384

noncomputable section

namespace Cert.Kernel.R1

open Cert.Kernel Cert.Kernel.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ (UR sig nD τ) ℕ

-- the TensorCore's buffer contents when the region is entered
variable (V : (c : Dev nD) → (b : Ref sig .tc) → Buf (Elt F) ((c : Thread nD τ).loc b))

/-! ## The windows' blocks -/

/-- Window w's block at point t, read off its array as the region finds it. -/
def iblk1 (c : Dev nD) (w : Fin cfg1.W) (t : Fin cfg1.N) : ((cfg1.win w).xblock (cfg1.grid.coords t)).Idx → Elt F (cfg1.win w).elt :=
  ((cfg1.win w).blk t).view.read (Elt F) (V c (Pipeline.arrRef spec1 w))

/-- An input window's current staging buffer holds the window's block at every point, whether the block was
    fetched at that point or carried over from the point before (then the block index has not moved): for any
    proof data whose array is the entry contents and whose body leaves the block in place. The three input
    windows are uncut and never idle. -/
theorem before1_0_of {c : Dev nD} (dat : Dat τ (Elt F) Unit ℕ (UR sig nD τ) ℕ cfg1 c) (hA : dat.A 0 = V c (Pipeline.arrRef spec1 0))
    (hafter : ∀ t, dat.after 0 t = iblk1 V c 0 t) (t : Fin cfg1.N) (d) : dat.before 0 t d = iblk1 V c 0 t :=
  (dat.before_in_eq_fetched 0 rfl (fun _ => rfl) (fun _ _ _ => rfl) (fun t => by rw [hafter]; unfold Dat.blockOf iblk1; rw [hA]; try rfl) t d).trans
    (by unfold Dat.fetched Dat.blockOf iblk1; rw [hA]; try rfl)

theorem before1_1_of {c : Dev nD} (dat : Dat τ (Elt F) Unit ℕ (UR sig nD τ) ℕ cfg1 c) (hA : dat.A 1 = V c (Pipeline.arrRef spec1 1))
    (hafter : ∀ t, dat.after 1 t = iblk1 V c 1 t) (t : Fin cfg1.N) (d) : dat.before 1 t d = iblk1 V c 1 t :=
  (dat.before_in_eq_fetched 1 rfl (fun _ => rfl) (fun _ _ _ => rfl) (fun t => by rw [hafter]; unfold Dat.blockOf iblk1; rw [hA]; try rfl) t d).trans
    (by unfold Dat.fetched Dat.blockOf iblk1; rw [hA]; try rfl)

theorem before1_2_of {c : Dev nD} (dat : Dat τ (Elt F) Unit ℕ (UR sig nD τ) ℕ cfg1 c) (hA : dat.A 2 = V c (Pipeline.arrRef spec1 2))
    (hafter : ∀ t, dat.after 2 t = iblk1 V c 2 t) (t : Fin cfg1.N) (d) : dat.before 2 t d = iblk1 V c 2 t :=
  (dat.before_in_eq_fetched 2 rfl (fun _ => rfl) (fun _ _ _ => rfl) (fun t => by rw [hafter]; unfold Dat.blockOf iblk1; rw [hA]; try rfl) t d).trans
    (by unfold Dat.fetched Dat.blockOf iblk1; rw [hA]; try rfl)

/-! ## The body's accesses: each buffer is read, and the output written, as a whole -/

abbrev rH : Rect S2048x512 := Rect.unit (s := S2048x512) ![0, 0] S2048x512.size inb_S2048x512_S2048x512_0_0
abbrev rB : Rect S1x2048 := Rect.unit (s := S1x2048) ![0, 0] S1x2048.size inb_S1x2048_S1x2048_0_0
abbrev rG : Rect S64x512 := Rect.unit (s := S64x512) ![0, 0] S64x512.size inb_S64x512_S64x512_0_0

/-! ## What the body leaves in the output window's buffer -/

/-- Window 3's staging buffer after the body, from the input windows' blocks: the single store, whose value is
    the h block times the gate rows selected by the segment ids. -/
def out1_3 (x0 : Vec F S2048x512 .f32) (x1 : Vec F S1x2048 .i32) (x2 : Vec F S64x512 .f32) : Vec F S2048x512 .f32 :=
  View.canon [⟨rH, k1_pay1 (View.ld x1 rB) (View.ld x2 rG) (View.ld x0 rH)⟩]

/-- The store's rectangle is the whole buffer, so it covers every index. -/
theorem cover1_3 (p0 : Vec F S2048x512 .f32) (y : S2048x512.Idx) :
    ∃ pc ∈ ([⟨rH, p0⟩] : List (View.Piece (Elt F) S2048x512 .f32)), y ∈ pc.1.set :=
  View.cover_of_tiled [⟨rH, p0⟩] S2048x512.size (by rfl) y

/-! ## The body's triple -/

set_option maxHeartbeats 1000000 in
/-- The kernel body on whole staging memrefs, the inputs' at contents x0 x1 x2 and the output's at anything,
    runs to the continuation holding the inputs' as they were and the output's at out1_3 of the inputs'. -/
theorem sound_kernel1 (c : Dev nD) (E : Set ℕ) (i : grid1.Coords)
    (arg1 : Memref sig .tc .vmem S2048x512 .f32) (harg1 : arg1.IsWhole) (arg2 : Memref sig .tc .vmem S1x2048 .i32) (harg2 : arg2.IsWhole)
    (arg3 : Memref sig .tc .vmem S64x512 .f32) (harg3 : arg3.IsWhole) (arg4 : Memref sig .tc .vmem S2048x512 .f32) (harg4 : arg4.IsWhole)
    (x0 : Vec F S2048x512 .f32) (x1 : Vec F S1x2048 .i32) (x2 : Vec F S64x512 .f32) (K : PUnit → sProp 𝕄) :
    iprop(owns (c : Thread nD τ) arg1 fullShare x0 ∗ owns (c : Thread nD τ) arg2 fullShare x1 ∗ owns (c : Thread nD τ) arg3 fullShare x2
        ∗ (∃ d, owns (c : Thread nD τ) arg4 fullShare d)
        ∗ (iprop(owns (c : Thread nD τ) arg1 fullShare x0 ∗ owns (c : Thread nD τ) arg2 fullShare x1 ∗ owns (c : Thread nD τ) arg3 fullShare x2
            ∗ owns (c : Thread nD τ) arg4 fullShare (out1_3 x0 x1 x2)) -∗ K ⟨⟩))
      ⊢ wp frame (wpE (defs₀ (F := F)) Variants.none c none) E (cc1__gather_mul_kernel i arg1 harg1 arg2 harg2 arg3 harg3 arg4 harg4) K := by
  simp only [cc1__gather_mul_kernel_eq_skeleton]; unfold cc1__gather_mul_kernel_skel
  unfold owns
  iintro ⟨⟨%f1, %hf1, H1⟩, ⟨%f2, %hf2, H2⟩, ⟨%f3, %hf3, H3⟩, ⟨%d4, %f4, -, H4⟩, Hk⟩
  subst hf1; subst hf2; subst hf3
  sl_exec
  sl_step
  iapply Hk
  isplitl [H1]
  · iexists f1; isplitr; · ipureintro; rfl
    iexact H1
  isplitl [H2]
  · iexists f2; isplitr; · ipureintro; rfl
    iexact H2
  isplitl [H3]
  · iexists f3; isplitr; · ipureintro; rfl
    iexact H3
  iexists _; isplitr
  swap; · iexact H4
  ipureintro
  exact View.read_writes_eq_canon _ _ _ (cover1_3 _)

/-! ## The pipeline's proof data -/

/-- The proof data of pipeline 1 on core c: the arrays as the region finds them; after the body at point t each
    input's buffer at its block and the output's at out1_3 of the input blocks; the invariant the scoped rest and
    the generator register, untouched; nothing owed; full shares. -/
def dat1 (c : Dev nD) : Dat τ (Elt F) Unit ℕ (UR sig nD τ) ℕ cfg1 c where
  A w := V c (Pipeline.arrRef spec1 w)
  after w t := match w with
    | ⟨0, _⟩ => iblk1 V c 0 t
    | ⟨1, _⟩ => iblk1 V c 1 t
    | ⟨2, _⟩ => iblk1 V c 2 t
    | ⟨3, _⟩ => out1_3 (iblk1 V c 0 t) (iblk1 V c 1 t) (iblk1 V c 2 t)
  Φ _ := Pipeline.ΦA spec1 c
  q _ := fullShare
  owed _ := 0

theorem A_eq1 (c : Dev nD) (w : Fin cfg1.W) : (dat1 V c).A w = V c (Pipeline.arrRef spec1 w) := by
  dsimp only [dat1]

theorem after1_0 (c : Dev nD) (t : Fin cfg1.N) : (dat1 V c).after 0 t = iblk1 V c 0 t := by dsimp only [dat1]
theorem after1_1 (c : Dev nD) (t : Fin cfg1.N) : (dat1 V c).after 1 t = iblk1 V c 1 t := by dsimp only [dat1]
theorem after1_2 (c : Dev nD) (t : Fin cfg1.N) : (dat1 V c).after 2 t = iblk1 V c 2 t := by dsimp only [dat1]
theorem after1_3 (c : Dev nD) (t : Fin cfg1.N) :
    (dat1 V c).after 3 t = out1_3 (iblk1 V c 0 t) (iblk1 V c 1 t) (iblk1 V c 2 t) := by dsimp only [dat1]

theorem before1_0 (c : Dev nD) (t : Fin cfg1.N) (d) : (dat1 V c).before 0 t d = iblk1 V c 0 t :=
  before1_0_of V (dat1 V c) (A_eq1 V c 0) (after1_0 V c) t d
theorem before1_1 (c : Dev nD) (t : Fin cfg1.N) (d) : (dat1 V c).before 1 t d = iblk1 V c 1 t :=
  before1_1_of V (dat1 V c) (A_eq1 V c 1) (after1_1 V c) t d
theorem before1_2 (c : Dev nD) (t : Fin cfg1.N) (d) : (dat1 V c).before 2 t d = iblk1 V c 2 t :=
  before1_2_of V (dat1 V c) (A_eq1 V c 2) (after1_2 V c) t d

/-! ## The body obligation, at a generic point -/

def bodyPre1 (c : Dev nD) (t : Fin cfg1.N) : sProp 𝕄 :=
  iprop((dat1 V c).Φ t.castSucc ∗ (dat1 V c).owesAt () t.castSucc
    ∗ (∃ d, owns (c : Thread nD τ) (st1_0 t) fullShare ((dat1 V c).before 0 t d))
    ∗ (∃ d, owns (c : Thread nD τ) (st1_1 t) fullShare ((dat1 V c).before 1 t d))
    ∗ (∃ d, owns (c : Thread nD τ) (st1_2 t) fullShare ((dat1 V c).before 2 t d))
    ∗ (∃ d, owns (c : Thread nD τ) (st1_3 t) fullShare ((dat1 V c).before 3 t d)))

def bodyPost1 (c : Dev nD) (t : Fin cfg1.N) : sProp 𝕄 :=
  iprop((dat1 V c).Φ t.succ ∗ (dat1 V c).owesAt () t.succ
    ∗ owns (c : Thread nD τ) (st1_0 t) fullShare ((dat1 V c).after 0 t)
    ∗ owns (c : Thread nD τ) (st1_1 t) fullShare ((dat1 V c).after 1 t)
    ∗ owns (c : Thread nD τ) (st1_2 t) fullShare ((dat1 V c).after 2 t)
    ∗ owns (c : Thread nD τ) (st1_3 t) fullShare ((dat1 V c).after 3 t))

theorem sound_body1 (c : Dev nD) (t : Fin cfg1.N) :
    bodyPre1 V c t ⊢ wp frame (wpE (defs₀ (F := F)) Variants.none c none) Set.univ (bodyAt1 t) (fun _ => bodyPost1 V c t) := by
  unfold bodyPre1 bodyPost1 bodyAt1
  simp only [before1_0, before1_1, before1_2]
  rw [show (dat1 V c).Φ t.succ = (dat1 V c).Φ t.castSucc from rfl,
    show (dat1 V c).owesAt () t.succ = (dat1 V c).owesAt () t.castSucc from rfl,
    after1_0, after1_1, after1_2, after1_3]
  iintro ⟨HΦ, Ho, ⟨%d0, H0⟩, ⟨%d1, H1⟩, ⟨%d2, H2⟩, ⟨%d3, H3⟩⟩
  iapply (sound_kernel1 c Set.univ _ _ _ _ _ _ _ _ _ (iblk1 V c 0 t) (iblk1 V c 1 t) (iblk1 V c 2 t) _)
  isplitl [H0]; · iexact H0
  isplitl [H1]; · iexact H1
  isplitl [H2]; · iexact H2
  isplitl [H3]; · iexists _; iexact H3
  iintro ⟨H0, H1, H2, H3⟩
  isplitl [HΦ]; · iexact HΦ
  isplitl [Ho]; · iexact Ho
  isplitl [H0]; · iexact H0
  isplitl [H1]; · iexact H1
  isplitl [H2]; · iexact H2
  iexact H3

theorem body_obligation1 (c : Dev nD) : BodyObligation (dat1 (F := F) V c) (defs₀ (F := F)) Variants.none () Set.univ := fun t => by
  rw [bigSep_W1, bigSep_W1]
  exact sound_body1 V c t

end Cert.Kernel.R1

end
-- ==== Proof.RunK.lean ====
/-
  The run of the whole program: @main's two kernel regions and the host stretches between them, from the launch
  to the return, at any float family.

  Between two items a core holds every unscoped buffer at a valuation: the launch contents, then what each host
  stretch computes, and after a region its arrays at what the pipeline's write-backs leave (an input array as it
  was found, an output array with every written-back block in place). Region 0 is entered at the valuation after
  the first host stretch and leaves its two results; region 1 is entered after the three host stretches that
  compute the gate table from those results and leaves the program's result. The generator register and the core's
  empty debt ride along unchanged.
-/
import proofs.«409112_j63488206570149_3_alg».proof.Proof.RunCondK
import proofs.«409112_j63488206570149_3_alg».proof.Proof.R0K
import proofs.«409112_j63488206570149_3_alg».proof.Proof.R1K

set_option maxRecDepth 16384

noncomputable section

namespace Cert.Kernel.Run

open Cert.Kernel Cert.Kernel.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ (UR sig nD τ) ℕ

variable (m : (ℓ : Loc nD τ sig) → Buf (Elt F) ℓ) (ρ : Dev nD → PrngReg)

/-! ## The contents at the regions' entries and exits -/

/-- What region 0 finds: the launch contents after the first host stretch, read at the TensorCore's references. -/
abbrev entry0 : (c : Dev nD) → (b : Ref sig .tc) → Buf (Elt F) ((c : Thread nD τ).loc b) := fun c b => V1 m c b

/-- At region 0's exit: its arrays at what the pipeline leaves, every other buffer as entered. -/
def exit0 (c : Dev nD) : Valuation τ sig (Elt F) :=
  Pipeline.withArrays spec0 c (V1 m c) fun w => (R0.dat0 (entry0 m) c).arrAt w cfg0.N

/-- The regions' results up to region 0's: only the entries read after region 0 matter. -/
def outsA : Outs (F := F) := fun _ r c => exit0 m c (Proc.devRef .tc r)

/-- What region 1 finds: after the three host stretches that follow region 0. -/
abbrev entry1 : (c : Dev nD) → (b : Ref sig .tc) → Buf (Elt F) ((c : Thread nD τ).loc b) := fun c b => V5 m (outsA m) c b

/-- At region 1's exit: its arrays at what the pipeline leaves, every other buffer as entered. -/
def exit1 (c : Dev nD) : Valuation τ sig (Elt F) :=
  Pipeline.withArrays spec1 c (V5 m (outsA m) c) fun w => (R1.dat1 (entry1 m) c).arrAt w cfg1.N

/-- What the regions leave in the buffers they may change: region 0's results (read after item 1), region 1's
    (read after item 5). -/
def outs : Outs (F := F) := fun J r c => match J with
  | 6 => exit1 m c (Proc.devRef .tc r)
  | _ => exit0 m c (Proc.devRef .tc r)

theorem V5_outs (c : Dev nD) : V5 m (outs m) c = V5 m (outsA m) c := rfl

/-- Every pipeline's proof data, each at its region's entry contents. -/
def pdats : (p : Fin 2) → (c : Dev nD) → Dat τ (Elt F) Unit ℕ (UR sig nD τ) ℕ (cfgs p) c
  | ⟨0, _⟩ => fun c => R0.dat0 (entry0 m) c
  | ⟨1, _⟩ => fun c => R1.dat1 (entry1 m) c

/-! ## The regions' arrays at their exits -/

theorem exit0_arr (c : Dev nD) (w : Fin cfg0.W) :
    exit0 m c (Proc.devRef .tc (Pipeline.arrRef spec0 w)) = (R0.dat0 (entry0 m) c).arrAt w cfg0.N := by
  unfold exit0; exact Pipeline.withArrays_arr spec0 launch0.win.arr_inj c _ _ w
theorem exit1_arr (c : Dev nD) (w : Fin cfg1.W) :
    exit1 m c (Proc.devRef .tc (Pipeline.arrRef spec1 w)) = (R1.dat1 (entry1 m) c).arrAt w cfg1.N := by
  unfold exit1; exact Pipeline.withArrays_arr spec1 launch1.win.arr_inj c _ _ w

/-- At region 0's exit each of its arrays holds what the pipeline leaves: an input array is as entered, a result is
    the recorded contents. -/
theorem hF0 (c : Dev nD) (w : Fin cfg0.W) :
    (pdats m 0 c).arrAt w cfg0.N = V2 m (outs m) c (Pipeline.arrRef spec0 w) := by
  match w with
  | ⟨0, _⟩ =>
    exact (((R0.dat0 (entry0 m) c).arrAt_in 0 rfl _).trans (R0.A_eq0 c 0)).trans (V2_of m (outs m) c main_arg0 (by decide)).symm
  | ⟨1, _⟩ =>
    exact (((R0.dat0 (entry0 m) c).arrAt_in 1 rfl _).trans (R0.A_eq0 c 1)).trans (V2_of m (outs m) c main_v0 (by decide)).symm
  | ⟨2, _⟩ =>
    refine (exit0_arr m c 2).symm.trans ?_
    show outs m 2 main_v1_0 c = V2 m (outs m) c main_v1_0
    simp only [V2]
    rw [Function.update_of_ne (StableHlo.devRef_ne_of_ne (by decide) : (Proc.devRef .tc main_v1_0 : DevRef τ sig) ≠ Proc.devRef .tc main_v1_1),
      Function.update_self]
  | ⟨3, _⟩ =>
    refine (exit0_arr m c 3).symm.trans ?_
    show outs m 2 main_v1_1 c = V2 m (outs m) c main_v1_1
    simp only [V2]
    rw [Function.update_self]
/-- Every other buffer is as entered. -/
theorem hrest0 (c : Dev nD) : ∀ b : Ref sig .tc, b ∉ Finset.univ.image (Pipeline.arrRef spec0) → V2 m (outs m) c b = V1 m c b :=
  fun b hb => V2_of m (outs m) c b (by
    intro h
    rcases List.mem_cons.mp h with h | h
    · exact hb (Finset.mem_image.mpr ⟨2, Finset.mem_univ _, h.symm⟩)
    · rcases List.mem_cons.mp h with h | h
      · exact hb (Finset.mem_image.mpr ⟨3, Finset.mem_univ _, h.symm⟩)
      · exact absurd h (List.not_mem_nil))

theorem hF1 (c : Dev nD) (w : Fin cfg1.W) :
    (pdats m 1 c).arrAt w cfg1.N = V6 m (outs m) c (Pipeline.arrRef spec1 w) := by
  match w with
  | ⟨0, _⟩ =>
    exact (((R1.dat1 (entry1 m) c).arrAt_in 0 rfl _).trans (R1.A_eq1 (entry1 m) c 0)).trans (V6_of m (outs m) c main_arg0 (by decide)).symm
  | ⟨1, _⟩ =>
    exact (((R1.dat1 (entry1 m) c).arrAt_in 1 rfl _).trans (R1.A_eq1 (entry1 m) c 1)).trans (V6_of m (outs m) c main_v0 (by decide)).symm
  | ⟨2, _⟩ =>
    exact (((R1.dat1 (entry1 m) c).arrAt_in 2 rfl _).trans (R1.A_eq1 (entry1 m) c 2)).trans (V6_of m (outs m) c main_v25 (by decide)).symm
  | ⟨3, _⟩ =>
    refine (exit1_arr m c 3).symm.trans ?_
    show outs m 6 main_v26 c = V6 m (outs m) c main_v26
    simp only [V6]
    rw [Function.update_self]
theorem hrest1 (c : Dev nD) : ∀ b : Ref sig .tc, b ∉ Finset.univ.image (Pipeline.arrRef spec1) → V6 m (outs m) c b = V5 m (outs m) c b :=
  fun b hb => V6_of m (outs m) c b (by
    intro h
    rcases List.mem_cons.mp h with h | h
    · exact hb (Finset.mem_image.mpr ⟨3, Finset.mem_univ _, h.symm⟩)
    · exact absurd h (List.not_mem_nil))

/-! ## The thread state and the regions as segments -/

abbrev 𝒱₀ : Variants := Variants.none
/-- No core owes another anything: no level is assigned. -/
abbrev L : GSem nD τ sig → Finset Unit := fun _ => ∅
abbrev lv : GSem nD τ sig → Unit → ℕ := fun _ _ => 0
/-- What rides beside the buffers through every item: the core's generator register at some state and its debt,
    which is empty. -/
abbrev R (c : Dev nD) : sProp 𝕄 := iprop((∃ r, prngReg c r) ∗ ∃ W, owes (c : Thread nD τ) (0 : CellTallies nD τ sig Unit) W)

-- a library lemma stated over the pinned configuration unifies with the printed one only when unification may
-- unfold plain definitions in a metavariable's type
set_option backward.isDefEq.respectTransparency.types false in
/-- Region 0 over the thread state: entered from every unscoped buffer at the valuation before it, left at the
    valuation after it. Its arrays are split out of the unscoped buffers at entry and put back at their final
    contents at exit; the generator register goes into the invariant and comes back; nothing is owed; the kernel
    has no semaphore of its own. -/
def reg0 : Pipeline.RegionSeg (pcfgs (F := F)) adm (pdats m) () defs₀ 𝒱₀ L lv 0 where
  win := launch0.win.to₀
  block_pos := launch0.block_pos
  stage_whole := launch0.stage_whole
  K := PEmpty
  osem k := k.elim
  ho := Pipeline.OwnSemFacts.none _
  hbody c := (R0.body_obligation0 (entry0 m) c).loose
  hwaits := Pipeline.hwaits_of_owed_zero _ _ _ _ L lv 0 fun _ _ => rfl
  pre c := iprop(StableHlo.held (c : Thread nD τ) (Pipeline.ucRefs τ sig) (V1 m c) ∗ R c)
  post c := iprop(StableHlo.held (c : Thread nD τ) (Pipeline.ucRefs τ sig) (V2 m (outs m) c) ∗ R c)
  X c := iprop(∃ r, prngReg c r)
  Y c := iprop(∃ r, prngReg c r)
  Z c := Pipeline.unscopedRest (Ix := Unit) (Name := ℕ) (U := UR sig nD τ) (Lvl := ℕ) spec0 c (entry0 m c)
  hentry c := by
    rw [Pipeline.ownSems0_none]
    have hsplit := Pipeline.arrays_of_unscopedBufs (p := 0) (pcfgs (F := F)) adm (pdats m) launch0.win launch0.arr_whole c
      ((pdats m 0 c).share_full fun _ => rfl) (entry0 m c) fun _ => rfl
    rw [Pipeline.unscopedBufs_held] at hsplit
    iintro ⟨⟨Hub, Hp, HO⟩, -, -⟩
    ihave H := hsplit $$ Hub
    icases H with ⟨Ha, Hrest⟩
    imodintro
    isplitl [Ha]; · iexact Ha
    isplitr; · unfold Pipeline.prefHeld; rw [show (Finset.univ : Finset (Fin 0)) = ∅ from rfl, BI.bigSep_empty]; iempintro
    isplitl [HO]
    · unfold Pipeline.Dat.owesAt Pipeline.owesWithin
      icases HO with ⟨%W, HO⟩; iexists W; isplitr; · ipureintro; exact fun _ _ => Or.inl trivial
      iexact HO
    isplitl [Hp]; · iexact Hp
    iexact Hrest
  hin c := by
    refine BIBase.Entails.trans ?_ (R0.hin0 (entry0 m) c)
    unfold Pipeline.ΦA
    iintro ⟨Hp, -, Hr⟩
    isplitl [Hr]; · iexact Hr
    iexact Hp
  hout c := by
    refine BIBase.Entails.trans (R0.hout0 (entry0 m) c) ?_
    rw [Pipeline.ownSems0_none]; unfold Pipeline.ΦA
    iintro ⟨Hr, Hp⟩
    isplitl [Hp]; · iexact Hp
    isplitr; · iempintro
    iexact Hr
  hexit c := by
    have hjoin := Pipeline.unscopedBufs_of_arrays (p := 0) (pcfgs (F := F)) adm (Ix := Unit) (Name := ℕ) (U := UR sig nD τ) (Lvl := ℕ)
      launch0.win launch0.arr_whole c (pdats m) ((pdats m 0 c).share_full fun _ => rfl)
      (entry0 m c) (fun b => V2 m (outs m) c b) ((pdats m 0 c).arrAt · cfg0.N) (hF0 m c) (hrest0 m c)
    rw [Pipeline.unscopedBufs_held] at hjoin
    iintro ⟨Ha, HO, HY, Hrest⟩
    imodintro
    isplitl [Ha Hrest]
    · iapply hjoin; isplitl [Ha] <;> iassumption
    isplitl [HY]; · iexact HY
    unfold Pipeline.Dat.owesAt Pipeline.owesWithin
    icases HO with ⟨%W, -, HO⟩; iexists W; iexact HO

-- a library lemma stated over the pinned configuration unifies with the printed one only when unification may
-- unfold plain definitions in a metavariable's type
set_option backward.isDefEq.respectTransparency.types false in
/-- Region 1 over the thread state: entered from every unscoped buffer at the valuation before it, left at the
    valuation after it. Its arrays are split out of the unscoped buffers at entry and put back at their final
    contents at exit; the generator register goes into the invariant and comes back; nothing is owed; the kernel
    has no semaphore of its own. -/
def reg1 : Pipeline.RegionSeg (pcfgs (F := F)) adm (pdats m) () defs₀ 𝒱₀ L lv 1 where
  win := launch1.win.to₀
  block_pos := launch1.block_pos
  stage_whole := launch1.stage_whole
  K := PEmpty
  osem k := k.elim
  ho := Pipeline.OwnSemFacts.none _
  hbody c := (R1.body_obligation1 (entry1 m) c).loose
  hwaits := Pipeline.hwaits_of_owed_zero _ _ _ _ L lv 1 fun _ _ => rfl
  pre c := iprop(StableHlo.held (c : Thread nD τ) (Pipeline.ucRefs τ sig) (V5 m (outsA m) c) ∗ R c)
  post c := iprop(StableHlo.held (c : Thread nD τ) (Pipeline.ucRefs τ sig) (V6 m (outs m) c) ∗ R c)
  X c := iprop(∃ r, prngReg c r)
  Y c := iprop(∃ r, prngReg c r)
  Z c := Pipeline.unscopedRest (Ix := Unit) (Name := ℕ) (U := UR sig nD τ) (Lvl := ℕ) spec1 c (entry1 m c)
  hentry c := by
    rw [Pipeline.ownSems0_none]
    have hsplit := Pipeline.arrays_of_unscopedBufs (p := 1) (pcfgs (F := F)) adm (pdats m) launch1.win launch1.arr_whole c
      ((pdats m 1 c).share_full fun _ => rfl) (entry1 m c) fun _ => rfl
    rw [Pipeline.unscopedBufs_held] at hsplit
    iintro ⟨⟨Hub, Hp, HO⟩, -, -⟩
    ihave H := hsplit $$ Hub
    icases H with ⟨Ha, Hrest⟩
    imodintro
    isplitl [Ha]; · iexact Ha
    isplitr; · unfold Pipeline.prefHeld; rw [show (Finset.univ : Finset (Fin 0)) = ∅ from rfl, BI.bigSep_empty]; iempintro
    isplitl [HO]
    · unfold Pipeline.Dat.owesAt Pipeline.owesWithin
      icases HO with ⟨%W, HO⟩; iexists W; isplitr; · ipureintro; exact fun _ _ => Or.inl trivial
      iexact HO
    isplitl [Hp]; · iexact Hp
    iexact Hrest
  hin c := by
    rw [show (pdats m 1 c).Φ 0 = Pipeline.ΦA spec1 c from rfl]; unfold Pipeline.ΦA
    iintro ⟨Hp, -, Hr⟩
    isplitl [Hr]; · iexact Hr
    iexact Hp
  hout c := by
    rw [Pipeline.ownSems0_none, show (pdats m 1 c).Φ (Fin.last _) = Pipeline.ΦA spec1 c from rfl]; unfold Pipeline.ΦA
    iintro ⟨Hr, Hp⟩
    isplitl [Hp]; · iexact Hp
    isplitr; · iempintro
    iexact Hr
  hexit c := by
    have hjoin := Pipeline.unscopedBufs_of_arrays (p := 1) (pcfgs (F := F)) adm (Ix := Unit) (Name := ℕ) (U := UR sig nD τ) (Lvl := ℕ)
      launch1.win launch1.arr_whole c (pdats m) ((pdats m 1 c).share_full fun _ => rfl)
      (entry1 m c) (fun b => V6 m (outs m) c b) ((pdats m 1 c).arrAt · cfg1.N) (hF1 m c) (hrest1 m c)
    rw [Pipeline.unscopedBufs_held] at hjoin
    iintro ⟨Ha, HO, HY, Hrest⟩
    imodintro
    isplitl [Ha Hrest]
    · iapply hjoin; isplitl [Ha] <;> iassumption
    isplitl [HY]; · iexact HY
    unfold Pipeline.Dat.owesAt Pipeline.owesWithin
    icases HO with ⟨%W, -, HO⟩; iexists W; iexact HO

/-! ## The run -/

set_option backward.isDefEq.respectTransparency.types false in
/-- From any memory with zero counters every weakly fair execution of @main terminates, nothing faulting; in every
    final state the result buffer holds what region 1's write-backs leave and every argument is as launched. -/
theorem run : θ_run defs (onTc (τ := τ) (main (F := F))) ⟨m, fun _ => 0, ρ⟩ (fun r => ∀ c : Dev nD,
      r.2.mem ((c.tc : Thread nD τ).loc main_v26) = outs m 6 main_v26 c
      ∧ r.2.mem ((c.tc : Thread nD τ).loc main_arg0) = m ((c.tc : Thread nD τ).loc main_arg0)
      ∧ r.2.mem ((c.tc : Thread nD τ).loc main_arg1) = m ((c.tc : Thread nD τ).loc main_arg1)
      ∧ r.2.mem ((c.tc : Thread nD τ).loc main_arg2) = m ((c.tc : Thread nD τ).loc main_arg2)
      ∧ r.2.mem ((c.tc : Thread nD τ).loc main_arg3) = m ((c.tc : Thread nD τ).loc main_arg3)
      ∧ r.2.mem ((c.tc : Thread nD τ).loc main_arg4) = m ((c.tc : Thread nD τ).loc main_arg4)
      ∧ r.2.mem ((c.tc : Thread nD τ).loc main_arg5) = m ((c.tc : Thread nD τ).loc main_arg5)) :=
  run_cond m emb₁ () 𝒱₀ L lv (fun _ _ => rfl) ρ (outs m) (pdats m) (O₀ := 0) (G := fun _ => iprop(emp))
    (u₀ := initOf (Pipeline.cells cfgs cellOf_inj) (Pipeline.launchToks cfgs cellOf_inj))
    (hu₀ := by
      iintro Hu; imodintro
      isplitl [Hu]
      · iapply (show (ownU (initOf (Pipeline.cells cfgs cellOf_inj) (Pipeline.launchToks cfgs cellOf_inj)) : sProp 𝕄)
            ⊢ BI.own (emb₁ (initOf (Pipeline.cells cfgs cellOf_inj) (Pipeline.launchToks cfgs cellOf_inj))) from .rfl)
        iexact Hu
      iapply (show (BI.emp : sProp 𝕄) ⊢ bigSep Finset.univ (fun _ : Dev nD => (BI.emp : sProp 𝕄)) from by rw [BI.bigSep_emp_const])
      iempintro)
    (E := fun _ c => R c)
    (hE0 := by
      refine Pipeline.initEach L lv fun c => ?_
      iintro ⟨⟨-, HO, -, Hp, -⟩, -⟩
      imodintro
      isplitl [Hp]; · iexists _; iexact Hp
      iexists ∅; iexact HO)
    (hE2 := fun c => by iintro ⟨-, HO⟩; iexact HO)
    (reg0 m) (fun _ => .rfl) (fun _ => .rfl) (reg1 m) (fun _ => .rfl) (fun _ => .rfl)

end Cert.Kernel.Run

end
-- ==== Proof.Spec.lean ====
/-
  The common value of the two programs, index by index, over the extended reals.

  A row n of the node table belongs to segment seg(n) = batch_id[n] (an integer in [0, 64) under the
  precondition). Per segment s and feature j:
      segsum[s, j] = the sum of h[n, j] over the rows n of segment s,
      den[s, j]    = max(number of rows of segment s, 1),
  a gate table gate[s, j] is computed from segsum / den by a chain of host operations that both programs
  share, and the result is
      out[n, j] = h[n, j] * gate[seg(n), j].
  The kernel reaches segsum and the row count by one-hot matrix products accumulated tile by tile on two
  cores, and the last line by a one-hot matrix product; the reference by a scatter-add and a gather.
-/
import Idealize.ShloMosaic.PureOps.Ideal
import Idealize.ShloMosaic.Lib.ValueIdx

noncomputable section

open scoped BigOperators

namespace Cert.Spec

open Idealize.ShloMosaic Idealize.ShloMosaic.ValueIdx

/-- The node table's shape, the segment-id vector's, the per-segment tables'. -/
abbrev SNH : Shape := ⟨2, ![262144, 512]⟩
abbrev SN : Shape := ⟨1, ![262144]⟩
abbrev SSH : Shape := ⟨2, ![64, 512]⟩

/-- The segment a 32-bit id word names: its value modulo 64 (the word itself when it lies in [0, 64)). -/
def segOf (b : BitVec 32) : Fin 64 := ⟨b.toNat % 64, Nat.mod_lt _ (by decide)⟩

/-- Every id is a segment number: read as a signed integer it lies in [0, 64). -/
def InRange (bid : IVec SN 32) : Prop := ∀ n : Fin 262144, 0 ≤ (bid (ix1 n)).toInt ∧ (bid (ix1 n)).toInt < 64

/-- An in-range id word is the numeral of its segment. -/
theorem eq_ofNat_segOf {b : BitVec 32} (h0 : 0 ≤ b.toInt) (h1 : b.toInt < 64) : b = BitVec.ofNat 32 (segOf b).val := by
  have hlt : b.toNat < 64 := by
    rw [BitVec.toInt_eq_toNat_cond] at h0 h1
    split at h1 <;> omega
  apply BitVec.eq_of_toNat_eq
  simp only [segOf, BitVec.toNat_ofNat]
  omega

/-- The one-in-f32 word, which both programs count rows with. -/
abbrev one32 : EReal := Ideal.ofBits .f32 0x3F800000#32

/-- Per segment and feature, the sum of the rows of that segment. -/
def segsum (h : SNH.Idx → EReal) (bid : IVec SN 32) : SSH.Idx → EReal :=
  fun i => ∑ n : Fin 262144, if (segOf (bid (ix1 n))).val = (i 0).val then h (ix2 n (i 1)) else 0

/-- Per segment, the number of its rows (each row counted as the f32 word for one). -/
def count (bid : IVec SN 32) (s : Fin 64) : EReal :=
  ∑ n : Fin 262144, if (segOf (bid (ix1 n))).val = s.val then one32 else 0

/-- The divisor table: the row count of the segment, at least one, on every feature. -/
def den (bid : IVec SN 32) : SSH.Idx → EReal :=
  fun i => max (count bid (i 0)) one32

/-- Row r of core cc's half of the node table: the kernel's first grid axis splits the rows in two halves of
    131072 (32 tiles of 4096). -/
def rowOf (cc : Fin 2) (r : Fin 131072) : Fin 262144 := ⟨131072 * cc.val + r.val, by have := cc.isLt; have := r.isLt; omega⟩

/-- Per core, segment and feature, the sum of that core's rows of the segment: what region 0 leaves in block cc of
    its first result. -/
def partSum (h : SNH.Idx → EReal) (bid : IVec SN 32) (cc : Fin 2) (s : Fin 64) (j : Fin 512) : EReal :=
  ∑ r : Fin 131072, if (segOf (bid (ix1 (rowOf cc r)))).val = s.val then h (ix2 (rowOf cc r) j) else 0

/-- Per core and segment, the number of that core's rows of the segment (on every lane of region 0's second result). -/
def partCount (bid : IVec SN 32) (cc : Fin 2) (s : Fin 64) : EReal :=
  ∑ r : Fin 131072, if (segOf (bid (ix1 (rowOf cc r)))).val = s.val then one32 else 0

/-- Every row times its segment's gate row. -/
def gathered (gate : SSH.Idx → EReal) (h : SNH.Idx → EReal) (bid : IVec SN 32) : SNH.Idx → EReal :=
  fun i => h i * gate (ix2 (segOf (bid (ix1 (i 0)))) (i 1))

end Cert.Spec

end
-- ==== Proof.LibKeepdims.lean ====
/-
  Column forms of the keepdims layout operations read at an index given by coordinates: a vector `[a]` viewed as a
  column `[a, 1]`, and a column `[a, 1]` laid along every column of an `[a, b]` matrix.
-/
import Idealize.ShloMosaic.Lib.Pipeline.Value
import Idealize.ShloMosaic.Lib.ValueIdx

namespace Cert.LibKeepdims

open Idealize.ShloMosaic Idealize.ShloMosaic.ValueIdx

variable {α : Type}

/-- An `[a]` array cast to the column `[a, 1]` reads, at `(p, u)`, the operand at `p`, whatever the unit coordinate `u`. -/
theorem shapeCast_a_a1_apply {a : ℕ} (x : (⟨1, ![a]⟩ : Shape).Idx → α) (h : (⟨1, ![a]⟩ : Shape).ShapeCasts ⟨2, ![a, 1]⟩)
    (p : Fin a) (u : Fin 1) : shapeCast ⟨2, ![a, 1]⟩ x h (ix2 p u) = x (ix1 p) :=
  shapeCast_apply x h _ _ (by
    have hu : u.val = 0 := by omega
    rw [Shape.rowMajor_val_two, Shape.rowMajor_val_one]
    show p.val = p.val * 1 + u.val
    rw [hu, Nat.mul_one, Nat.add_zero])

/-- A column `[a, 1]` broadcast to `[a, b]` reads, at `(p, c)`, the column's entry `p`. -/
theorem broadcastTo_a1_ab_apply {a b : ℕ} (v : (⟨2, ![a, 1]⟩ : Shape).Idx → α) (h : (⟨2, ![a, 1]⟩ : Shape).Broadcasts ⟨2, ![a, b]⟩)
    (p : Fin a) (c : Fin b) : broadcastTo ⟨2, ![a, b]⟩ v h (ix2 p c) = v (ix2 p (0 : Fin 1)) := by
  refine broadcastTo_apply v h (ix2 p c) (ix2 p (0 : Fin 1)) fun ax => ?_
  match ax with
  | ⟨0, _⟩ =>
    show p.val = if a = 1 then 0 else p.val
    split
    · have := p.isLt; omega
    · rfl
  | ⟨1, _⟩ => rfl

end Cert.LibKeepdims
-- ==== Proof.LibMoments.lean ====
import Mathlib.Data.EReal.Inv
import Mathlib.Data.Fintype.BigOperators
import Mathlib.Algebra.BigOperators.Fin
import Mathlib.Algebra.Order.BigOperators.Group.Finset
import Mathlib.Logic.Equiv.Fin.Basic
import Mathlib.Tactic.FieldSimp
import Mathlib.Tactic.Ring
import Mathlib.Tactic.Positivity
import Idealize.ShloMosaic.PureOps.Ideal

/-!
# Batch-norm moments on the extended reals

A batch normalisation needs the mean and the (biased) variance of a finite family
of numbers. One program computes the variance as E[f²] − E[f]², multiplying the two
sums by the reciprocal 1/n; the other computes it as E[(f − E f)²], dividing by n.
On the extended reals the two agree only where nothing is infinite (at an infinity
one side meets ∞ − ∞), so the identity is proved for finite families: real witnesses
are chosen, the coercion ℝ → EReal is pushed outwards through products, differences
and finite sums, and the statement is closed in ℝ.

Also here: the variance is a finite real ≥ 0, so adding a positive ε and taking the
reciprocal square root stays finite and positive; and a sum over n = nb · bk indices
is the sum, over nb blocks, of the bk-term block sums, which is what a running
accumulator carried over the blocks holds at the end.
-/

open scoped BigOperators
open Idealize.ShloMosaic

noncomputable section

namespace Cert.Moments

/-! ### The coercion ℝ → EReal through a finite sum -/

/-- The sum of the coercions of finitely many reals is the coercion of their sum:
    the coercion is additive, by induction on the index set. -/
theorem coe_sum {ι : Type*} (s : Finset ι) (r : ι → ℝ) :
    (∑ i ∈ s, ((r i : ℝ) : EReal)) = ((∑ i ∈ s, r i : ℝ) : EReal) := by
  classical
  induction s using Finset.induction_on with
  | empty => simp
  | insert a s ha ih => rw [Finset.sum_insert ha, Finset.sum_insert ha, ih, EReal.coe_add]

/-! ### The mean -/

/-- A sum times the reciprocal of a nonzero real n is the sum divided by n, at the
    infinities too (no finiteness is needed). -/
theorem mean_mul_eq_div {ι : Type*} [Fintype ι] (f : ι → EReal) {n : ℝ} (hn : n ≠ 0) :
    (∑ i, f i) * ((1 / n : ℝ) : EReal) = Ideal.div (∑ i, f i) (n : EReal) :=
  (Ideal.div_coe hn _).symm

/-- The same for any extended real in place of the sum. -/
theorem mul_inv_eq_div (x : EReal) {n : ℝ} (hn : n ≠ 0) :
    x * ((1 / n : ℝ) : EReal) = Ideal.div x (n : EReal) :=
  (Ideal.div_coe hn x).symm

/-! ### The variance identity, in ℝ -/

/-- E[r²] − E[r]² = E[(r − E r)²] for n = |ι| real numbers, with every mean written
    as a product with 1/n. Expanding the square, the cross term is −2·m·S and the
    constant term is n·m², and S/n = m. -/
theorem real_variance_identity {ι : Type*} [Fintype ι] (r : ι → ℝ) {n : ℝ}
    (hcard : (Fintype.card ι : ℝ) = n) (hn : n ≠ 0) :
    (∑ i, r i * r i) * (1 / n) - ((∑ i, r i) * (1 / n)) * ((∑ i, r i) * (1 / n))
      = (∑ i, (r i - (∑ i, r i) * (1 / n)) * (r i - (∑ i, r i) * (1 / n))) * (1 / n) := by
  generalize hS : (∑ i, r i) = S
  generalize hm : S * (1 / n) = m
  have hexp : ∑ i, (r i - m) * (r i - m) = (∑ i, r i * r i) - 2 * m * S + n * (m * m) := by
    have h1 : ∀ i, (r i - m) * (r i - m) = r i * r i - 2 * m * r i + m * m := fun i => by ring
    simp only [h1, Finset.sum_add_distrib, Finset.sum_sub_distrib, ← Finset.mul_sum,
      Finset.sum_const, Finset.card_univ, nsmul_eq_mul, hcard, hS]
    ring
  rw [hexp, ← hm]
  field_simp
  ring

/-- The centred second moment of real numbers, divided by a positive n, is ≥ 0:
    a sum of squares times a positive number. -/
theorem real_centred_moment_nonneg {ι : Type*} [Fintype ι] (r : ι → ℝ) (m : ℝ) {n : ℝ} (hn : 0 < n) :
    0 ≤ (∑ i, (r i - m) * (r i - m)) * (1 / n) :=
  mul_nonneg (Finset.sum_nonneg fun i _ => mul_self_nonneg _) (by positivity)

/-! ### The variance identity, on the extended reals -/

/-- THE VARIANCE IDENTITY. For a family f of n = |ι| FINITE extended reals and
    m := (∑ f) · (1/n):  (∑ f²) · (1/n) − m · m = (∑ (f − m) · (f − m)) / n.
    Left: the mean of squares minus the squared mean, each mean a product with the
    reciprocal 1/n. Right: the mean of the squared deviations, a division by n, the
    square written as the product of the deviation with itself. False at an
    infinity (the left side meets ∞ − ∞), hence the finiteness. -/
theorem variance_identity {ι : Type*} [Fintype ι] (f : ι → EReal)
    (hf : ∀ i, ∃ r : ℝ, f i = (r : EReal)) {n : ℝ} (hcard : (Fintype.card ι : ℝ) = n) (hn : n ≠ 0) :
    (∑ i, f i * f i) * ((1 / n : ℝ) : EReal)
        - ((∑ i, f i) * ((1 / n : ℝ) : EReal)) * ((∑ i, f i) * ((1 / n : ℝ) : EReal))
      = Ideal.div (∑ i, (f i - (∑ i, f i) * ((1 / n : ℝ) : EReal))
                        * (f i - (∑ i, f i) * ((1 / n : ℝ) : EReal))) (n : EReal) := by
  choose r hr using hf
  obtain rfl : f = fun i => (r i : EReal) := funext hr
  rw [Ideal.div_coe hn]
  simp only [← EReal.coe_mul, coe_sum, ← EReal.coe_sub]
  exact congrArg _ (real_variance_identity r hcard hn)

/-- The variance identity with the mean on the right written as a DIVISION by n, as a
    program that divides (rather than multiplies by a reciprocal) writes it:
    (∑ f²)·(1/n) − m·m = (∑ (f − μ)·(f − μ)) / n  with m = (∑ f)·(1/n), μ = (∑ f)/n. -/
theorem variance_identity_div {ι : Type*} [Fintype ι] (f : ι → EReal)
    (hf : ∀ i, ∃ r : ℝ, f i = (r : EReal)) {n : ℝ} (hcard : (Fintype.card ι : ℝ) = n) (hn : n ≠ 0) :
    (∑ i, f i * f i) * ((1 / n : ℝ) : EReal)
        - ((∑ i, f i) * ((1 / n : ℝ) : EReal)) * ((∑ i, f i) * ((1 / n : ℝ) : EReal))
      = Ideal.div (∑ i, (f i - Ideal.div (∑ i, f i) (n : EReal))
                        * (f i - Ideal.div (∑ i, f i) (n : EReal))) (n : EReal) := by
  rw [← mean_mul_eq_div f hn]
  exact variance_identity f hf hcard hn

/-- The same identity with every subtraction written as the addition of a negation
    (x − y = x + −y on the extended reals, by definition). -/
theorem variance_identity_add_neg {ι : Type*} [Fintype ι] (f : ι → EReal)
    (hf : ∀ i, ∃ r : ℝ, f i = (r : EReal)) {n : ℝ} (hcard : (Fintype.card ι : ℝ) = n) (hn : n ≠ 0) :
    (∑ i, f i * f i) * ((1 / n : ℝ) : EReal)
        + -(((∑ i, f i) * ((1 / n : ℝ) : EReal)) * ((∑ i, f i) * ((1 / n : ℝ) : EReal)))
      = Ideal.div (∑ i, (f i + -((∑ i, f i) * ((1 / n : ℝ) : EReal)))
                        * (f i + -((∑ i, f i) * ((1 / n : ℝ) : EReal)))) (n : EReal) := by
  simpa only [sub_eq_add_neg] using variance_identity f hf hcard hn

/-! ### The variance is a finite real ≥ 0 -/

/-- n = |ι| as a real, if nonzero, is positive. -/
theorem card_pos_of_ne_zero {ι : Type*} [Fintype ι] {n : ℝ} (hcard : (Fintype.card ι : ℝ) = n) (hn : n ≠ 0) :
    0 < n :=
  lt_of_le_of_ne (hcard ▸ Nat.cast_nonneg _) (Ne.symm hn)

/-- The mean of a finite family is finite. -/
theorem mean_finite {ι : Type*} [Fintype ι] (f : ι → EReal)
    (hf : ∀ i, ∃ r : ℝ, f i = (r : EReal)) (n : ℝ) :
    ∃ m : ℝ, (∑ i, f i) * ((1 / n : ℝ) : EReal) = (m : EReal) := by
  choose r hr using hf
  obtain rfl : f = fun i => (r i : EReal) := funext hr
  exact ⟨(∑ i, r i) * (1 / n), by rw [coe_sum, ← EReal.coe_mul]⟩

/-- The centred form of the variance of a finite family — the right-hand side of the
    variance identity — is a finite real ≥ 0. -/
theorem var_nonneg_finite {ι : Type*} [Fintype ι] (f : ι → EReal)
    (hf : ∀ i, ∃ r : ℝ, f i = (r : EReal)) {n : ℝ} (hcard : (Fintype.card ι : ℝ) = n) (hn : n ≠ 0) :
    ∃ v : ℝ, 0 ≤ v ∧
      Ideal.div (∑ i, (f i - (∑ i, f i) * ((1 / n : ℝ) : EReal))
                      * (f i - (∑ i, f i) * ((1 / n : ℝ) : EReal))) (n : EReal) = (v : EReal) := by
  choose r hr using hf
  obtain rfl : f = fun i => (r i : EReal) := funext hr
  refine ⟨(∑ i, (r i - (∑ i, r i) * (1 / n)) * (r i - (∑ i, r i) * (1 / n))) * (1 / n),
    real_centred_moment_nonneg r _ (card_pos_of_ne_zero hcard hn), ?_⟩
  rw [Ideal.div_coe hn]
  simp only [← EReal.coe_mul, coe_sum, ← EReal.coe_sub]

/-- The same with the inner mean written as a division by n. -/
theorem var_nonneg_finite_div {ι : Type*} [Fintype ι] (f : ι → EReal)
    (hf : ∀ i, ∃ r : ℝ, f i = (r : EReal)) {n : ℝ} (hcard : (Fintype.card ι : ℝ) = n) (hn : n ≠ 0) :
    ∃ v : ℝ, 0 ≤ v ∧
      Ideal.div (∑ i, (f i - Ideal.div (∑ i, f i) (n : EReal))
                      * (f i - Ideal.div (∑ i, f i) (n : EReal))) (n : EReal) = (v : EReal) := by
  rw [← mean_mul_eq_div f hn]
  exact var_nonneg_finite f hf hcard hn

/-- The moment form of the variance — the left-hand side of the variance identity —
    is the same finite real ≥ 0. -/
theorem var_moment_nonneg_finite {ι : Type*} [Fintype ι] (f : ι → EReal)
    (hf : ∀ i, ∃ r : ℝ, f i = (r : EReal)) {n : ℝ} (hcard : (Fintype.card ι : ℝ) = n) (hn : n ≠ 0) :
    ∃ v : ℝ, 0 ≤ v ∧
      (∑ i, f i * f i) * ((1 / n : ℝ) : EReal)
        - ((∑ i, f i) * ((1 / n : ℝ) : EReal)) * ((∑ i, f i) * ((1 / n : ℝ) : EReal)) = (v : EReal) := by
  rw [variance_identity f hf hcard hn]
  exact var_nonneg_finite f hf hcard hn

/-! ### The reciprocal square root of variance plus ε -/

/-- The reciprocal square root of a positive real is the real 1/√x, which is positive. -/
theorem rsqrt_coe_of_pos {x : ℝ} (hx : 0 < x) :
    Ideal.rsqrt (x : EReal) = (((Real.sqrt x)⁻¹ : ℝ) : EReal) ∧ 0 < (Real.sqrt x)⁻¹ := by
  refine ⟨?_, inv_pos.mpr (Real.sqrt_pos.mpr hx)⟩
  rw [Ideal.rsqrt_coe, if_neg (not_lt.mpr hx.le), if_neg hx.ne']

/-- A finite real ≥ 0 plus a positive real ε has a finite, positive reciprocal square root. -/
theorem rsqrt_nonneg_add_pos_finite {v ε : ℝ} (hv : 0 ≤ v) (hε : 0 < ε) :
    ∃ s : ℝ, 0 < s ∧ Ideal.rsqrt ((v : EReal) + (ε : EReal)) = (s : EReal) := by
  have hpos : 0 < v + ε := add_pos_of_nonneg_of_pos hv hε
  exact ⟨(Real.sqrt (v + ε))⁻¹, (rsqrt_coe_of_pos hpos).2, by
    rw [← EReal.coe_add]; exact (rsqrt_coe_of_pos hpos).1⟩

/-- So the reciprocal square root of (centred variance + ε), ε > 0, of a finite family
    is a finite positive real. -/
theorem rsqrt_var_add_eps_finite {ι : Type*} [Fintype ι] (f : ι → EReal)
    (hf : ∀ i, ∃ r : ℝ, f i = (r : EReal)) {n : ℝ} (hcard : (Fintype.card ι : ℝ) = n) (hn : n ≠ 0)
    {ε : ℝ} (hε : 0 < ε) :
    ∃ s : ℝ, 0 < s ∧
      Ideal.rsqrt (Ideal.div (∑ i, (f i - (∑ i, f i) * ((1 / n : ℝ) : EReal))
                                  * (f i - (∑ i, f i) * ((1 / n : ℝ) : EReal))) (n : EReal)
                    + (ε : EReal)) = (s : EReal) := by
  obtain ⟨v, hv, hveq⟩ := var_nonneg_finite f hf hcard hn
  rw [hveq]
  exact rsqrt_nonneg_add_pos_finite hv hε

/-- The same for the moment form (mean of squares minus squared mean) of the variance. -/
theorem rsqrt_var_moment_add_eps_finite {ι : Type*} [Fintype ι] (f : ι → EReal)
    (hf : ∀ i, ∃ r : ℝ, f i = (r : EReal)) {n : ℝ} (hcard : (Fintype.card ι : ℝ) = n) (hn : n ≠ 0)
    {ε : ℝ} (hε : 0 < ε) :
    ∃ s : ℝ, 0 < s ∧
      Ideal.rsqrt ((∑ i, f i * f i) * ((1 / n : ℝ) : EReal)
                    - ((∑ i, f i) * ((1 / n : ℝ) : EReal)) * ((∑ i, f i) * ((1 / n : ℝ) : EReal))
                    + (ε : EReal)) = (s : EReal) := by
  obtain ⟨v, hv, hveq⟩ := var_moment_nonneg_finite f hf hcard hn
  rw [hveq]
  exact rsqrt_nonneg_add_pos_finite hv hε

/-! ### Regrouping a sum into blocks -/

/-- The glued index bk·t + r of row r of block t lies below nb·bk. -/
theorem glue_lt {nb bk : ℕ} (t : Fin nb) (r : Fin bk) : bk * t.val + r.val < nb * bk := by
  have h1 : bk * t.val + r.val < bk * (t.val + 1) := by
    rw [Nat.mul_succ]; exact Nat.add_lt_add_left r.isLt _
  have h2 : bk * (t.val + 1) ≤ bk * nb := Nat.mul_le_mul_left _ t.isLt
  rw [Nat.mul_comm nb bk]
  exact lt_of_lt_of_le h1 h2

/-- A sum over nb·bk indices is the sum over the nb blocks of the bk-term block sums,
    in any additive commutative monoid (no finiteness): the pairs (t, r) and the
    indices bk·t + r correspond one to one. -/
theorem sum_blocks {M : Type*} [AddCommMonoid M] (nb bk : ℕ) (g : Fin (nb * bk) → M) :
    ∑ t : Fin nb, ∑ r : Fin bk, g ⟨bk * t.val + r.val, glue_lt t r⟩ = ∑ i : Fin (nb * bk), g i := by
  rw [← Fintype.sum_prod_type', ← Equiv.sum_comp finProdFinEquiv g]
  refine Fintype.sum_congr _ _ fun p => congrArg g (Fin.ext ?_)
  simp only [finProdFinEquiv_apply_val]
  exact Nat.add_comm _ _

/-- The case of 50000 rows in 10 blocks of 5000. -/
theorem sum_blocks_50000 {M : Type*} [AddCommMonoid M] (g : Fin 50000 → M) :
    ∑ t : Fin 10, ∑ r : Fin 5000, g ⟨5000 * t.val + r.val, by have := t.isLt; have := r.isLt; omega⟩
      = ∑ i : Fin 50000, g i :=
  sum_blocks 10 5000 g

/-- A running accumulator: folding acc ↦ acc + b t over t = 0, …, nb − 1 from a
    leaves a plus the sum of the b t. -/
theorem foldl_add_eq_sum {M : Type*} [AddCommMonoid M] (nb : ℕ) (b : Fin nb → M) (a : M) :
    (List.finRange nb).foldl (fun acc t => acc + b t) a = a + ∑ t : Fin nb, b t := by
  rw [← List.sum_ofFn, List.ofFn_eq_map]
  generalize List.finRange nb = l
  induction l generalizing a with
  | nil => simp
  | cons x l ih => rw [List.foldl_cons, ih, List.map_cons, List.sum_cons, add_assoc]

/-- The same for an accumulator given by its recurrence over the natural numbers:
    if A 0 = a and A (t+1) = A t + b t for each t < nb, then A nb = a + ∑ b. -/
theorem rec_add_eq_sum {M : Type*} [AddCommMonoid M] (nb : ℕ) (b : Fin nb → M) (A : ℕ → M) (a : M)
    (h0 : A 0 = a) (hstep : ∀ t : Fin nb, A (t.val + 1) = A t.val + b t) :
    A nb = a + ∑ t : Fin nb, b t := by
  induction nb with
  | zero => simpa using h0
  | succ k ih =>
    rw [Fin.sum_univ_castSucc, ← add_assoc,
      ← ih (fun t => b t.castSucc) (fun t => by simpa using hstep t.castSucc)]
    simpa using hstep (Fin.last k)

/-- So the accumulator carried over the 10 blocks of 5000 rows, started at 0, ends at
    the sum over all 50000 rows (no finiteness needed). -/
theorem foldl_blocks_50000 {M : Type*} [AddCommMonoid M] (g : Fin 50000 → M) :
    (List.finRange 10).foldl
        (fun acc t => acc + ∑ r : Fin 5000, g ⟨5000 * t.val + r.val, by have := t.isLt; have := r.isLt; omega⟩) 0
      = ∑ i : Fin 50000, g i := by
  rw [foldl_add_eq_sum, zero_add]
  exact sum_blocks_50000 g

end Cert.Moments
-- ==== Proof.R0Value.lean ====
/-
  Region 0's two result arrays at the ideal values.

  The grid is 2 x 32, point t = 32 q + i. At point t the body adds to a [64, 512] accumulator the product of the
  one-hot [64, 4096] of the point's 4096 segment ids with the point's [4096, 512] block of the node table, and to a
  [64, 128] counter the one-hot's lane sums on every lane, both restarted from zero at i = 0 and copied out at
  i = 31 to block q of the two results.

  Read at an index: the one-hot entry (s, k) is one when row 4096 t + k is of segment s and zero otherwise, so the
  product at (s, j) is the sum over the point's rows of segment s of the table's column j, and the lane sum at s is
  the number of those rows. By induction on the inner step, after step i of core q the accumulators hold these sums
  over the core's first 4096 (i + 1) rows; at i = 31 the 32 blocks of 4096 rows are the core's 131072 rows. The
  blocks written back at the two points with i = 31 cover each result array, which therefore holds, block by
  block, the cores' partial sums and row counts.
-/
import proofs.«409112_j63488206570149_3_alg».proof.Proof.R0
import proofs.«409112_j63488206570149_3_alg».proof.Proof.Spec
import proofs.«409112_j63488206570149_3_alg».proof.Proof.LibKeepdims
import proofs.«409112_j63488206570149_3_alg».proof.Proof.LibMoments
import Idealize.ShloMosaic.Lib.Pipeline.Value
import Idealize.ShloMosaic.Lib.ValueIdx
import Idealize.ShloMosaic.PureOps.Ideal.Laws

set_option maxRecDepth 16384

noncomputable section

open scoped BigOperators

namespace Cert.KernelIdeal.R0Value

open Cert.KernelIdeal Cert.KernelIdeal.Gen Cert.KernelIdeal.R0
open Idealize.ShloMosaic Idealize.ShloMosaic.TcCoe Idealize.ShloMosaic.ValueIdx
open Idealize.ShloMosaic.Pipeline (Dat)

/-! ## The body's values at an index -/

/-- The f32 word for one is the real number one. -/
theorem one32_eq : Cert.Spec.one32 = 1 := by
  simp [Cert.Spec.one32, Ideal.ofBits, Ideal.ieee]
  first
    | (rw [← EReal.coe_mul]; norm_num)
    | (norm_cast; norm_num)

/-- The two zero accumulators read zero everywhere. -/
theorem pay1_apply (i : S64x512.Idx) : k0_pay1 (F := Ideal) i = 0 := by
  unfold k0_pay1
  rw [shapeCast_self]
  exact Ideal.ofBits_zero_f32
theorem pay2_apply (i : S64x128.Idx) : k0_pay2 (F := Ideal) i = 0 := by
  unfold k0_pay2
  rw [shapeCast_self]
  exact Ideal.ofBits_zero_f32

/-- The one-hot of an id block at (s, k): one where the k-th id is the numeral s, zero elsewhere. -/
theorem pay3_apply (v3 : Vec Ideal S1x4096 .i32) (s : Fin 64) (k : Fin 4096) :
    k0_pay3 (F := Ideal) v3 (ix2 s k)
      = if (v3 : S1x4096.Idx → BitVec 32) (ix2 (0 : Fin 1) k) = BitVec.ofNat 32 s.val then Cert.Spec.one32 else 0 := by
  unfold k0_pay3
  show FloatOps.sitofp (F := Ideal) .f32 ((IntOp.cmpi .eq (broadcastTo S64x4096 (shapeCast S1x4096 v3 shapeCasts_S1x4096_S1x4096) broadcasts_S1x4096_S64x4096 (ix2 s k)) (iota .tc S64x4096 32 [0] iota_S64x4096_d0_w32 (ix2 s k))).setWidth 32) = _
  rw [shapeCast_self, iota_single_apply]
  rw [broadcastTo_apply v3 broadcasts_S1x4096_S64x4096 (ix2 s k) (ix2 (0 : Fin 1) k) (fun a => by
    match a with
    | ⟨0, _⟩ => rfl
    | ⟨1, _⟩ => rfl)]
  show ((((IntOp.cmpi .eq (v3 (ix2 (0 : Fin 1) k)) (BitVec.ofNat 32 s.val)).setWidth 32).toInt : ℝ) : EReal) = _
  by_cases h : (v3 : S1x4096.Idx → BitVec 32) (ix2 (0 : Fin 1) k) = BitVec.ofNat 32 s.val
  · rw [if_pos h, IntOp.cmpi_eq.mpr h, one32_eq]
    norm_num
  · rw [if_neg h, eq_zero_of_ne_one (fun e => h (IntOp.cmpi_eq.mp e))]
    norm_num

/-! ### The one-hot product -/

/-- The operands' indices of the product's contraction: the left operand's row is the result's, its column the
    contraction coordinate; the right operand's row is the contraction coordinate, its column the result's. -/
theorem lhs_mm_0 (i : S64x512.Idx) (q : dot_S64x4096_S4096x512_S64x512_1_0_0_1_n_n.contr.Idx) :
    (dot_S64x4096_S4096x512_S64x512_1_0_0_1_n_n.lhsIdx i q 0).val = (i 0).val := by
  unfold DotDims.lhsIdx
  rw [dif_neg (show ¬(0 : Fin S64x4096.rank) ∈ dot_S64x4096_S4096x512_S64x512_1_0_0_1_n_n.lhsBatch by decide), dif_pos (show (0 : Fin S64x4096.rank) ∈ dot_S64x4096_S4096x512_S64x512_1_0_0_1_n_n.lhsNonContracting by decide)]
  rfl
theorem lhs_mm_1 (i : S64x512.Idx) (q : dot_S64x4096_S4096x512_S64x512_1_0_0_1_n_n.contr.Idx) :
    (dot_S64x4096_S4096x512_S64x512_1_0_0_1_n_n.lhsIdx i q 1).val = (q ⟨0, by decide⟩).val :=
  dot_S64x4096_S4096x512_S64x512_1_0_0_1_n_n.lhsIdx_val_of_single rfl i q
theorem rhs_mm_0 (i : S64x512.Idx) (q : dot_S64x4096_S4096x512_S64x512_1_0_0_1_n_n.contr.Idx) :
    (dot_S64x4096_S4096x512_S64x512_1_0_0_1_n_n.rhsIdx i q 0).val = (q ⟨0, by decide⟩).val :=
  dot_S64x4096_S4096x512_S64x512_1_0_0_1_n_n.rhsIdx_val_of_single rfl i q
theorem rhs_mm_1 (i : S64x512.Idx) (q : dot_S64x4096_S4096x512_S64x512_1_0_0_1_n_n.contr.Idx) :
    (dot_S64x4096_S4096x512_S64x512_1_0_0_1_n_n.rhsIdx i q 1).val = (i 1).val := by
  unfold DotDims.rhsIdx
  rw [dif_neg (show ¬(1 : Fin S4096x512.rank) ∈ dot_S64x4096_S4096x512_S64x512_1_0_0_1_n_n.rhsBatch by decide), dif_pos (show (1 : Fin S4096x512.rank) ∈ dot_S64x4096_S4096x512_S64x512_1_0_0_1_n_n.rhsNonContracting by decide)]
  rfl

/-- The [64,4096] by [4096,512] product on a zero accumulator, at (s, j): the sum over the 4096 contracted
    coordinates of the operands' products. -/
theorem mm_apply (a : FVec Ideal S64x4096 .bf16) (b : FVec Ideal S4096x512 .bf16) (s : Fin 64) (j : Fin 512) :
    matmul (F := Ideal) dot_S64x4096_S4096x512_S64x512_1_0_0_1_n_n none a b (constant (F := Ideal) S64x512 .f32 0x00000000#32) (ix2 s j)
      = ∑ k : Fin 4096, a (ix2 s k) * b (ix2 k j) := by
  simp only [matmul]
  rw [Ideal.matmul_constant_zero_apply, ← Equiv.sum_comp (contrEquiv1 dot_S64x4096_S4096x512_S64x512_1_0_0_1_n_n 4096 rfl rfl).symm]
  refine Finset.sum_congr rfl fun k _ => ?_
  have hk := contrEquiv1_symm_val dot_S64x4096_S4096x512_S64x512_1_0_0_1_n_n 4096 rfl rfl k
  have el : dot_S64x4096_S4096x512_S64x512_1_0_0_1_n_n.lhsIdx (ix2 s j) ((contrEquiv1 dot_S64x4096_S4096x512_S64x512_1_0_0_1_n_n 4096 rfl rfl).symm k) = ix2 s k := funext fun a => Fin.ext (by
    match a with
    | ⟨0, _⟩ => exact lhs_mm_0 _ _
    | ⟨1, _⟩ => exact (lhs_mm_1 _ _).trans hk)
  have er : dot_S64x4096_S4096x512_S64x512_1_0_0_1_n_n.rhsIdx (ix2 s j) ((contrEquiv1 dot_S64x4096_S4096x512_S64x512_1_0_0_1_n_n 4096 rfl rfl).symm k) = ix2 k j := funext fun a => Fin.ext (by
    match a with
    | ⟨0, _⟩ => exact (rhs_mm_0 _ _).trans hk
    | ⟨1, _⟩ => exact rhs_mm_1 _ _)
  rw [el, er]

/-- The sum accumulator's step at (s, j): what it held plus the one-hot's row s against column j of the row block. -/
theorem pay4_apply (v3 : Vec Ideal S1x4096 .i32) (v11 : Vec Ideal S4096x512 .f32) (v14 : Vec Ideal S64x512 .f32) (s : Fin 64) (j : Fin 512) :
    k0_pay4 (F := Ideal) v3 v11 v14 (ix2 s j)
      = (v14 : S64x512.Idx → EReal) (ix2 s j) + ∑ k : Fin 4096, k0_pay3 (F := Ideal) v3 (ix2 s k) * (v11 : S4096x512.Idx → EReal) (ix2 k j) := by
  unfold k0_pay4
  rw [shapeCast_self]
  show (v14 : S64x512.Idx → EReal) (ix2 s j) + matmul (F := Ideal) dot_S64x4096_S4096x512_S64x512_1_0_0_1_n_n none (truncf .bf16 (k0_pay3 (F := Ideal) v3) bitsLt_bf16_f32) (truncf .bf16 v11 bitsLt_bf16_f32) (constant (F := Ideal) S64x512 .f32 0x00000000#32) (ix2 s j) = _
  rw [mm_apply]
  rfl

/-! ### The lane sums -/

/-- The sum over axis 1 of a [64,4096] array, at s. -/
theorem laneSum_apply (x : FVec Ideal S64x4096 .f32) (hφ : FKind.Formats .f32) (hacc : (0x00000000#32 : BitVec 32) = FKind.add.neutral .f32 hφ) (s : Fin 64) :
    multiReduction (F := Ideal) .add [1] S64 x 0x00000000#32 reduces_S64x4096_S64 hφ hacc (ix1 s) = ∑ k : Fin 4096, x (ix2 s k) := by
  refine (Ideal.multiReduction_add_single x 0x00000000#32 reduces_S64x4096_S64 hφ hacc (ix1 s)).trans ?_
  refine Finset.sum_congr rfl fun k _ => congrArg x (funext fun a => Fin.ext ?_)
  match a with
  | ⟨0, _⟩ => rfl
  | ⟨1, _⟩ => rfl

/-- The row counter's step at (s, l): what it held plus the number of ones in the one-hot's row s, on every lane l. -/
theorem pay5_apply (v3 : Vec Ideal S1x4096 .i32) (v22 : Vec Ideal S64x128 .f32) (s : Fin 64) (l : Fin 128) :
    k0_pay5 (F := Ideal) v3 v22 (ix2 s l)
      = (v22 : S64x128.Idx → EReal) (ix2 s l) + ∑ k : Fin 4096, k0_pay3 (F := Ideal) v3 (ix2 s k) := by
  unfold k0_pay5
  rw [shapeCast_self]
  show (v22 : S64x128.Idx → EReal) (ix2 s l) + broadcastTo S64x128 (shapeCast S64x1 (shapeCast S64x1 (multiReduction (F := Ideal) .add [1] S64 (k0_pay3 (F := Ideal) v3) 0x00000000#32 reduces_S64x4096_S64 (.inl rfl) rfl) shapeCasts_S64_S64x1) shapeCasts_S64x1_S64x1) broadcasts_S64x1_S64x128 (ix2 s l) = _
  rw [Cert.LibKeepdims.broadcastTo_a1_ab_apply, shapeCast_self, Cert.LibKeepdims.shapeCast_a_a1_apply]
  exact congrArg _ (laneSum_apply (k0_pay3 (F := Ideal) v3) (.inl rfl) rfl s)

/-! ### The two casts to the output blocks -/

theorem pay6_apply (v : Vec Ideal S64x512 .f32) (u : Fin 1) (s : Fin 64) (j : Fin 512) :
    k0_pay6 (F := Ideal) v (ix3 u s j) = (v : S64x512.Idx → EReal) (ix2 s j) := by
  unfold k0_pay6
  refine (shapeCast_addUnit_apply ![64, 512] v shapeCasts_S64x512_S1x64x512 (ix3 u s j)).trans ?_
  refine congrArg v (funext fun a => ?_)
  match a with
  | ⟨0, _⟩ => rfl
  | ⟨1, _⟩ => rfl
theorem pay7_apply (v : Vec Ideal S64x128 .f32) (u : Fin 1) (s : Fin 64) (l : Fin 128) :
    k0_pay7 (F := Ideal) v (ix3 u s l) = (v : S64x128.Idx → EReal) (ix2 s l) := by
  unfold k0_pay7
  refine (shapeCast_addUnit_apply ![64, 128] v shapeCasts_S64x128_S1x64x128 (ix3 u s l)).trans ?_
  refine congrArg v (funext fun a => ?_)
  match a with
  | ⟨0, _⟩ => rfl
  | ⟨1, _⟩ => rfl

/-! ## The blocks of the two inputs as rows of their arrays -/

/-- The windows' block indices, decided over the grid: at point t the row window is at block (t, 0), the id window at
    block (0, t), and both result windows at block (t / 32, 0, 0). -/
theorem idx_facts : ∀ t : Fin cfg0.N,
    win0_0.index t (0 : Fin 2) = t.val ∧ win0_0.index t (1 : Fin 2) = 0
    ∧ win0_1.index t (0 : Fin 2) = 0 ∧ win0_1.index t (1 : Fin 2) = t.val
    ∧ win0_2.index t (0 : Fin 3) = t.val / 32 ∧ win0_2.index t (1 : Fin 3) = 0 ∧ win0_2.index t (2 : Fin 3) = 0
    ∧ win0_3.index t (0 : Fin 3) = t.val / 32 ∧ win0_3.index t (1 : Fin 3) = 0 ∧ win0_3.index t (2 : Fin 3) = 0 :=
  (by decide +kernel : ∀ t : Fin grid0.N, _)

variable (V : (c : Dev nD) → (b : Ref sig .tc) → Buf (Elt Ideal) ((c : Thread nD τ).loc b))

/-- The row block at point t, at (k, j), is row 4096 t + k of the node table at feature j. -/
theorem rowBlock_apply (c : Dev nD) (t : Fin cfg0.N) (k : Fin 4096) (j : Fin 512) (n : Fin 262144)
    (hn : n.val = 4096 * t.val + k.val) :
    (iblk0 V c 0 t : Vec Ideal S4096x512 .f32) (ix2 k j) = (V c main_arg0 : S262144x512.Idx → EReal) (ix2 n j) := by
  obtain ⟨e0, e1, -⟩ := idx_facts t
  unfold iblk0
  rw [View.read_apply]
  show (V c main_arg0 : S262144x512.Idx → EReal) _ = _
  congr 1
  funext a
  apply Fin.ext
  match a with
  | ⟨0, _⟩ => show win0_0.index t (0 : Fin 2) * 4096 + 1 * k.val = n.val; rw [e0, hn]; omega
  | ⟨1, _⟩ => show win0_0.index t (1 : Fin 2) * 512 + 1 * j.val = j.val; rw [e1]; omega

/-- The id block at point t, at (0, k), is the id of row 4096 t + k. -/
theorem idBlock_apply (c : Dev nD) (t : Fin cfg0.N) (k : Fin 4096) (n : Fin 262144)
    (hn : n.val = 4096 * t.val + k.val) :
    (iblk0 V c 1 t : Vec Ideal S1x4096 .i32) (ix2 (0 : Fin 1) k) = (V c main_v0 : S1x262144.Idx → BitVec 32) (ix2 (0 : Fin 1) n) := by
  obtain ⟨-, -, e0, e1, -⟩ := idx_facts t
  unfold iblk0
  rw [View.read_apply]
  show (V c main_v0 : S1x262144.Idx → BitVec 32) _ = _
  congr 1
  funext a
  apply Fin.ext
  match a with
  | ⟨0, _⟩ => show win0_1.index t (0 : Fin 2) * 1 + 1 * 0 = 0; rw [e0]
  | ⟨1, _⟩ => show win0_1.index t (1 : Fin 2) * 4096 + 1 * k.val = n.val; rw [e1, hn]; omega

/-! ## The accumulators after each point -/

variable (bid : IVec Cert.Spec.SN 32)

/-- Row n's term of segment s at feature j: the row's entry if the row is of segment s, zero otherwise (and zero
    for n past the table, so that the term is defined at every natural number). -/
def termS (h : Cert.Spec.SNH.Idx → EReal) (s : Fin 64) (j : Fin 512) (n : ℕ) : EReal :=
  if hn : n < 262144 then (if (Cert.Spec.segOf (bid (ix1 ⟨n, hn⟩))).val = s.val then h (ix2 ⟨n, hn⟩ j) else 0) else 0

/-- Row n's term of segment s in the row count: one if the row is of segment s, zero otherwise. -/
def termC (s : Fin 64) (n : ℕ) : EReal :=
  if hn : n < 262144 then (if (Cert.Spec.segOf (bid (ix1 ⟨n, hn⟩))).val = s.val then Cert.Spec.one32 else 0) else 0

/-- An in-range id is the numeral s exactly when its segment is s. -/
theorem eq_numeral_iff (hr : Cert.Spec.InRange bid) (n : Fin 262144) (s : Fin 64) :
    bid (ix1 n) = BitVec.ofNat 32 s.val ↔ (Cert.Spec.segOf (bid (ix1 n))).val = s.val := by
  constructor
  · intro h
    rw [h]
    simp only [Cert.Spec.segOf, BitVec.toNat_ofNat]
    have := s.isLt
    omega
  · intro h
    exact (Cert.Spec.eq_ofNat_segOf (hr n).1 (hr n).2).trans (congrArg (BitVec.ofNat 32) h)

variable {V} {bid}

/-- The one-hot entry of point n's id block at (s, k), under the range hypothesis: whether row 4096 n + k is of segment s. -/
theorem onehot_apply (c : Dev nD) (hr : Cert.Spec.InRange bid)
    (hB : ∀ n : Fin 262144, (V c main_v0 : S1x262144.Idx → BitVec 32) (ix2 (0 : Fin 1) n) = bid (ix1 n))
    (n : ℕ) (hn : n < cfg0.N) (s : Fin 64) (k : Fin 4096) (hlt : 4096 * n + k.val < 262144) :
    k0_pay3 (F := Ideal) (iblk0 V c 1 ⟨n, hn⟩) (ix2 s k)
      = if (Cert.Spec.segOf (bid (ix1 ⟨4096 * n + k.val, hlt⟩))).val = s.val then Cert.Spec.one32 else 0 := by
  refine (pay3_apply (iblk0 V c 1 ⟨n, hn⟩) s k).trans ?_
  rw [idBlock_apply V c ⟨n, hn⟩ k ⟨4096 * n + k.val, hlt⟩ rfl, hB]
  exact if_congr (eq_numeral_iff bid hr _ s) rfl rfl

/-- The sum accumulator's step at point n: it adds, at (s, j), the terms of the point's 4096 rows. -/
theorem sumStep (c : Dev nD) (hr : Cert.Spec.InRange bid)
    (hB : ∀ n : Fin 262144, (V c main_v0 : S1x262144.Idx → BitVec 32) (ix2 (0 : Fin 1) n) = bid (ix1 n))
    (n : ℕ) (hn : n < cfg0.N) (acc : Vec Ideal S64x512 .f32) (s : Fin 64) (j : Fin 512) :
    k0_pay4 (F := Ideal) (iblk0 V c 1 ⟨n, hn⟩) (iblk0 V c 0 ⟨n, hn⟩) acc (ix2 s j)
      = (acc : S64x512.Idx → EReal) (ix2 s j) + ∑ k : Fin 4096, termS bid (V c main_arg0) s j (4096 * n + k.val) := by
  have hN : cfg0.N = 64 := N_0
  refine (pay4_apply (iblk0 V c 1 ⟨n, hn⟩) (iblk0 V c 0 ⟨n, hn⟩) acc s j).trans ?_
  refine congrArg (fun x : EReal => (acc : S64x512.Idx → EReal) (ix2 s j) + x) (Finset.sum_congr rfl fun k _ => ?_)
  have hlt : 4096 * n + k.val < 262144 := by have := k.isLt; omega
  rw [onehot_apply c hr hB n hn s k hlt, rowBlock_apply V c ⟨n, hn⟩ k j ⟨4096 * n + k.val, hlt⟩ rfl]
  unfold termS
  rw [dif_pos hlt]
  by_cases h : (Cert.Spec.segOf (bid (ix1 ⟨4096 * n + k.val, hlt⟩))).val = s.val
  · rw [if_pos h, if_pos h, one32_eq, one_mul]
  · rw [if_neg h, if_neg h, zero_mul]

/-- The row counter's step at point n: it adds, at (s, l), the number of the point's rows of segment s. -/
theorem countStep (c : Dev nD) (hr : Cert.Spec.InRange bid)
    (hB : ∀ n : Fin 262144, (V c main_v0 : S1x262144.Idx → BitVec 32) (ix2 (0 : Fin 1) n) = bid (ix1 n))
    (n : ℕ) (hn : n < cfg0.N) (acc : Vec Ideal S64x128 .f32) (s : Fin 64) (l : Fin 128) :
    k0_pay5 (F := Ideal) (iblk0 V c 1 ⟨n, hn⟩) acc (ix2 s l)
      = (acc : S64x128.Idx → EReal) (ix2 s l) + ∑ k : Fin 4096, termC bid s (4096 * n + k.val) := by
  have hN : cfg0.N = 64 := N_0
  refine (pay5_apply (iblk0 V c 1 ⟨n, hn⟩) acc s l).trans ?_
  refine congrArg (fun x : EReal => (acc : S64x128.Idx → EReal) (ix2 s l) + x) (Finset.sum_congr rfl fun k _ => ?_)
  have hlt : 4096 * n + k.val < 262144 := by have := k.isLt; omega
  rw [onehot_apply c hr hB n hn s k hlt]
  unfold termC
  rw [dif_pos hlt]

/-- At the first inner step of a core the accumulators restart from zero; at every other point they step from what
    the point before left. -/
theorem accS_reset (c : Dev nD) (n : ℕ) (hn : n < cfg0.N) (h0 : n % 32 = 0) :
    accS V c n hn = k0_pay4 (iblk0 V c 1 ⟨n, hn⟩) (iblk0 V c 0 ⟨n, hn⟩) (k0_pay1 (F := Ideal)) := by
  cases n with
  | zero => rw [accS]
  | succ m => rw [accS, if_pos h0]
theorem accS_step (c : Dev nD) (n : ℕ) (hn : n + 1 < cfg0.N) (h0 : ¬(n + 1) % 32 = 0) :
    accS V c (n + 1) hn = k0_pay4 (iblk0 V c 1 ⟨n + 1, hn⟩) (iblk0 V c 0 ⟨n + 1, hn⟩) (accS V c n (Nat.lt_of_succ_lt hn)) := by
  rw [accS, if_neg h0]
theorem accC_reset (c : Dev nD) (n : ℕ) (hn : n < cfg0.N) (h0 : n % 32 = 0) :
    accC V c n hn = k0_pay5 (iblk0 V c 1 ⟨n, hn⟩) (k0_pay2 (F := Ideal)) := by
  cases n with
  | zero => rw [accC]
  | succ m => rw [accC, if_pos h0]
theorem accC_step (c : Dev nD) (n : ℕ) (hn : n + 1 < cfg0.N) (h0 : ¬(n + 1) % 32 = 0) :
    accC V c (n + 1) hn = k0_pay5 (iblk0 V c 1 ⟨n + 1, hn⟩) (accC V c n (Nat.lt_of_succ_lt hn)) := by
  rw [accC, if_neg h0]

/-- After inner step i of core q the sum accumulator holds, at (s, j), the terms of the core's first 4096 (i + 1)
    rows: by induction on i, each step adding one block of 4096 rows. -/
theorem accS_run (c : Dev nD) (hr : Cert.Spec.InRange bid)
    (hB : ∀ n : Fin 262144, (V c main_v0 : S1x262144.Idx → BitVec 32) (ix2 (0 : Fin 1) n) = bid (ix1 n)) (q : ℕ) :
    ∀ (i : ℕ) (hi : i < 32) (h : 32 * q + i < cfg0.N) (s : Fin 64) (j : Fin 512),
      (accS V c (32 * q + i) h : S64x512.Idx → EReal) (ix2 s j)
        = ∑ u ∈ Finset.range (i + 1), ∑ k : Fin 4096, termS bid (V c main_arg0) s j (4096 * (32 * q + u) + k.val)
  | 0, _, h, s, j => by
    refine (congrFun (accS_reset c (32 * q + 0) h (by omega)) (ix2 s j)).trans ?_
    rw [sumStep c hr hB (32 * q + 0) h (k0_pay1 (F := Ideal)) s j, pay1_apply, zero_add, Finset.sum_range_one]
  | i + 1, hi, h, s, j => by
    refine (congrFun (accS_step c (32 * q + i) h (by omega)) (ix2 s j)).trans ?_
    rw [sumStep c hr hB (32 * q + i + 1) h (accS V c (32 * q + i) (Nat.lt_of_succ_lt h)) s j,
      accS_run c hr hB q i (by omega) (Nat.lt_of_succ_lt h) s j, Finset.sum_range_succ _ (i + 1)]
    rfl

/-- The row counter likewise: after inner step i of core q it holds, at (s, l), the number of the core's first
    4096 (i + 1) rows that are of segment s. -/
theorem accC_run (c : Dev nD) (hr : Cert.Spec.InRange bid)
    (hB : ∀ n : Fin 262144, (V c main_v0 : S1x262144.Idx → BitVec 32) (ix2 (0 : Fin 1) n) = bid (ix1 n)) (q : ℕ) :
    ∀ (i : ℕ) (hi : i < 32) (h : 32 * q + i < cfg0.N) (s : Fin 64) (l : Fin 128),
      (accC V c (32 * q + i) h : S64x128.Idx → EReal) (ix2 s l)
        = ∑ u ∈ Finset.range (i + 1), ∑ k : Fin 4096, termC bid s (4096 * (32 * q + u) + k.val)
  | 0, _, h, s, l => by
    refine (congrFun (accC_reset c (32 * q + 0) h (by omega)) (ix2 s l)).trans ?_
    rw [countStep c hr hB (32 * q + 0) h (k0_pay2 (F := Ideal)) s l, pay2_apply, zero_add, Finset.sum_range_one]
  | i + 1, hi, h, s, l => by
    refine (congrFun (accC_step c (32 * q + i) h (by omega)) (ix2 s l)).trans ?_
    rw [countStep c hr hB (32 * q + i + 1) h (accC V c (32 * q + i) (Nat.lt_of_succ_lt h)) s l,
      accC_run c hr hB q i (by omega) (Nat.lt_of_succ_lt h) s l, Finset.sum_range_succ _ (i + 1)]
    rfl

/-- The 32 blocks of 4096 rows of core q are its 131072 rows. -/
theorem regroupS (h : Cert.Spec.SNH.Idx → EReal) (q : Fin 2) (s : Fin 64) (j : Fin 512) :
    ∑ u ∈ Finset.range 32, ∑ k : Fin 4096, termS bid h s j (4096 * (32 * q.val + u) + k.val) = Cert.Spec.partSum h bid q s j := by
  rw [Finset.sum_range]
  refine Eq.trans ?_ (Cert.Moments.sum_blocks 32 4096 (fun r : Fin 131072 =>
    if (Cert.Spec.segOf (bid (ix1 (Cert.Spec.rowOf q r)))).val = s.val then h (ix2 (Cert.Spec.rowOf q r) j) else 0))
  refine Finset.sum_congr rfl fun u _ => Finset.sum_congr rfl fun k _ => ?_
  have hq := q.isLt
  have hu := u.isLt
  have hk := k.isLt
  have hlt : 4096 * (32 * q.val + u.val) + k.val < 262144 := by omega
  have hlt' : 4096 * u.val + k.val < 131072 := by omega
  have e : (⟨4096 * (32 * q.val + u.val) + k.val, hlt⟩ : Fin 262144) = Cert.Spec.rowOf q ⟨4096 * u.val + k.val, hlt'⟩ :=
    Fin.ext (by simp only [Cert.Spec.rowOf]; omega)
  unfold termS
  rw [dif_pos hlt, e]
theorem regroupC (q : Fin 2) (s : Fin 64) :
    ∑ u ∈ Finset.range 32, ∑ k : Fin 4096, termC bid s (4096 * (32 * q.val + u) + k.val) = Cert.Spec.partCount bid q s := by
  rw [Finset.sum_range]
  refine Eq.trans ?_ (Cert.Moments.sum_blocks 32 4096 (fun r : Fin 131072 =>
    if (Cert.Spec.segOf (bid (ix1 (Cert.Spec.rowOf q r)))).val = s.val then Cert.Spec.one32 else 0))
  refine Finset.sum_congr rfl fun u _ => Finset.sum_congr rfl fun k _ => ?_
  have hq := q.isLt
  have hu := u.isLt
  have hk := k.isLt
  have hlt : 4096 * (32 * q.val + u.val) + k.val < 262144 := by omega
  have hlt' : 4096 * u.val + k.val < 131072 := by omega
  have e : (⟨4096 * (32 * q.val + u.val) + k.val, hlt⟩ : Fin 262144) = Cert.Spec.rowOf q ⟨4096 * u.val + k.val, hlt'⟩ :=
    Fin.ext (by simp only [Cert.Spec.rowOf]; omega)
  unfold termC
  rw [dif_pos hlt, e]

/-! ## From the blocks to the arrays -/

variable (V) (bid)

/-- The intended contents of the two result arrays: block q of the first the partial sums of core q, block q of
    the second its row counts on every lane. -/
abbrev GS (c : Dev nD) : S2x64x512.Idx → EReal := fun i => Cert.Spec.partSum (V c main_arg0) bid (i 0) (i 1) (i 2)
abbrev GC : S2x64x128.Idx → EReal := fun i => Cert.Spec.partCount bid (i 0) (i 1)

variable {V} {bid}

theorem pay6_apply' (v : Vec Ideal S64x512 .f32) (i : S1x64x512.Idx) :
    k0_pay6 (F := Ideal) v i = (v : S64x512.Idx → EReal) (ix2 (i 1) (i 2)) := by
  exact (congrArg (k0_pay6 (F := Ideal) v) (eq_ix3 i)).trans (pay6_apply v (i 0) (i 1) (i 2))
theorem pay7_apply' (v : Vec Ideal S64x128 .f32) (i : S1x64x128.Idx) :
    k0_pay7 (F := Ideal) v i = (v : S64x128.Idx → EReal) (ix2 (i 1) (i 2)) := by
  exact (congrArg (k0_pay7 (F := Ideal) v) (eq_ix3 i)).trans (pay7_apply v (i 0) (i 1) (i 2))

theorem partSum_congr (h : Cert.Spec.SNH.Idx → EReal) {a a' : Fin 2} {s s' : Fin 64} {j j' : Fin 512}
    (ha : a.val = a'.val) (hs : s.val = s'.val) (hj : j.val = j'.val) :
    Cert.Spec.partSum h bid a s j = Cert.Spec.partSum h bid a' s' j' := by
  rw [Fin.ext ha, Fin.ext hs, Fin.ext hj]
theorem partCount_congr {a a' : Fin 2} {s s' : Fin 64} (ha : a.val = a'.val) (hs : s.val = s'.val) :
    Cert.Spec.partCount bid a s = Cert.Spec.partCount bid a' s' := by
  rw [Fin.ext ha, Fin.ext hs]

/-- What a point with inner step 31 leaves in the sum accumulator is its core's partial sums. -/
theorem accS_last (c : Dev nD) (hr : Cert.Spec.InRange bid)
    (hB : ∀ n : Fin 262144, (V c main_v0 : S1x262144.Idx → BitVec 32) (ix2 (0 : Fin 1) n) = bid (ix1 n))
    (t : Fin cfg0.N) (h31 : t.val % 32 = 31) (q : Fin 2) (hq : q.val = t.val / 32) (s : Fin 64) (j : Fin 512) :
    (accS V c t.val t.isLt : S64x512.Idx → EReal) (ix2 s j) = Cert.Spec.partSum (V c main_arg0) bid q s j := by
  have hN : cfg0.N = 64 := N_0
  have ht := t.isLt
  have hdecomp : 32 * q.val + 31 = t.val := by omega
  have h' : 32 * q.val + 31 < cfg0.N := by omega
  have same : ∀ (u : ℕ) (hu : u < cfg0.N), u = t.val → accS V c u hu = accS V c t.val t.isLt :=
    fun u hu e => by subst e; rfl
  rw [← same _ h' hdecomp, accS_run c hr hB q.val 31 (by omega) h' s j]
  exact regroupS (V c main_arg0) q s j
theorem accC_last (c : Dev nD) (hr : Cert.Spec.InRange bid)
    (hB : ∀ n : Fin 262144, (V c main_v0 : S1x262144.Idx → BitVec 32) (ix2 (0 : Fin 1) n) = bid (ix1 n))
    (t : Fin cfg0.N) (h31 : t.val % 32 = 31) (q : Fin 2) (hq : q.val = t.val / 32) (s : Fin 64) (l : Fin 128) :
    (accC V c t.val t.isLt : S64x128.Idx → EReal) (ix2 s l) = Cert.Spec.partCount bid q s := by
  have hN : cfg0.N = 64 := N_0
  have ht := t.isLt
  have hdecomp : 32 * q.val + 31 = t.val := by omega
  have h' : 32 * q.val + 31 < cfg0.N := by omega
  have same : ∀ (u : ℕ) (hu : u < cfg0.N), u = t.val → accC V c u hu = accC V c t.val t.isLt :=
    fun u hu e => by subst e; rfl
  rw [← same _ h' hdecomp, accC_run c hr hB q.val 31 (by omega) h' s l]
  exact regroupC q s

/-- A block of a result array read through its window is the array at the block's place in it. -/
theorem read_blk2 (G : S2x64x512.Idx → EReal) (t : Fin cfg0.N) (y : ((cfg0.win 2).xblock (cfg0.grid.coords t)).Idx) :
    ((cfg0.win 2).blk t).view.read (Elt Ideal) G y = G (((cfg0.win 2).blk t).view.emb y) := rfl
theorem read_blk3 (G : S2x64x128.Idx → EReal) (t : Fin cfg0.N) (y : ((cfg0.win 3).xblock (cfg0.grid.coords t)).Idx) :
    ((cfg0.win 3).blk t).view.read (Elt Ideal) G y = G (((cfg0.win 3).blk t).view.emb y) := rfl

/-- What a flushing point writes back to the first result is its block of the partial sums. -/
theorem flushed2_eq (c : Dev nD) (hr : Cert.Spec.InRange bid)
    (hB : ∀ n : Fin 262144, (V c main_v0 : S1x262144.Idx → BitVec 32) (ix2 (0 : Fin 1) n) = bid (ix1 n))
    (t : Fin cfg0.N) (hf : (cfg0.win 2).flush t = true) :
    (dat0 V c).flushed 2 t = ((cfg0.win 2).blk t).view.read (Elt Ideal) (GS V bid c) := by
  have hN : cfg0.N = 64 := N_0
  have ht := t.isLt
  have h31 : t.val % 32 = 31 := (flush0_2 t).mp hf
  obtain ⟨-, -, -, -, f0, f1, f2, -⟩ := idx_facts t
  show (cfg0.win 2).cut (grid0.coords t) ((dat0 V c).after 2 t) = _
  rw [after0_2]
  funext y
  have y0 : (y 0).val < 1 := (y 0).isLt
  have y1 : (y 1).val < 64 := (y 1).isLt
  have y2 : (y 2).val < 512 := (y 2).isLt
  have e0 : t.val / 32 = (((cfg0.win 2).blk t).view.emb y 0).val := by
    show t.val / 32 = win0_2.index t (0 : Fin 3) * 1 + 1 * (y 0).val
    rw [f0]; omega
  have e1 : (y 1).val = (((cfg0.win 2).blk t).view.emb y 1).val := by
    show (y 1).val = win0_2.index t (1 : Fin 3) * 64 + 1 * (y 1).val
    rw [f1]; omega
  have e2 : (y 2).val = (((cfg0.win 2).blk t).view.emb y 2).val := by
    show (y 2).val = win0_2.index t (2 : Fin 3) * 512 + 1 * (y 2).val
    rw [f2]; omega
  refine Eq.trans ?_ (read_blk2 (GS V bid c) t y).symm
  refine (pay6_apply' (accS V c t.val t.isLt) ((cfg0.win 2).xinj (grid0.coords t) y)).trans ?_
  refine (accS_last c hr hB t h31 ⟨t.val / 32, by omega⟩ rfl ⟨(y 1).val, y1⟩ ⟨(y 2).val, y2⟩).trans ?_
  exact partSum_congr (V c main_arg0) e0 e1 e2

/-- What a flushing point writes back to the second result is its block of the row counts. -/
theorem flushed3_eq (c : Dev nD) (hr : Cert.Spec.InRange bid)
    (hB : ∀ n : Fin 262144, (V c main_v0 : S1x262144.Idx → BitVec 32) (ix2 (0 : Fin 1) n) = bid (ix1 n))
    (t : Fin cfg0.N) (hf : (cfg0.win 3).flush t = true) :
    (dat0 V c).flushed 3 t = ((cfg0.win 3).blk t).view.read (Elt Ideal) (GC bid) := by
  have hN : cfg0.N = 64 := N_0
  have ht := t.isLt
  have h31 : t.val % 32 = 31 := (flush0_3 t).mp hf
  obtain ⟨-, -, -, -, -, -, -, f0, f1, f2⟩ := idx_facts t
  show (cfg0.win 3).cut (grid0.coords t) ((dat0 V c).after 3 t) = _
  rw [after0_3]
  funext y
  have y0 : (y 0).val < 1 := (y 0).isLt
  have y1 : (y 1).val < 64 := (y 1).isLt
  have y2 : (y 2).val < 128 := (y 2).isLt
  have e0 : t.val / 32 = (((cfg0.win 3).blk t).view.emb y 0).val := by
    show t.val / 32 = win0_3.index t (0 : Fin 3) * 1 + 1 * (y 0).val
    rw [f0]; omega
  have e1 : (y 1).val = (((cfg0.win 3).blk t).view.emb y 1).val := by
    show (y 1).val = win0_3.index t (1 : Fin 3) * 64 + 1 * (y 1).val
    rw [f1]; omega
  refine Eq.trans ?_ (read_blk3 (GC bid) t y).symm
  refine (pay7_apply' (accC V c t.val t.isLt) ((cfg0.win 3).xinj (grid0.coords t) y)).trans ?_
  refine (accC_last c hr hB t h31 ⟨t.val / 32, by omega⟩ rfl ⟨(y 1).val, y1⟩ ⟨(y 2).val, y2⟩).trans ?_
  exact partCount_congr e0 e1

/-- An index of a result array is in point t's block iff each coordinate is in the block's range on its axis. -/
theorem mem_blk2 (t : Fin cfg0.N) (i : S2x64x512.Idx) :
    i ∈ ((cfg0.win 2).blk t).view.set ↔ ∀ a : Fin 3, win0_2.index t a * S1x64x512.size a ≤ (i a).val ∧ (i a).val < win0_2.index t a * S1x64x512.size a + S1x64x512.size a := by
  show i ∈ ((View.whole main_v1_0).slice (win0_2.rect t)).set ↔ _
  rw [View.set_slice_whole, Rect.mem_set_unit]
  exact Iff.rfl
theorem mem_blk3 (t : Fin cfg0.N) (i : S2x64x128.Idx) :
    i ∈ ((cfg0.win 3).blk t).view.set ↔ ∀ a : Fin 3, win0_3.index t a * S1x64x128.size a ≤ (i a).val ∧ (i a).val < win0_3.index t a * S1x64x128.size a + S1x64x128.size a := by
  show i ∈ ((View.whole main_v1_1).slice (win0_3.rect t)).set ↔ _
  rw [View.set_slice_whole, Rect.mem_set_unit]
  exact Iff.rfl

/-- Every index of a result array is in the block of the last point of its core. -/
theorem cover2 (i : S2x64x512.Idx) : ∃ t : Fin cfg0.N, (cfg0.win 2).flush t = true ∧ i ∈ ((cfg0.win 2).blk t).view.set := by
  have hN : cfg0.N = 64 := N_0
  have h0 : (i 0).val < 2 := (i 0).isLt
  have h1 : (i 1).val < 64 := (i 1).isLt
  have h2 : (i 2).val < 512 := (i 2).isLt
  obtain ⟨t, htv⟩ : ∃ t : Fin cfg0.N, t.val = 32 * (i 0).val + 31 := ⟨⟨32 * (i 0).val + 31, by omega⟩, rfl⟩
  obtain ⟨-, -, -, -, f0, f1, f2, -⟩ := idx_facts t
  refine ⟨t, (flush0_2 t).mpr (by omega), ?_⟩
  rw [mem_blk2]
  intro a
  match a with
  | ⟨0, _⟩ =>
    show win0_2.index t (0 : Fin 3) * 1 ≤ (i 0).val ∧ (i 0).val < win0_2.index t (0 : Fin 3) * 1 + 1
    rw [f0, htv]; omega
  | ⟨1, _⟩ =>
    show win0_2.index t (1 : Fin 3) * 64 ≤ (i 1).val ∧ (i 1).val < win0_2.index t (1 : Fin 3) * 64 + 64
    rw [f1]; omega
  | ⟨2, _⟩ =>
    show win0_2.index t (2 : Fin 3) * 512 ≤ (i 2).val ∧ (i 2).val < win0_2.index t (2 : Fin 3) * 512 + 512
    rw [f2]; omega
theorem cover3 (i : S2x64x128.Idx) : ∃ t : Fin cfg0.N, (cfg0.win 3).flush t = true ∧ i ∈ ((cfg0.win 3).blk t).view.set := by
  have hN : cfg0.N = 64 := N_0
  have h0 : (i 0).val < 2 := (i 0).isLt
  have h1 : (i 1).val < 64 := (i 1).isLt
  have h2 : (i 2).val < 128 := (i 2).isLt
  obtain ⟨t, htv⟩ : ∃ t : Fin cfg0.N, t.val = 32 * (i 0).val + 31 := ⟨⟨32 * (i 0).val + 31, by omega⟩, rfl⟩
  obtain ⟨-, -, -, -, -, -, -, f0, f1, f2⟩ := idx_facts t
  refine ⟨t, (flush0_3 t).mpr (by omega), ?_⟩
  rw [mem_blk3]
  intro a
  match a with
  | ⟨0, _⟩ =>
    show win0_3.index t (0 : Fin 3) * 1 ≤ (i 0).val ∧ (i 0).val < win0_3.index t (0 : Fin 3) * 1 + 1
    rw [f0, htv]; omega
  | ⟨1, _⟩ =>
    show win0_3.index t (1 : Fin 3) * 64 ≤ (i 1).val ∧ (i 1).val < win0_3.index t (1 : Fin 3) * 64 + 64
    rw [f1]; omega
  | ⟨2, _⟩ =>
    show win0_3.index t (2 : Fin 3) * 128 ≤ (i 2).val ∧ (i 2).val < win0_3.index t (2 : Fin 3) * 128 + 128
    rw [f2]; omega

/-! ## The two result arrays -/

/-- REGION 0'S FIRST RESULT after the run: block q holds, at (s, j), the sum over core q's rows of segment s of
    the node table's column j. -/
theorem region0_sum_array (c : Dev nD) (hr : Cert.Spec.InRange bid)
    (hB : ∀ n : Fin 262144, (V c main_v0 : S1x262144.Idx → BitVec 32) (ix2 (0 : Fin 1) n) = bid (ix1 n)) :
    (Cert.KernelIdeal.R0.dat0 (F := Ideal) V c).arrAt 2 cfg0.N
      = fun i : S2x64x512.Idx => Cert.Spec.partSum (V c main_arg0) bid (i 0) (i 1) (i 2) :=
  (dat0 V c).arrAt_eq_of_cover 2 (GS V bid c) (fun t hf => flushed2_eq c hr hB t hf) cover2

/-- REGION 0'S SECOND RESULT after the run: block q holds, at (s, l), the number of core q's rows of segment s,
    on every lane l. -/
theorem region0_count_array (c : Dev nD) (hr : Cert.Spec.InRange bid)
    (hB : ∀ n : Fin 262144, (V c main_v0 : S1x262144.Idx → BitVec 32) (ix2 (0 : Fin 1) n) = bid (ix1 n)) :
    (Cert.KernelIdeal.R0.dat0 (F := Ideal) V c).arrAt 3 cfg0.N
      = fun i : S2x64x128.Idx => Cert.Spec.partCount bid (i 0) (i 1) :=
  (dat0 V c).arrAt_eq_of_cover 3 (GC bid) (fun t hf => flushed3_eq c hr hB t hf) cover3

end Cert.KernelIdeal.R0Value

end
-- ==== Proof.R1Value.lean ====
/-
  REGION 1's output array, over the extended reals.

  The grid has 128 points. At point t the body reads block t of the node table h (rows 2048 t … 2048 t + 2047, all 512
  features), the ids of those rows, and the whole gate table [64, 512]; it stores, over the whole output block,
      out[k, j] = h[2048 t + k, j] * (0 + Σ_s onehot[s, k] * gate[s, j]),   onehot[s, k] = 1 if the id of row 2048 t + k is s, else 0,
  and the block is written back to rows 2048 t … 2048 t + 2047 of the output array at every point.

  Under the precondition the id of every row n is the numeral of its segment seg(n) in [0, 64), and the iota entry at row s is the numeral
  s; two numerals below 64 are equal 32-bit words exactly when they are equal numbers. So the sum over the 64 segments has
  the single nonzero term s = seg(n), with coefficient the real 1, and 0 + x = x, 1 * x = x, 0 * x = 0 on the extended reals:
      out[k, j] = h[n, j] * gate[seg(n), j],   n = 2048 t + k.
  Every row n of the array lies in the block t = n / 2048, and every point writes its block back, so after the last
  point the array is the specified table, row by row.
-/
import proofs.«409112_j63488206570149_3_alg».proof.Proof.R1
import proofs.«409112_j63488206570149_3_alg».proof.Proof.Spec
import Idealize.ShloMosaic.Lib.Pipeline.Value
import Idealize.ShloMosaic.Lib.ValueIdx
import Idealize.ShloMosaic.PureOps.Ideal.Laws

noncomputable section

open scoped BigOperators

namespace Cert.KernelIdeal.R1Value

open Cert.KernelIdeal Cert.KernelIdeal.Gen Cert.KernelIdeal.R1
open Idealize.ShloMosaic Idealize.ShloMosaic.TcCoe Idealize.ShloMosaic.ValueIdx Idealize.SL.Sem
open Idealize.ShloMosaic.Pipeline (Dat Cfg Window)

/-! ## The contraction's index maps, axis by axis -/

theorem lhs_pay_0 (i : S2048x512.Idx) (q : dot_S64x2048_S64x512_S2048x512_0_0_1_1_n_n.contr.Idx) :
    (dot_S64x2048_S64x512_S2048x512_0_0_1_1_n_n.lhsIdx i q 0).val = (q ⟨0, by decide⟩).val :=
  dot_S64x2048_S64x512_S2048x512_0_0_1_1_n_n.lhsIdx_val_of_single rfl i q
theorem lhs_pay_1 (i : S2048x512.Idx) (q : dot_S64x2048_S64x512_S2048x512_0_0_1_1_n_n.contr.Idx) :
    (dot_S64x2048_S64x512_S2048x512_0_0_1_1_n_n.lhsIdx i q 1).val = (i 0).val := by
  unfold DotDims.lhsIdx
  rw [dif_neg (show ¬(1 : Fin S64x2048.rank) ∈ dot_S64x2048_S64x512_S2048x512_0_0_1_1_n_n.lhsBatch by decide), dif_pos (show (1 : Fin S64x2048.rank) ∈ dot_S64x2048_S64x512_S2048x512_0_0_1_1_n_n.lhsNonContracting by decide)]
  rfl
theorem rhs_pay_0 (i : S2048x512.Idx) (q : dot_S64x2048_S64x512_S2048x512_0_0_1_1_n_n.contr.Idx) :
    (dot_S64x2048_S64x512_S2048x512_0_0_1_1_n_n.rhsIdx i q 0).val = (q ⟨0, by decide⟩).val :=
  dot_S64x2048_S64x512_S2048x512_0_0_1_1_n_n.rhsIdx_val_of_single rfl i q
theorem rhs_pay_1 (i : S2048x512.Idx) (q : dot_S64x2048_S64x512_S2048x512_0_0_1_1_n_n.contr.Idx) :
    (dot_S64x2048_S64x512_S2048x512_0_0_1_1_n_n.rhsIdx i q 1).val = (i 1).val := by
  unfold DotDims.rhsIdx
  rw [dif_neg (show ¬(1 : Fin S64x512.rank) ∈ dot_S64x2048_S64x512_S2048x512_0_0_1_1_n_n.rhsBatch by decide), dif_pos (show (1 : Fin S64x512.rank) ∈ dot_S64x2048_S64x512_S2048x512_0_0_1_1_n_n.rhsNonContracting by decide)]
  rfl

/-! ## The payload at an index -/

/-- The one-hot matrix at row s, column k: one when the id word of row k of the block is the numeral s, else zero. -/
theorem onehot_apply (x1 : IVec S1x2048 32) (s : Fin 64) (k : Fin 2048) :
    (truncf (F := Ideal) .bf16 (sitofp .f32 (extui 32 (cmpi .eq (broadcastTo S64x2048 (shapeCast S1x2048 x1 shapeCasts_S1x2048_S1x2048) broadcasts_S1x2048_S64x2048) (iota .tc S64x2048 32 [0] iota_S64x2048_d0_w32)) natLt_1_32)) bitsLt_bf16_f32) (ix2 s k)
      = FloatOps.sitofp (F := Ideal) .f32 ((IntOp.cmpi .eq (x1 (ix2 (0 : Fin 1) k)) (BitVec.ofNat 32 s.val)).setWidth 32) := by
  show FloatOps.sitofp (F := Ideal) .f32 ((IntOp.cmpi .eq (broadcastTo S64x2048 (shapeCast S1x2048 x1 shapeCasts_S1x2048_S1x2048) broadcasts_S1x2048_S64x2048 (ix2 s k)) (iota .tc S64x2048 32 [0] iota_S64x2048_d0_w32 (ix2 s k))).setWidth 32) = _
  rw [broadcastTo_apply _ broadcasts_S1x2048_S64x2048 (ix2 s k) (ix2 (0 : Fin 1) k) (fun a => match a with | ⟨0, _⟩ => rfl | ⟨1, _⟩ => rfl),
    shapeCast_self, iota_single_apply]

/-- The comparison word of two segment numerals, widened and read as a real: one when they are the same segment, else zero. -/
theorem onehot_word (s0 s : Fin 64) :
    FloatOps.sitofp (F := Ideal) .f32 ((IntOp.cmpi .eq (BitVec.ofNat 32 s0.val) (BitVec.ofNat 32 s.val)).setWidth 32) = if s = s0 then (1 : EReal) else 0 := by
  by_cases h : s = s0
  · subst h
    rw [if_pos rfl, IntOp.cmpi_eq.2 rfl]
    show (((((1#1 : BitVec 1).setWidth 32).toInt : ℝ)) : EReal) = 1
    rw [show ((1#1 : BitVec 1).setWidth 32).toInt = 1 from by decide]
    simp
  · rw [if_neg h]
    have hne : ¬ IntOp.cmpi .eq (BitVec.ofNat 32 s0.val) (BitVec.ofNat 32 s.val) = 1#1 := by
      rw [IntOp.cmpi_eq]
      intro e
      have e' := congrArg BitVec.toNat e
      simp only [BitVec.toNat_ofNat] at e'
      have h0 := s0.isLt
      have h1 := s.isLt
      exact h (Fin.ext (by omega))
    rw [eq_zero_of_ne_one hne]
    show (((((0#1 : BitVec 1).setWidth 32).toInt : ℝ)) : EReal) = 0
    rw [show ((0#1 : BitVec 1).setWidth 32).toInt = 0 from by decide]
    simp

/-- The stored value at row k, feature j of the block, when the id word of row k is the numeral of segment s0: the contraction
    over the 64 segments has the one nonzero term s = s0, so the value is the h entry times the gate entry of segment s0. -/
theorem payload_apply (x1 : Vec Ideal S1x2048 .i32) (x2 : Vec Ideal S64x512 .f32) (x0 : Vec Ideal S2048x512 .f32)
    (k : Fin 2048) (j : Fin 512) (s0 : Fin 64)
    (hw : x1 (ix2 (0 : Fin 1) k) = BitVec.ofNat 32 s0.val) :
    k1_pay1 (F := Ideal) x1 x2 x0 (ix2 k j) = x0 (ix2 k j) * x2 (ix2 s0 j) := by
  unfold k1_pay1
  dsimp only
  refine congrArg (x0 (ix2 k j) * ·) ?_
  refine (Ideal.matmul_constant_zero_apply dot_S64x2048_S64x512_S2048x512_0_0_1_1_n_n none _ _ (ix2 k j)).trans ?_
  rw [← Equiv.sum_comp (ValueIdx.contrEquiv1 dot_S64x2048_S64x512_S2048x512_0_0_1_1_n_n 64 rfl rfl).symm]
  have term : ∀ s : Fin 64,
      (truncf (F := Ideal) .bf16 (sitofp .f32 (extui 32 (cmpi .eq (broadcastTo S64x2048 (shapeCast S1x2048 x1 shapeCasts_S1x2048_S1x2048) broadcasts_S1x2048_S64x2048) (iota .tc S64x2048 32 [0] iota_S64x2048_d0_w32)) natLt_1_32)) bitsLt_bf16_f32)
          (dot_S64x2048_S64x512_S2048x512_0_0_1_1_n_n.lhsIdx (ix2 k j) ((ValueIdx.contrEquiv1 dot_S64x2048_S64x512_S2048x512_0_0_1_1_n_n 64 rfl rfl).symm s))
        * (truncf (F := Ideal) .bf16 (shapeCast S64x512 x2 shapeCasts_S64x512_S64x512) bitsLt_bf16_f32)
          (dot_S64x2048_S64x512_S2048x512_0_0_1_1_n_n.rhsIdx (ix2 k j) ((ValueIdx.contrEquiv1 dot_S64x2048_S64x512_S2048x512_0_0_1_1_n_n 64 rfl rfl).symm s))
      = (if s = s0 then (1 : EReal) else 0) * x2 (ix2 s j) := by
    intro s
    have hk := ValueIdx.contrEquiv1_symm_val dot_S64x2048_S64x512_S2048x512_0_0_1_1_n_n 64 rfl rfl s
    have el : dot_S64x2048_S64x512_S2048x512_0_0_1_1_n_n.lhsIdx (ix2 k j) ((ValueIdx.contrEquiv1 dot_S64x2048_S64x512_S2048x512_0_0_1_1_n_n 64 rfl rfl).symm s) = ix2 s k := funext fun a => Fin.ext (by
      match a with
      | ⟨0, _⟩ => exact (lhs_pay_0 _ _).trans hk
      | ⟨1, _⟩ => exact lhs_pay_1 _ _)
    have er : dot_S64x2048_S64x512_S2048x512_0_0_1_1_n_n.rhsIdx (ix2 k j) ((ValueIdx.contrEquiv1 dot_S64x2048_S64x512_S2048x512_0_0_1_1_n_n 64 rfl rfl).symm s) = ix2 s j := funext fun a => Fin.ext (by
      match a with
      | ⟨0, _⟩ => exact (rhs_pay_0 _ _).trans hk
      | ⟨1, _⟩ => exact rhs_pay_1 _ _)
    rw [el, er, onehot_apply, hw, onehot_word]
    show _ * shapeCast S64x512 x2 shapeCasts_S64x512_S64x512 (ix2 s j) = _
    rw [shapeCast_self]
  refine (Finset.sum_congr rfl fun s _ => term s).trans ?_
  rw [Finset.sum_eq_single s0 (fun s _ hne => by rw [if_neg hne, zero_mul]) (fun h => absurd (Finset.mem_univ _) h), if_pos rfl, one_mul]

/-! ## One block -/

/-- Row k of block t of the node table. -/
def row (t : Fin 128) (k : Fin 2048) : Fin 262144 := ⟨2048 * t.val + k.val, by have := t.isLt; have := k.isLt; omega⟩

/-- The payload of a point whose h block, id block and gate block are blocks of the arrays h, bid, g: at row k, feature j
    of the block it is the specified product at row (row t k) of the table. -/
theorem block_apply (h : Cert.Spec.SNH.Idx → EReal) (g : Cert.Spec.SSH.Idx → EReal) (bid : IVec Cert.Spec.SN 32) (hr : Cert.Spec.InRange bid)
    (x0 : Vec Ideal S2048x512 .f32) (x1 : Vec Ideal S1x2048 .i32) (x2 : Vec Ideal S64x512 .f32)
    (k : Fin 2048) (j : Fin 512) (n : Fin 262144)
    (e0 : x0 (ix2 k j) = h (ix2 n j)) (e1 : x1 (ix2 (0 : Fin 1) k) = bid (ix1 n))
    (e2 : x2 (ix2 (Cert.Spec.segOf (bid (ix1 n))) j) = g (ix2 (Cert.Spec.segOf (bid (ix1 n))) j)) :
    k1_pay1 (F := Ideal) x1 x2 x0 (ix2 k j) = Cert.Spec.gathered g h bid (ix2 n j) := by
  rw [payload_apply x1 x2 x0 k j (Cert.Spec.segOf (bid (ix1 n))) (e1.trans (Cert.Spec.eq_ofNat_segOf (hr n).1 (hr n).2)), e0, e2]
  rfl

/-- The whole-buffer rectangles start at offset zero on both axes. -/
theorem zero_offsets : (![0, 0] : Fin 2 → Nat) = fun _ => 0 := funext fun a => by fin_cases a <;> rfl

/-- The four windows' block indices at point t of the grid: the h block and the output block are block (t, 0), the id block is
    block (0, t), the gate block is the whole gate table. -/
theorem block_indices : ∀ t : Fin cfg1.N, win1_0.index t (0 : Fin 2) = t.val ∧ win1_0.index t (1 : Fin 2) = 0
    ∧ win1_1.index t (0 : Fin 2) = 0 ∧ win1_1.index t (1 : Fin 2) = t.val
    ∧ win1_2.index t (0 : Fin 2) = 0 ∧ win1_2.index t (1 : Fin 2) = 0
    ∧ win1_3.index t (0 : Fin 2) = t.val ∧ win1_3.index t (1 : Fin 2) = 0 :=
  (by decide +kernel : ∀ t : Fin grid1.N, _)

section
variable (V : (c : Dev nD) → (b : Ref sig .tc) → Buf (Elt Ideal) ((c : Thread nD τ).loc b))

/-- WHAT POINT t WRITES BACK is block t of the specified table: the h block's row k is row 2048 t + k of the node table, the id
    block's entry k is the id of that row, and the gate block is the gate table. -/
theorem writeback_eq (c : Dev nD) (bid : IVec Cert.Spec.SN 32) (hr : Cert.Spec.InRange bid)
    (hB : ∀ n : Fin 262144, (V c main_v0 : S1x262144.Idx → BitVec 32) (ValueIdx.ix2 (0 : Fin 1) n) = bid (ValueIdx.ix1 n))
    (t : Fin cfg1.N) :
    (dat1 (F := Ideal) V c).flushed 3 t = ((cfg1.win 3).blk t).view.read (Elt Ideal) (Cert.Spec.gathered (V c main_v25) (V c main_arg0) bid) := by
  show (cfg1.win 3).cut (grid1.coords t) ((dat1 (F := Ideal) V c).after 3 t) = _
  rw [after1_3]
  unfold out1_3
  rw [View.canon_unit_zero zero_offsets]
  simp only [View.ld_unit_zero (S := S2048x512) zero_offsets, View.ld_unit_zero (S := S1x2048) zero_offsets, View.ld_unit_zero (S := S64x512) zero_offsets]
  funext y
  obtain ⟨e00, e01, e10, e11, e20, e21, e30, e31⟩ := block_indices t
  have hk : (y 0).val < 2048 := (y 0).isLt
  have hj : (y 1).val < 512 := (y 1).isLt
  have ht : t.val < 128 := t.isLt
  have hx : (win1 3).xinj (grid1.coords t) y = ix2 (⟨(y 0).val, hk⟩ : Fin 2048) (⟨(y 1).val, hj⟩ : Fin 512) :=
    funext fun a => match a with | ⟨0, _⟩ => rfl | ⟨1, _⟩ => rfl
  refine (congrArg (k1_pay1 (F := Ideal) (iblk1 V c 1 t) (iblk1 V c 2 t) (iblk1 V c 0 t)) hx).trans ?_
  refine (block_apply (V c main_arg0) (V c main_v25) bid hr (iblk1 V c 0 t) (iblk1 V c 1 t) (iblk1 V c 2 t)
    ⟨(y 0).val, hk⟩ ⟨(y 1).val, hj⟩ (row ⟨t.val, ht⟩ ⟨(y 0).val, hk⟩) ?_ ?_ ?_).trans ?_
  · -- the h block at (k, j) is the table at (2048 t + k, j)
    show V c main_arg0 (((cfg1.win 0).blk t).view.emb (ix2 (⟨(y 0).val, hk⟩ : Fin 2048) (⟨(y 1).val, hj⟩ : Fin 512))) = _
    refine congrArg (V c main_arg0) (funext fun a => Fin.ext ?_)
    match a with
    | ⟨0, _⟩ => show win1_0.index t (0 : Fin 2) * 2048 + 1 * (y 0).val = 2048 * t.val + (y 0).val; omega
    | ⟨1, _⟩ => show win1_0.index t (1 : Fin 2) * 512 + 1 * (y 1).val = (y 1).val; omega
  · -- the id block at (0, k) is the id of row 2048 t + k
    refine Eq.trans ?_ (hB (row ⟨t.val, ht⟩ ⟨(y 0).val, hk⟩))
    show V c main_v0 (((cfg1.win 1).blk t).view.emb (ix2 (0 : Fin 1) (⟨(y 0).val, hk⟩ : Fin 2048))) = _
    refine congrArg (V c main_v0) (funext fun a => Fin.ext ?_)
    match a with
    | ⟨0, _⟩ => show win1_1.index t (0 : Fin 2) * 1 + 1 * 0 = 0; omega
    | ⟨1, _⟩ => show win1_1.index t (1 : Fin 2) * 2048 + 1 * (y 0).val = 2048 * t.val + (y 0).val; omega
  · -- the gate block is the gate table
    show V c main_v25 (((cfg1.win 2).blk t).view.emb (ix2 (Cert.Spec.segOf (bid (ix1 (row ⟨t.val, ht⟩ ⟨(y 0).val, hk⟩)))) (⟨(y 1).val, hj⟩ : Fin 512))) = _
    refine congrArg (V c main_v25) (funext fun a => Fin.ext ?_)
    match a with
    | ⟨0, _⟩ => show win1_2.index t (0 : Fin 2) * 64 + 1 * (Cert.Spec.segOf (bid (ix1 (row ⟨t.val, ht⟩ ⟨(y 0).val, hk⟩)))).val = (Cert.Spec.segOf (bid (ix1 (row ⟨t.val, ht⟩ ⟨(y 0).val, hk⟩)))).val; omega
    | ⟨1, _⟩ => show win1_2.index t (1 : Fin 2) * 512 + 1 * (y 1).val = (y 1).val; omega
  · -- row (2048 t + k, j) of the table is where the output block's element (k, j) sits
    show _ = Cert.Spec.gathered (V c main_v25) (V c main_arg0) bid (((cfg1.win 3).blk t).view.emb y)
    refine congrArg (Cert.Spec.gathered (V c main_v25) (V c main_arg0) bid) (funext fun a => Fin.ext ?_)
    match a with
    | ⟨0, _⟩ => show 2048 * t.val + (y 0).val = win1_3.index t (0 : Fin 2) * 2048 + 1 * (y 0).val; omega
    | ⟨1, _⟩ => show (y 1).val = win1_3.index t (1 : Fin 2) * 512 + 1 * (y 1).val; omega
end

/-! ## From the blocks to the array -/

/-- An index of the table is in point t's output block iff each coordinate is in the block's range on its axis. -/
theorem mem_outBlock (t : Fin cfg1.N) (i : S262144x512.Idx) :
    i ∈ ((cfg1.win 3).blk t).view.set ↔ ∀ a : Fin 2, win1_3.index t a * S2048x512.size a ≤ (i a).val ∧ (i a).val < win1_3.index t a * S2048x512.size a + S2048x512.size a := by
  show i ∈ ((View.whole main_v26).slice (win1_3.rect t)).set ↔ _
  rw [View.set_slice_whole, Rect.mem_set_unit]
  exact Iff.rfl

/-- Every index of the table is in the output block of a point that writes back: row r is in block r / 2048. -/
theorem rows_covered (i : S262144x512.Idx) :
    ∃ t : Fin cfg1.N, (cfg1.win 3).flush t = true ∧ i ∈ ((cfg1.win 3).blk t).view.set := by
  have hi0 : (i 0).val < 262144 := (i 0).isLt
  have hi1 : (i 1).val < 512 := (i 1).isLt
  obtain ⟨t, ht⟩ : ∃ t : Fin cfg1.N, t.val = (i 0).val / 2048 :=
    ⟨⟨(i 0).val / 2048, by show (i 0).val / 2048 < 128; omega⟩, rfl⟩
  obtain ⟨-, -, -, -, -, -, e30, e31⟩ := block_indices t
  refine ⟨t, flush1_3 t, ?_⟩
  rw [mem_outBlock]
  intro a
  match a with
  | ⟨0, _⟩ => show win1_3.index t (0 : Fin 2) * 2048 ≤ (i 0).val ∧ (i 0).val < win1_3.index t (0 : Fin 2) * 2048 + 2048; omega
  | ⟨1, _⟩ => show win1_3.index t (1 : Fin 2) * 512 ≤ (i 1).val ∧ (i 1).val < win1_3.index t (1 : Fin 2) * 512 + 512; omega

/-- REGION 1'S OUTPUT ARRAY after every point's write-back: every row of the node table times its segment's gate row. -/
theorem region1_array (V : (c : Dev nD) → (b : Ref sig .tc) → Buf (Elt Ideal) ((c : Thread nD τ).loc b)) (c : Dev nD) (bid : IVec Cert.Spec.SN 32) (hr : Cert.Spec.InRange bid)
    (hB : ∀ n : Fin 262144, (V c main_v0 : S1x262144.Idx → BitVec 32) (ValueIdx.ix2 (0 : Fin 1) n) = bid (ValueIdx.ix1 n)) :
    (Cert.KernelIdeal.R1.dat1 (F := Ideal) V c).arrAt 3 cfg1.N = Cert.Spec.gathered (V c main_v25) (V c main_arg0) bid :=
  (Cert.KernelIdeal.R1.dat1 (F := Ideal) V c).arrAt_eq_of_cover 3 (Cert.Spec.gathered (V c main_v25) (V c main_arg0) bid)
    (fun t _ => writeback_eq V c bid hr hB t) rows_covered

end Cert.KernelIdeal.R1Value

end
-- ==== Proof.HostValue.lean ====
/-
  What the host computes between the two kernel regions, over the extended reals.

  The first region leaves, per core cc, segment s and feature j, the sum of that core's rows of segment s, and, on
  every lane, the number of those rows (each row counted as the word for one). The host adds the two cores' tables
  entry by entry (a reduction over the leading axis of extent two, started from the zero word), reads the added
  counts on lane 0, raises them to at least one, spreads them over the features and divides. The rows split into
  two halves of 131072, one per core, so the two cores' sums add up to the sum over all rows: the quotient is
  segsum / den, the segment means.
  From the quotient a chain of host operations (an affine layer, a rectifier, a second affine layer, the logistic
  function) makes the gate table. The chain is carried as ONE function, gateK, written operation by operation as the
  program has it, and is never opened: the statement is that the gate table is gateK of the segment means and of the
  four weight arrays as launched.
  Beside it: the segment-id vector reshaped to one row reads, at (0, n), the vector at n, before the first region
  and before the second; and nothing writes the node table.
-/
import proofs.«409112_j63488206570149_3_alg».proof.Proof.Gen.KernelIdeal.Regions
import proofs.«409112_j63488206570149_3_alg».proof.Proof.Spec
import proofs.«409112_j63488206570149_3_alg».proof.Proof.LibMoments
import Idealize.ShloMosaic.Lib.StableHlo.Run
import Idealize.ShloMosaic.Lib.IdealHost
import Idealize.ShloMosaic.Lib.ValueLayout
import Idealize.ShloMosaic.PureOps.Ideal.Laws

noncomputable section

namespace Cert.KernelIdeal.HostValue

open Cert.KernelIdeal Cert.KernelIdeal.Gen
open Idealize.ShloMosaic Idealize.ShloMosaic.TcCoe Idealize.ShloMosaic.ValueIdx
open scoped BigOperators

/-- The gate chain: from the segment means and the two layers' weights and biases, the gate table.
    cV @ W1ᵀ + b1, its positive part, that @ W2ᵀ + b2, and 1 / (1 + exp(−·)) of it, entry by entry. -/
def gateK (cV : FVec Ideal S64x512 .f32) (W1 : FVec Ideal S512x512 .f32) (b1 : FVec Ideal S512 .f32)
    (W2 : FVec Ideal S512x512 .f32) (b2 : FVec Ideal S512 .f32) : FVec Ideal S64x512 .f32 :=
  Host.divf (F := Ideal)
    (broadcastInDim S64x512 ![] bcast_S_S64x512 (constant (F := Ideal) S_ .f32 0x3F800000#32))
    (addf
      (broadcastInDim S64x512 ![] bcast_S_S64x512 (constant (F := Ideal) S_ .f32 0x3F800000#32))
      (Host.exp (F := Ideal)
        (Host.negf (F := Ideal)
          (addf
            (Host.dotGeneral (F := Ideal) dot_S64x512_S512x512_S64x512_1_0_0_1_n_n none
              (maximumf
                (addf
                  (Host.dotGeneral (F := Ideal) dot_S64x512_S512x512_S64x512_1_0_0_1_n_n none cV
                    (transpose S512x512 [1, 0] W1 transposes_S512x512_S512x512_1_0))
                  (broadcastInDim S64x512 ![0, 1] bcast_S1x512_S64x512_0_1
                    (broadcastInDim S1x512 ![1] bcast_S512_S1x512_1 b1)))
                (broadcastInDim S64x512 ![] bcast_S_S64x512 (constant (F := Ideal) S_ .f32 0x00000000#32)))
              (transpose S512x512 [1, 0] W2 transposes_S512x512_S512x512_1_0))
            (broadcastInDim S64x512 ![0, 1] bcast_S1x512_S64x512_0_1
              (broadcastInDim S1x512 ![1] bcast_S512_S1x512_1 b2))))))

variable (m : (ℓ : Loc nD τ sig) → Buf (Elt Ideal) ℓ) (outs : Gen.Outs (F := Ideal)) (c : Dev nD)

set_option quotPrecheck false
local notation "A0" => m ((c.tc : Thread nD τ).loc main_arg0)
local notation "A1" => m ((c.tc : Thread nD τ).loc main_arg1)
local notation "A2" => m ((c.tc : Thread nD τ).loc main_arg2)
local notation "A3" => m ((c.tc : Thread nD τ).loc main_arg3)
local notation "A4" => m ((c.tc : Thread nD τ).loc main_arg4)
local notation "A5" => m ((c.tc : Thread nD τ).loc main_arg5)

/-- The divided table: the two cores' partial sums added, over the two cores' partial counts added, read on lane 0,
    raised to at least one and spread over the features. -/
def cVof (S : FVec Ideal S2x64x512 .f32) (C : FVec Ideal S2x64x128 .f32) : FVec Ideal S64x512 .f32 :=
  Host.divf (F := Ideal)
    (Host.reduceAdd (F := Ideal) S (constant (F := Ideal) S_ .f32 0x00000000#32) reducesTo_S2x64x512_S64x512_d0 h_S_)
    (broadcastInDim S64x512 ![0, 1] bcast_S64x1_S64x512_0_1
      (maximumf
        (extractStridedSlice S64x1 ![0, 0]
          (Host.reduceAdd (F := Ideal) C (constant (F := Ideal) S_ .f32 0x00000000#32) reducesTo_S2x64x128_S64x128_d0 h_S_)
          slices_S64x128_S64x1_0_0)
        (broadcastInDim S64x1 ![] bcast_S_S64x1 (constant (F := Ideal) S_ .f32 0x3F800000#32))))

/-- The first affine layer before its rectifier. -/
def preK (cV : FVec Ideal S64x512 .f32) (W1 : FVec Ideal S512x512 .f32) (b1 : FVec Ideal S512 .f32) : FVec Ideal S64x512 .f32 :=
  addf
    (Host.dotGeneral (F := Ideal) dot_S64x512_S512x512_S64x512_1_0_0_1_n_n none cV
      (transpose S512x512 [1, 0] W1 transposes_S512x512_S512x512_1_0))
    (broadcastInDim S64x512 ![0, 1] bcast_S1x512_S64x512_0_1
      (broadcastInDim S1x512 ![1] bcast_S512_S1x512_1 b1))

/-- The rectifier. -/
def reluK (x : FVec Ideal S64x512 .f32) : FVec Ideal S64x512 .f32 :=
  maximumf x (broadcastInDim S64x512 ![] bcast_S_S64x512 (constant (F := Ideal) S_ .f32 0x00000000#32))

/-- The second affine layer and the logistic function. -/
def postK (hd : FVec Ideal S64x512 .f32) (W2 : FVec Ideal S512x512 .f32) (b2 : FVec Ideal S512 .f32) : FVec Ideal S64x512 .f32 :=
  Host.divf (F := Ideal)
    (broadcastInDim S64x512 ![] bcast_S_S64x512 (constant (F := Ideal) S_ .f32 0x3F800000#32))
    (addf
      (broadcastInDim S64x512 ![] bcast_S_S64x512 (constant (F := Ideal) S_ .f32 0x3F800000#32))
      (Host.exp (F := Ideal)
        (Host.negf (F := Ideal)
          (addf
            (Host.dotGeneral (F := Ideal) dot_S64x512_S512x512_S64x512_1_0_0_1_n_n none hd
              (transpose S512x512 [1, 0] W2 transposes_S512x512_S512x512_1_0))
            (broadcastInDim S64x512 ![0, 1] bcast_S1x512_S64x512_0_1
              (broadcastInDim S1x512 ![1] bcast_S512_S1x512_1 b2))))))

theorem gateK_eq (cV : FVec Ideal S64x512 .f32) (W1 : FVec Ideal S512x512 .f32) (b1 : FVec Ideal S512 .f32)
    (W2 : FVec Ideal S512x512 .f32) (b2 : FVec Ideal S512 .f32) :
    gateK cV W1 b1 W2 b2 = postK (reluK (preK cV W1 b1)) W2 b2 := rfl

/-! ## Each stretch of host operations read at its last result, from any contents -/

section After
variable (W : Valuation τ sig (Elt Ideal))

/-- The first stretch: the added tables divided, through the first affine layer. -/
theorem after1_v13 :
    (StableHlo.after (hostOps1 (F := Ideal)) W (Proc.devRef .tc main_v13) : FVec Ideal S64x512 .f32)
      = preK (cVof (W (Proc.devRef .tc main_v1_0)) (W (Proc.devRef .tc main_v1_1)))
          (W (Proc.devRef .tc main_arg2)) (W (Proc.devRef .tc main_arg3)) := by
  dsimp only [hostOps1]; after_results; rfl

/-- The second stretch: the rectifier. -/
theorem after11_v14 :
    (StableHlo.after (hostOps1_1 (F := Ideal)) W (Proc.devRef .tc main_v14) : FVec Ideal S64x512 .f32)
      = reluK (W (Proc.devRef .tc main_v13)) := by
  dsimp only [hostOps1_1]; after_results; rfl

/-- The third stretch: the second affine layer and the logistic function. -/
theorem after12_v25 :
    (StableHlo.after (hostOps1_2 (F := Ideal)) W (Proc.devRef .tc main_v25) : FVec Ideal S64x512 .f32)
      = postK (W (Proc.devRef .tc main_v14)) (W (Proc.devRef .tc main_arg4)) (W (Proc.devRef .tc main_arg5)) := by
  dsimp only [hostOps1_2]; after_results; rfl

end After

/-- The two halves of the rows: core 0's sum plus core 1's sum is the sum over all rows. -/
theorem partSum_add (h : Cert.Spec.SNH.Idx → EReal) (bid : IVec Cert.Spec.SN 32) (s : Fin 64) (j : Fin 512) :
    Cert.Spec.partSum h bid 0 s j + Cert.Spec.partSum h bid 1 s j = Cert.Spec.segsum h bid (ValueIdx.ix2 s j) := by
  have e := Cert.Moments.sum_blocks (M := EReal) 2 131072
    (fun n : Fin 262144 => if (Cert.Spec.segOf (bid (ix1 n))).val = s.val then h (ix2 n j) else 0)
  rw [Fin.sum_univ_two] at e
  exact e

/-- Likewise for the row counts. -/
theorem partCount_add (bid : IVec Cert.Spec.SN 32) (s : Fin 64) :
    Cert.Spec.partCount bid 0 s + Cert.Spec.partCount bid 1 s = Cert.Spec.count bid s := by
  have e := Cert.Moments.sum_blocks (M := EReal) 2 131072
    (fun n : Fin 262144 => if (Cert.Spec.segOf (bid (ix1 n))).val = s.val then Cert.Spec.one32 else 0)
  rw [Fin.sum_univ_two] at e
  exact e

/-- Nothing before the first region writes the node table. -/
theorem V1_rows : Gen.V1 m c main_arg0 = A0 :=
  Gen.V1_of m c main_arg0 (by decide)

/-- Nothing before the second region writes the node table. -/
theorem V5_rows : Gen.V5 m outs c main_arg0 = A0 :=
  (Gen.V5_of m outs c main_arg0 (by decide)).trans <| (Gen.V4_of m outs c main_arg0 (by decide)).trans <|
    (Gen.V3_of m outs c main_arg0 (by decide)).trans <| (Gen.V2_of m outs c main_arg0 (by decide)).trans <|
    Gen.V1_of m c main_arg0 (by decide)

/-- The segment-id vector reshaped to one row reads, at (0, n), the vector at n. -/
theorem V1_ids (n : Fin 262144) :
    (Gen.V1 m c main_v0 : S1x262144.Idx → BitVec 32) (ValueIdx.ix2 (0 : Fin 1) n) = A1 (ValueIdx.ix1 n) := by
  have e : (Gen.V1 m c main_v0 : S1x262144.Idx → BitVec 32)
      = shapeCast S1x262144 (A1 : S262144.Idx → BitVec 32) shapeCasts_S262144_S1x262144 := by
    dsimp only [Gen.V1, Gen.hostOps0]; after_results; rfl
  rw [e]
  exact shapeCast_a_1a_apply _ _ 0 n

/-- The reshaped segment-id row is still that before the second region. -/
theorem V5_ids (n : Fin 262144) :
    (Gen.V5 m outs c main_v0 : S1x262144.Idx → BitVec 32) (ValueIdx.ix2 (0 : Fin 1) n) = A1 (ValueIdx.ix1 n) := by
  have e : Gen.V5 m outs c main_v0 = Gen.V1 m c main_v0 :=
    (Gen.V5_of m outs c main_v0 (by decide)).trans <| (Gen.V4_of m outs c main_v0 (by decide)).trans <|
      (Gen.V3_of m outs c main_v0 (by decide)).trans (Gen.V2_of m outs c main_v0 (by decide))
  rw [e]
  exact V1_ids m c n

/-- Adding the two cores' tables entry by entry and dividing: the segment sums over the divisor table. -/
theorem cVof_eq (h : Cert.Spec.SNH.Idx → EReal) (bid : IVec Cert.Spec.SN 32) :
    cVof (fun i : S2x64x512.Idx => Cert.Spec.partSum h bid (i 0) (i 1) (i 2))
        (fun i : S2x64x128.Idx => Cert.Spec.partCount bid (i 0) (i 1))
      = Host.divf (F := Ideal) (Cert.Spec.segsum h bid) (Cert.Spec.den bid) := by
  unfold cVof
  refine congrArg₂ (Host.divf (F := Ideal)) ?_ ?_
  · -- the sums: the reduction over the leading axis of extent two is the zero word plus the two cores' entries
    funext j
    refine (hostReduceAdd_apply _ _ _ _ j).trans ?_
    refine (Ideal.hostReduceAdd_single _ (by decide : S2x64x512.Reduces [0] S64x512) _ _ j).trans ?_
    rw [constant_apply, Ideal.ofBits_zero_f32, zero_add]
    refine (Fin.sum_univ_two _).trans ?_
    refine (partSum_add h bid (j 0) (j 1)).trans ?_
    exact congrArg (Cert.Spec.segsum h bid) (eq_ix2 j).symm
  · -- the divisors: lane 0 of the added counts, raised to at least one, on every feature
    funext j
    refine (broadcastInDim_apply ![0, 1] bcast_S64x1_S64x512_0_1 _ j (ix2 (j 0) (0 : Fin 1))
      (fun a => by match a with | ⟨0, _⟩ => rfl | ⟨1, _⟩ => rfl)).trans ?_
    refine (maximumf_apply _ _ _).trans ?_
    refine congrArg₂ max ?_ ?_
    · refine (extractStridedSlice_apply ![0, 0] _ slices_S64x128_S64x1_0_0 (ix2 (j 0) (0 : Fin 1)) (ix2 (j 0) (0 : Fin 128))
        (fun a => by match a with | ⟨0, _⟩ => exact (Nat.zero_add _).symm | ⟨1, _⟩ => rfl)).trans ?_
      refine (hostReduceAdd_apply _ _ _ _ _).trans ?_
      refine (Ideal.hostReduceAdd_single _ (by decide : S2x64x128.Reduces [0] S64x128) _ _ _).trans ?_
      rw [constant_apply, Ideal.ofBits_zero_f32, zero_add]
      refine (Fin.sum_univ_two _).trans ?_
      exact partCount_add bid (j 0)
    · refine (broadcastInDim_scalar_apply _ _ _).trans ?_
      exact constant_apply _ _

/-- The gate table the host computes between the two regions: the shared chain applied to the segment means. -/
theorem V5_gate
    (hS : outs 2 main_v1_0 c = fun i : S2x64x512.Idx => Cert.Spec.partSum A0 A1 (i 0) (i 1) (i 2))
    (hC : outs 2 main_v1_1 c = fun i : S2x64x128.Idx => Cert.Spec.partCount A1 (i 0) (i 1)) :
    Gen.V5 m outs c main_v25 = gateK (Host.divf (F := Ideal) (Cert.Spec.segsum A0 A1) (Cert.Spec.den A1)) A2 A3 A4 A5 := by
  -- the arguments reach every stretch as launched
  have a2 : Gen.V2 m outs c main_arg2 = A2 := (Gen.V2_of m outs c main_arg2 (by decide)).trans (Gen.V1_of m c main_arg2 (by decide))
  have a3 : Gen.V2 m outs c main_arg3 = A3 := (Gen.V2_of m outs c main_arg3 (by decide)).trans (Gen.V1_of m c main_arg3 (by decide))
  have a4 : Gen.V4 m outs c main_arg4 = A4 :=
    (Gen.V4_of m outs c main_arg4 (by decide)).trans <| (Gen.V3_of m outs c main_arg4 (by decide)).trans <|
      (Gen.V2_of m outs c main_arg4 (by decide)).trans (Gen.V1_of m c main_arg4 (by decide))
  have a5 : Gen.V4 m outs c main_arg5 = A5 :=
    (Gen.V4_of m outs c main_arg5 (by decide)).trans <| (Gen.V3_of m outs c main_arg5 (by decide)).trans <|
      (Gen.V2_of m outs c main_arg5 (by decide)).trans (Gen.V1_of m c main_arg5 (by decide))
  -- the first region's two results
  have o1 : Gen.V2 m outs c main_v1_1 = outs 2 main_v1_1 c := Function.update_self _ _ _
  have o0 : Gen.V2 m outs c main_v1_0 = outs 2 main_v1_0 c :=
    (Function.update_of_ne (StableHlo.devRef_ne_of_ne (by decide)) _ _).trans (Function.update_self _ _ _)
  -- the three stretches, one after the other
  have e13 : Gen.V3 m outs c main_v13
      = preK (Host.divf (F := Ideal) (Cert.Spec.segsum A0 A1) (Cert.Spec.den A1)) A2 A3 := by
    refine (after1_v13 (Gen.V2 m outs c)).trans ?_
    rw [a2, a3, o0, o1, hS, hC, cVof_eq]
  have e14 : Gen.V4 m outs c main_v14
      = reluK (preK (Host.divf (F := Ideal) (Cert.Spec.segsum A0 A1) (Cert.Spec.den A1)) A2 A3) := by
    refine (after11_v14 (Gen.V3 m outs c)).trans ?_
    rw [e13]
  refine (after12_v25 (Gen.V4 m outs c)).trans ?_
  rw [e14, a4, a5, gateK_eq]

end Cert.KernelIdeal.HostValue

end
-- ==== Proof.KValue.lean ====
/-
  The idealized kernel's result as the common specification: what region 1's write-backs leave in the result
  buffer, read back through the host operations to the arguments.

  Region 0 leaves per core the sums and the row counts of that core's half of the rows; the host adds the two
  halves, so it divides the per-segment sums by the per-segment counts (at least one), and the gate table is the
  shared chain of that quotient; region 1 leaves every row times the gate row of its segment.
-/
import proofs.«409112_j63488206570149_3_alg».proof.Proof.Run
import proofs.«409112_j63488206570149_3_alg».proof.Proof.R0Value
import proofs.«409112_j63488206570149_3_alg».proof.Proof.R1Value
import proofs.«409112_j63488206570149_3_alg».proof.Proof.HostValue

noncomputable section

namespace Cert.KernelIdeal.KValue

open Cert.KernelIdeal Cert.KernelIdeal.Gen
open Idealize.ShloMosaic Idealize.ShloMosaic.TcCoe Idealize.SL.Sem

variable (m : (ℓ : Loc nD τ sig) → Buf (Elt Ideal) ℓ) (c : Dev nD)

/-- Region 0's first result: per core, segment and feature the sum of the core's rows of the segment. -/
theorem sums_left (hr : Cert.Spec.InRange (m ((c.tc : Thread nD τ).loc main_arg1))) :
    Run.outs m 2 main_v1_0 c = fun i : S2x64x512.Idx =>
      Cert.Spec.partSum (m ((c.tc : Thread nD τ).loc main_arg0)) (m ((c.tc : Thread nD τ).loc main_arg1)) (i 0) (i 1) (i 2) := by
  refine (Run.exit0_arr m c 2).trans ?_
  rw [R0Value.region0_sum_array (V := Run.entry0 m) (bid := m ((c.tc : Thread nD τ).loc main_arg1)) c hr (HostValue.V1_ids m c)]
  funext i
  exact congrArg (fun h => Cert.Spec.partSum h (m ((c.tc : Thread nD τ).loc main_arg1)) (i 0) (i 1) (i 2)) (HostValue.V1_rows m c)

/-- Region 0's second result: per core and segment the number of the core's rows of the segment, on every lane. -/
theorem counts_left (hr : Cert.Spec.InRange (m ((c.tc : Thread nD τ).loc main_arg1))) :
    Run.outs m 2 main_v1_1 c = fun i : S2x64x128.Idx =>
      Cert.Spec.partCount (m ((c.tc : Thread nD τ).loc main_arg1)) (i 0) (i 1) :=
  (Run.exit0_arr m c 3).trans
    (R0Value.region0_count_array (V := Run.entry0 m) (bid := m ((c.tc : Thread nD τ).loc main_arg1)) c hr (HostValue.V1_ids m c))

/-- The result buffer after the run: every row times the gate row of its segment. -/
theorem result_eq (hr : Cert.Spec.InRange (m ((c.tc : Thread nD τ).loc main_arg1))) :
    Run.outs m 6 main_v26 c
      = Cert.Spec.gathered
          (HostValue.gateK (Host.divf (F := Ideal) (Cert.Spec.segsum (m ((c.tc : Thread nD τ).loc main_arg0)) (m ((c.tc : Thread nD τ).loc main_arg1)))
              (Cert.Spec.den (m ((c.tc : Thread nD τ).loc main_arg1))))
            (m ((c.tc : Thread nD τ).loc main_arg2)) (m ((c.tc : Thread nD τ).loc main_arg3))
            (m ((c.tc : Thread nD τ).loc main_arg4)) (m ((c.tc : Thread nD τ).loc main_arg5)))
          (m ((c.tc : Thread nD τ).loc main_arg0)) (m ((c.tc : Thread nD τ).loc main_arg1)) := by
  refine (Run.exit1_arr m c 3).trans ?_
  rw [R1Value.region1_array (Run.entry1 m) c (m ((c.tc : Thread nD τ).loc main_arg1)) hr (HostValue.V5_ids m (Run.outs m) c)]
  have hg := HostValue.V5_gate m (Run.outs m) c (sums_left m c hr) (counts_left m c hr)
  have hh := HostValue.V5_rows m (Run.outs m) c
  show Cert.Spec.gathered (V5 m (Run.outs m) c main_v25) (V5 m (Run.outs m) c main_arg0) _ = _
  rw [hg, hh]

end Cert.KernelIdeal.KValue

end
-- ==== Proof.LibScatterRows.lean ====
import Mathlib.Data.EReal.Basic
import Mathlib.Algebra.BigOperators.Group.Finset.Basic
import Idealize.ShloMosaic.PureOps.Ideal
import Idealize.ShloMosaic.Lib.ValueIdx
import Idealize.ShloMosaic.Lib.StableHlo.Predicate

/-!
# Row scatters and row gathers read at an index

A scatter whose indices are an [n × 1] column of row numbers adds update row `e` onto operand row
`idx e` (read signed; a row number outside the operand drops the update), and a gather whose start
indices are such a column reads operand row `idx e` (read signed and clamped into the operand).
Read at one element, each is a sum, or a single read, over the positions `e` of the column.
-/

open scoped BigOperators
open Idealize.ShloMosaic Idealize.ShloMosaic.ValueIdx Idealize.ShloMosaic.StableHlo.Predicate

noncomputable section

namespace Cert.ScatterRows

/-- An entry of a one-element list is that element. -/
theorem getElem_of_eq_singleton {α : Type} (l : List α) (a : α) (k : Nat) (h : k < l.length) (hl : l = [a]) :
    l[k] = a := by
  subst hl
  have hk : k = 0 := by simpa using h
  subst hk; rfl

section Vec
variable {N n w : Nat} (d : ScatterDims ⟨1, ![N]⟩ ⟨2, ![n, 1]⟩ ⟨1, ![n]⟩)

/-- The scatter-indices position an update entry reads: row `j 0` of the column. -/
theorem vec_siIdx (hsd : d.scatterDimsToOperandDims = [0]) (hivd : d.indexVectorDim = 1)
    (j : (⟨1, ![n]⟩ : Shape).Idx) (c : Fin d.scatterDimsToOperandDims.length) :
    d.siIdx j c = ixP (j 0) := by
  funext b
  match b with
  | ⟨0, _⟩ =>
    unfold ScatterDims.siIdx
    rw [dif_neg (by rw [hivd]; simp)]
    unfold ScatterDims.siCoord
    apply Fin.ext
    simp only [Fin.val_cast]
    -- the updates have one axis, so whichever of their axes is read it is that one
    have e : ∀ X : Fin 1, (j X).val = (j 0).val := fun X => by
      have hX : X = 0 := Subsingleton.elim _ _
      subst hX; rfl
    exact e _
  | ⟨1, _⟩ =>
    unfold ScatterDims.siIdx
    rw [dif_pos (by rw [hivd])]
    apply Fin.ext
    have hc : c.val < d.scatterDimsToOperandDims.length := c.isLt
    have hl : d.scatterDimsToOperandDims.length = 1 := by rw [hsd]; rfl
    show c.val = 0
    omega

/-- The window starts at the update's position, read signed. -/
theorem vec_start0 (hsd : d.scatterDimsToOperandDims = [0]) (hivd : d.indexVectorDim = 1)
    (j : (⟨1, ![n]⟩ : Shape).Idx) (idx : IVec ⟨2, ![n, 1]⟩ w) :
    d.start j idx 0 = (idx (ixP (j 0))).toInt := by
  have hm : (0 : Fin 1) ∈ d.scatterDimsToOperandDims := by rw [hsd]; exact List.mem_singleton.mpr rfl
  unfold ScatterDims.start
  rw [dif_pos hm, vec_siIdx d hsd hivd]
  rfl

/-- The operand's one axis is an inserted one: no window coordinate is added. -/
theorem vec_window0 (hiw : d.insertedWindowDims = [0]) (j : (⟨1, ![n]⟩ : Shape).Idx) :
    d.window j 0 = 0 := by
  have hk : (0 : Fin 1) ∉ d.sKept := by
    show (0 : Fin 1) ∉ Shape.kept _ d.insertedWindowDims
    rw [hiw]; simp [Shape.kept]
  unfold ScatterDims.window
  rw [dif_neg hk]

/-- Where an update entry lands: update entry `j` lands on operand entry `i` exactly when its position, read
    signed, is `i`. -/
theorem vec_resultIdx (hiw : d.insertedWindowDims = [0])
    (hsd : d.scatterDimsToOperandDims = [0]) (hivd : d.indexVectorDim = 1)
    (j : (⟨1, ![n]⟩ : Shape).Idx) (idx : IVec ⟨2, ![n, 1]⟩ w) (i : Fin N) :
    d.resultIdx? j idx = some (ix1 i) ↔ (idx (ixP (j 0))).toInt = (i.val : Int) := by
  have h0 := vec_start0 d hsd hivd j idx
  have w0 := vec_window0 d hiw j
  have hi : i.val < N := i.isLt
  unfold ScatterDims.resultIdx?
  constructor
  · intro h
    split at h
    · next hr =>
      have hf := Option.some.inj h
      have e0 : (d.start j idx 0 + (d.window j 0 : Int)).toNat = i.val := congrArg (fun f => (f 0).val) hf
      have r0 := (hr 0).1
      rw [h0, w0] at e0 r0
      omega
    · exact absurd h (by simp)
  · intro hz
    have hr : ∀ a, 0 ≤ d.start j idx a + (d.window j a : Int) ∧
        d.start j idx a + (d.window j a : Int) < ((⟨1, ![N]⟩ : Shape).size a : Int) := by
      intro a
      match a with
      | ⟨0, _⟩ =>
        show 0 ≤ d.start j idx 0 + (d.window j 0 : Int) ∧ d.start j idx 0 + (d.window j 0 : Int) < (N : Int)
        rw [h0, w0, hz]; omega
    rw [dif_pos hr]
    congr 1
    funext a
    apply Fin.ext
    match a with
    | ⟨0, _⟩ =>
      show (d.start j idx 0 + (d.window j 0 : Int)).toNat = i.val
      rw [h0, w0, hz]; omega

end Vec

/-- A rank-1 index set is its one coordinate's range. -/
def idxEquiv1 {n : Nat} : (⟨1, ![n]⟩ : Shape).Idx ≃ Fin n where
  toFun a := a 0
  invFun e := ix1 e
  left_inv a := (eq_ix1 a).symm
  right_inv _ := rfl

/-- An accumulating scatter of a vector of `n` updates onto a vector of `N` entries along an
    [n × 1] column of positions: entry `i` ends at its old value plus the sum of the updates whose
    position, read signed, is `i`. -/
theorem hostScatterAdd_vec {N n w : Nat} (d : ScatterDims ⟨1, ![N]⟩ ⟨2, ![n, 1]⟩ ⟨1, ![n]⟩)
    (huw : d.updateWindowDims = []) (hiw : d.insertedWindowDims = [0])
    (hsd : d.scatterDimsToOperandDims = [0]) (hivd : d.indexVectorDim = 1)
    (x : (⟨1, ![N]⟩ : Shape).Idx → EReal) (idx : IVec ⟨2, ![n, 1]⟩ w)
    (upd : (⟨1, ![n]⟩ : Shape).Idx → EReal) (i : Fin N) :
    Ideal.hostScatterAdd d x idx upd (ix1 i)
      = x (ix1 i) + ∑ e : Fin n, if (idx (ixP e)).toInt = (i.val : Int) then upd (ix1 e) else 0 := by
  unfold Ideal.hostScatterAdd
  congr 1
  rw [Finset.sum_filter]
  simp only [vec_resultIdx d hiw hsd hivd]
  refine Fintype.sum_equiv idxEquiv1 _ _ fun a => ?_
  show _ = (if (idx (ixP (a 0))).toInt = (i.val : Int) then upd (ix1 (a 0)) else 0)
  rw [congrArg upd (eq_ix1 a)]
  rfl

section Rows
variable {N D n w : Nat} (d : ScatterDims ⟨2, ![N, D]⟩ ⟨2, ![n, 1]⟩ ⟨2, ![n, D]⟩)

/-- The scatter-indices position an update row reads: row `j 0` of the column. -/
theorem rows_siIdx (huw : d.updateWindowDims = [1]) (hsd : d.scatterDimsToOperandDims = [0])
    (hivd : d.indexVectorDim = 1) (j : (⟨2, ![n, D]⟩ : Shape).Idx) (c : Fin d.scatterDimsToOperandDims.length) :
    d.siIdx j c = ixP (j 0) := by
  have husc : d.uScatter = [0] := by
    show Shape.kept _ d.updateWindowDims = [0]
    rw [huw]; rfl
  funext b
  match b with
  | ⟨0, _⟩ =>
    unfold ScatterDims.siIdx
    rw [dif_neg (by rw [hivd]; simp)]
    unfold ScatterDims.siCoord
    apply Fin.ext
    simp only [Fin.val_cast]
    rw [getElem_of_eq_singleton _ _ _ _ husc]
  | ⟨1, _⟩ =>
    unfold ScatterDims.siIdx
    rw [dif_pos (by rw [hivd])]
    apply Fin.ext
    have hc : c.val < d.scatterDimsToOperandDims.length := c.isLt
    have hl : d.scatterDimsToOperandDims.length = 1 := by rw [hsd]; rfl
    show c.val = 0
    omega

/-- On the row axis the window starts at the update's row number, read signed. -/
theorem rows_start0 (huw : d.updateWindowDims = [1]) (hsd : d.scatterDimsToOperandDims = [0])
    (hivd : d.indexVectorDim = 1) (j : (⟨2, ![n, D]⟩ : Shape).Idx) (idx : IVec ⟨2, ![n, 1]⟩ w) :
    d.start j idx 0 = (idx (ixP (j 0))).toInt := by
  have hm : (0 : Fin 2) ∈ d.scatterDimsToOperandDims := by rw [hsd]; exact List.mem_singleton.mpr rfl
  unfold ScatterDims.start
  rw [dif_pos hm, rows_siIdx d huw hsd hivd]
  rfl

/-- On the column axis, which the scatter indices do not address, the window starts at `0`. -/
theorem rows_start1 (hsd : d.scatterDimsToOperandDims = [0])
    (j : (⟨2, ![n, D]⟩ : Shape).Idx) (idx : IVec ⟨2, ![n, 1]⟩ w) :
    d.start j idx 1 = 0 := by
  have hm : (1 : Fin 2) ∉ d.scatterDimsToOperandDims := by rw [hsd]; simp
  unfold ScatterDims.start
  rw [dif_neg hm]

/-- The row axis is an inserted one: no window coordinate is added there. -/
theorem rows_window0 (hiw : d.insertedWindowDims = [0]) (j : (⟨2, ![n, D]⟩ : Shape).Idx) :
    d.window j 0 = 0 := by
  have hk : (0 : Fin 2) ∉ d.sKept := by
    show (0 : Fin 2) ∉ Shape.kept _ d.insertedWindowDims
    rw [hiw]; simp [Shape.kept]
  unfold ScatterDims.window
  rw [dif_neg hk]

/-- On the column axis the window coordinate is the update's own column. -/
theorem rows_window1 (huw : d.updateWindowDims = [1]) (hiw : d.insertedWindowDims = [0])
    (j : (⟨2, ![n, D]⟩ : Shape).Idx) :
    d.window j 1 = (j 1).val := by
  have hk : (1 : Fin 2) ∈ d.sKept := by
    show (1 : Fin 2) ∈ Shape.kept _ d.insertedWindowDims
    rw [hiw]; simp [Shape.kept]
  unfold ScatterDims.window
  rw [dif_pos hk, getElem_of_eq_singleton _ _ _ _ huw]

/-- Where an update element lands: update element `j` lands on operand element `(i, q)` exactly when its row
    number, read signed, is `i` and its column is `q`. -/
theorem rows_resultIdx (huw : d.updateWindowDims = [1]) (hiw : d.insertedWindowDims = [0])
    (hsd : d.scatterDimsToOperandDims = [0]) (hivd : d.indexVectorDim = 1)
    (j : (⟨2, ![n, D]⟩ : Shape).Idx) (idx : IVec ⟨2, ![n, 1]⟩ w) (i : Fin N) (q : Fin D) :
    d.resultIdx? j idx = some (ix2 i q) ↔ (idx (ixP (j 0))).toInt = (i.val : Int) ∧ (j 1).val = q.val := by
  have h0 := rows_start0 d huw hsd hivd j idx
  have h1 := rows_start1 d hsd j idx
  have w0 := rows_window0 d hiw j
  have w1 := rows_window1 d huw hiw j
  have hj1 : (j 1).val < D := idx2_lt1 j
  have hi : i.val < N := i.isLt
  unfold ScatterDims.resultIdx?
  constructor
  · intro h
    split at h
    · next hr =>
      have hf := Option.some.inj h
      have e0 : (d.start j idx 0 + (d.window j 0 : Int)).toNat = i.val := congrArg (fun f => (f 0).val) hf
      have e1 : (d.start j idx 1 + (d.window j 1 : Int)).toNat = q.val := congrArg (fun f => (f 1).val) hf
      have r0 := (hr 0).1
      rw [h0, w0] at e0 r0
      rw [h1, w1] at e1
      exact ⟨by omega, by omega⟩
    · exact absurd h (by simp)
  · rintro ⟨hz, hq⟩
    have hr : ∀ a, 0 ≤ d.start j idx a + (d.window j a : Int) ∧
        d.start j idx a + (d.window j a : Int) < ((⟨2, ![N, D]⟩ : Shape).size a : Int) := by
      intro a
      match a with
      | ⟨0, _⟩ =>
        show 0 ≤ d.start j idx 0 + (d.window j 0 : Int) ∧ d.start j idx 0 + (d.window j 0 : Int) < (N : Int)
        rw [h0, w0, hz]; omega
      | ⟨1, _⟩ =>
        show 0 ≤ d.start j idx 1 + (d.window j 1 : Int) ∧ d.start j idx 1 + (d.window j 1 : Int) < (D : Int)
        rw [h1, w1]; omega
    rw [dif_pos hr]
    congr 1
    funext a
    apply Fin.ext
    match a with
    | ⟨0, _⟩ =>
      show (d.start j idx 0 + (d.window j 0 : Int)).toNat = i.val
      rw [h0, w0, hz]; omega
    | ⟨1, _⟩ =>
      show (d.start j idx 1 + (d.window j 1 : Int)).toNat = q.val
      rw [h1, w1]; omega

end Rows

/-- An accumulating scatter of `n` update rows of width `D` onto an [N × D] operand along an
    [n × 1] column of row numbers: element `(i, q)` ends at its old value plus the sum over the
    update rows whose row number, read signed, is `i` of their element `q`. -/
theorem hostScatterAdd_rows {N D n w : Nat} (d : ScatterDims ⟨2, ![N, D]⟩ ⟨2, ![n, 1]⟩ ⟨2, ![n, D]⟩)
    (huw : d.updateWindowDims = [1]) (hiw : d.insertedWindowDims = [0])
    (hsd : d.scatterDimsToOperandDims = [0]) (hivd : d.indexVectorDim = 1)
    (x : (⟨2, ![N, D]⟩ : Shape).Idx → EReal) (idx : IVec ⟨2, ![n, 1]⟩ w)
    (upd : (⟨2, ![n, D]⟩ : Shape).Idx → EReal) (i : Fin N) (q : Fin D) :
    Ideal.hostScatterAdd d x idx upd (ix2 i q)
      = x (ix2 i q) + ∑ e : Fin n, if (idx (ixP e)).toInt = (i.val : Int) then upd (ix2 e q) else 0 := by
  unfold Ideal.hostScatterAdd
  congr 1
  rw [Finset.sum_filter]
  simp only [rows_resultIdx d huw hiw hsd hivd]
  rw [sum_idx2]
  refine Finset.sum_congr rfl fun e _ => ?_
  show (∑ b : Fin D, if (idx (ixP e)).toInt = (i.val : Int) ∧ b.val = q.val then upd (ix2 e b) else 0) = _
  by_cases hz : (idx (ixP e)).toInt = (i.val : Int)
  · simp only [hz, true_and, if_true]
    rw [Finset.sum_eq_single q]
    · rw [if_pos rfl]
    · intro b _ hb; rw [if_neg (fun h => hb (Fin.ext h))]
    · intro h; exact absurd (Finset.mem_univ q) h
  · simp only [hz, false_and, if_false, Finset.sum_const_zero]

section Gather
variable {N D n w : Nat} (d : GatherDims ⟨2, ![N, D]⟩ ⟨2, ![n, 1]⟩ ⟨2, ![n, D]⟩)

/-- The start-indices position a result row reads: row `e` of the column. -/
theorem gather_siIdx (hoff : d.offsetDims = [1]) (hsim : d.startIndexMap = [0]) (hivd : d.indexVectorDim = 1)
    (e : Fin n) (q : Fin D) (c : Fin d.startIndexMap.length) : d.siIdx (ix2 e q) c = ixP e := by
  have hbatch : d.batchDims = [0] := by
    show Shape.kept _ d.offsetDims = [0]
    rw [hoff]; rfl
  funext b
  match b with
  | ⟨0, _⟩ =>
    unfold GatherDims.siIdx
    rw [dif_neg (by rw [hivd]; simp)]
    unfold GatherDims.siCoord
    apply Fin.ext
    simp only [Fin.val_cast]
    rw [getElem_of_eq_singleton _ _ _ _ hbatch]
    rfl
  | ⟨1, _⟩ =>
    unfold GatherDims.siIdx
    rw [dif_pos (by rw [hivd])]
    apply Fin.ext
    have hc : c.val < d.startIndexMap.length := c.isLt
    have hl : d.startIndexMap.length = 1 := by rw [hsim]; rfl
    show c.val = 0
    omega

/-- On the row axis the operand index is the start index, read signed and clamped into `[0, N − 1]`
    (the slice there has size one; no batching or offset coordinate is added). -/
theorem gather_rows_coord0 (hoff : d.offsetDims = [1]) (hcoll : d.collapsedSliceDims = [0])
    (hob : d.operandBatchingDims = []) (hsim : d.startIndexMap = [0]) (hivd : d.indexVectorDim = 1)
    (idx : IVec ⟨2, ![n, 1]⟩ w) (e : Fin n) (q : Fin D) :
    (d.operandIdx (ix2 e q) idx 0).val = min (idx (ixP e)).toInt.toNat (N - 1) := by
  have hb : (0 : Fin 2) ∉ d.operandBatchingDims := by rw [hob]; exact List.not_mem_nil
  have hk : (0 : Fin 2) ∉ d.sKept := by rw [GatherDims.mem_sKept, hcoll]; simp
  have hm : (0 : Fin 2) ∈ d.startIndexMap := by rw [hsim]; exact List.mem_singleton.mpr rfl
  have hsl : d.sliceSizes 0 = 1 := d.slice_collapsed 0 (by rw [hcoll]; exact List.mem_singleton.mpr rfl)
  simp only [GatherDims.operandIdx, GatherDims.batchCoord_eq_zero _ _ _ hb, GatherDims.offCoord_eq_zero _ _ _ hk,
    Nat.add_zero, GatherDims.start, dif_pos hm]
  rw [gather_siIdx d hoff hsim hivd, hsl]
  rfl

/-- On the column axis the operand index is the result's own column: the start is `0` (the axis is not
    start-indexed) and the offset coordinate is the result's second coordinate. -/
theorem gather_rows_coord1 (hoff : d.offsetDims = [1]) (hcoll : d.collapsedSliceDims = [0])
    (hob : d.operandBatchingDims = []) (hsim : d.startIndexMap = [0])
    (idx : IVec ⟨2, ![n, 1]⟩ w) (e : Fin n) (q : Fin D) :
    (d.operandIdx (ix2 e q) idx 1).val = q.val := by
  have hb : (1 : Fin 2) ∉ d.operandBatchingDims := by rw [hob]; exact List.not_mem_nil
  have hk : (1 : Fin 2) ∈ d.sKept := by rw [GatherDims.mem_sKept, hcoll, hob]; simp
  have hm : (1 : Fin 2) ∉ d.startIndexMap := by rw [hsim]; simp
  simp only [GatherDims.operandIdx, GatherDims.batchCoord_eq_zero _ _ _ hb, GatherDims.offCoord, dif_pos hk,
    Nat.add_zero, GatherDims.start, dif_neg hm, Nat.zero_add]
  rw [getElem_of_eq_singleton _ _ _ _ hoff]
  rfl

end Gather

/-- A gather of rows of an [N × D] operand along an [n × 1] column of row numbers: element `(e, q)`
    of the result is the operand's element `q` of the row whose number is position `e`'s, read
    signed and clamped into `[0, N − 1]`. -/
theorem gather_rows {α : Type} {N D n w : Nat} (d : GatherDims ⟨2, ![N, D]⟩ ⟨2, ![n, 1]⟩ ⟨2, ![n, D]⟩)
    (hoff : d.offsetDims = [1]) (hcoll : d.collapsedSliceDims = [0]) (hob : d.operandBatchingDims = [])
    (hsim : d.startIndexMap = [0]) (hivd : d.indexVectorDim = 1) (hss : d.sliceSizes = ![1, D])
    (x : (⟨2, ![N, D]⟩ : Shape).Idx → α) (idx : IVec ⟨2, ![n, 1]⟩ w) (e : Fin n) (q : Fin D) (hN : 0 < N) :
    Host.gather d x idx (ix2 e q)
      = x (ix2 (⟨min (idx (ixP e)).toInt.toNat (N - 1), by omega⟩ : Fin N) q) := by
  unfold Host.gather
  congr 1
  funext a
  apply Fin.ext
  match a with
  | ⟨0, _⟩ => exact gather_rows_coord0 d hoff hcoll hob hsim hivd idx e q
  | ⟨1, _⟩ => exact gather_rows_coord1 d hoff hcoll hob hsim idx e q

end Cert.ScatterRows

end
-- ==== Proof.RefValue.lean ====
/-
  The reference's run read as the common specification.

  The reference computes the per-segment sums by a scatter-add of the rows of the node table into a zero
  table, the per-segment row counts by a scatter-add of ones into a zero vector, divides the first by the
  second (at least one), runs the gate chain on the quotient, and multiplies every row of the node table by
  the gate row its segment id selects, read by a gather. When every id, read as a signed integer, lies in
  [0, 64): a scatter position is the id itself and none is dropped, so the two scatters are the
  specification's sums over the rows of each segment; the negative-index normalisation returns the id
  unchanged and the gather's clamp does not move it, so the gathered row is the segment's gate row.
-/
import proofs.«409112_j63488206570149_3_alg».proof.Proof.Gen.ReferenceIdeal.Run
import proofs.«409112_j63488206570149_3_alg».proof.Proof.Gen.ReferenceIdeal.Read
import proofs.«409112_j63488206570149_3_alg».proof.Proof.Spec
import proofs.«409112_j63488206570149_3_alg».proof.Proof.LibScatterRows
import Idealize.ShloMosaic.PureOps.Ideal.Laws
import Idealize.ShloMosaic.Lib.ValueIdx

noncomputable section

open scoped BigOperators

namespace Cert.ReferenceIdeal.RefValue

open Cert.ReferenceIdeal Facts₀ Idealize.ShloMosaic Idealize.ShloMosaic.TcCoe Idealize.SL.Sem Idealize.ShloMosaic.StableHlo
open Idealize.ShloMosaic.ValueIdx Idealize.ShloMosaic.StableHlo.Predicate

/-- The gate table as a function of the per-segment mean table and the two layers' weights: the host
    chain from the first transpose to the last quotient, one operation per line of the program. -/
def gateR (cV : FVec Ideal S64x512 .f32) (W1 : FVec Ideal S512x512 .f32) (b1 : FVec Ideal S512 .f32)
    (W2 : FVec Ideal S512x512 .f32) (b2 : FVec Ideal S512 .f32) : FVec Ideal S64x512 .f32 :=
  Host.divf (F := Ideal) (broadcastInDim S64x512 ![] bcast_S_S64x512 (constant (F := Ideal) S_ .f32 0x3F800000#32))
    (addf (broadcastInDim S64x512 ![] bcast_S_S64x512 (constant (F := Ideal) S_ .f32 0x3F800000#32))
      (Host.exp (F := Ideal) (Host.negf (F := Ideal) (addf
        (Host.dotGeneral (F := Ideal) dot_S64x512_S512x512_S64x512_1_0_0_1_n_n none
          (maximumf
            (addf
              (Host.dotGeneral (F := Ideal) dot_S64x512_S512x512_S64x512_1_0_0_1_n_n none cV
                (transpose S512x512 [1, 0] W1 transposes_S512x512_S512x512_1_0))
              (broadcastInDim S64x512 ![0, 1] bcast_S1x512_S64x512_0_1 (broadcastInDim S1x512 ![1] bcast_S512_S1x512_1 b1)))
            (broadcastInDim S64x512 ![] bcast_S_S64x512 (constant (F := Ideal) S_ .f32 0x00000000#32)))
          (transpose S512x512 [1, 0] W2 transposes_S512x512_S512x512_1_0))
        (broadcastInDim S64x512 ![0, 1] bcast_S1x512_S64x512_0_1 (broadcastInDim S1x512 ![1] bcast_S512_S1x512_1 b2))))))

/-! ## Words in range -/

/-- An in-range id word, read signed, is its segment number. -/
theorem toInt_eq_segOf {b : BitVec 32} (h0 : 0 ≤ b.toInt) (h1 : b.toInt < 64) :
    b.toInt = ((Cert.Spec.segOf b).val : Int) := by
  have hlt : b.toNat < 64 := by
    rw [BitVec.toInt_eq_toNat_cond] at h0 h1
    split at h1 <;> omega
  have hv : (Cert.Spec.segOf b).val = b.toNat % 64 := rfl
  rw [hv, BitVec.toInt_eq_toNat_cond]
  split <;> omega

/-- For an in-range id word, "read signed it is s" says its segment is s. -/
theorem toInt_eq_iff {b : BitVec 32} (h0 : 0 ≤ b.toInt) (h1 : b.toInt < 64) (s : Fin 64) :
    b.toInt = (s.val : Int) ↔ (Cert.Spec.segOf b).val = s.val := by
  rw [toInt_eq_segOf h0 h1]
  omega

/-- A nonnegative word is not below zero, so the negative-index normalisation returns it unchanged. -/
theorem select_nonneg {b X : BitVec 32} (h0 : 0 ≤ b.toInt) :
    Scalar.select (IntOp.cmpi .slt b 0#32) X b = b := by
  unfold Scalar.select
  rw [if_neg]
  intro hc
  have hlt : b.toInt < (0#32 : BitVec 32).toInt := IntOp.cmpi_slt.mp hc
  have hz : (0#32 : BitVec 32).toInt = 0 := by decide
  omega

/-! ## The column of positions -/

/-- The id vector as a column reads the id of its row. -/
theorem col1 (bid : IVec S262144 32) (e : Fin 262144) : Read.val_main_v1 (F := Ideal) bid (ixP e) = bid (ix1 e) :=
  (Read.val_main_v1_apply bid (ixP e)).trans (congrArg bid (funext fun a => match a with | ⟨0, _⟩ => rfl))

theorem col5 (bid : IVec S262144 32) (e : Fin 262144) : Read.val_main_v5 (F := Ideal) bid (ixP e) = bid (ix1 e) :=
  (Read.val_main_v5_apply bid (ixP e)).trans (congrArg bid (funext fun a => match a with | ⟨0, _⟩ => rfl))

/-- Under the range hypothesis the normalised column reads the id of its row. -/
theorem col34 (bid : IVec S262144 32) (hr : Cert.Spec.InRange bid) (e : Fin 262144) :
    Read.val_main_v34 (F := Ideal) bid (ixP e) = bid (ix1 e) := by
  have e1 : Read.idx_main_v34 (ixP e) = ix1 e := funext fun a => match a with | ⟨0, _⟩ => rfl
  rw [Read.val_main_v34_apply, e1, Read.val_main_v33_apply, Read.val_main_v30_apply, Read.val_main_v29_apply,
    Read.val_main_c_apply]
  exact select_nonneg (hr e).1

/-! ## The three stages -/

/-- The reference's result term is the product of the node table with the gathered rows of the gate table of the
    quotient of the two scatters. -/
theorem term_eq (h : FVec Ideal S262144x512 .f32) (bid : IVec S262144 32) (W1 : FVec Ideal S512x512 .f32)
    (b1 : FVec Ideal S512 .f32) (W2 : FVec Ideal S512x512 .f32) (b2 : FVec Ideal S512 .f32) :
    Read.val_main_v36 (F := Ideal) h bid W1 b1 W2 b2
      = mulf h (Host.gather gather_S64x512_S262144x1_S262144x512_1_0_n_n_0_1_1512
          (gateR (Host.divf (F := Ideal) (Read.val_main_v2 (F := Ideal) h bid) (Read.val_main_v10 (F := Ideal) bid)) W1 b1 W2 b2)
          (Read.val_main_v34 (F := Ideal) bid)) := rfl

/-- Under the range hypothesis the row scatter-add is the per-segment sum. -/
theorem v2_eq (h : FVec Ideal S262144x512 .f32) (bid : IVec S262144 32) (hr : Cert.Spec.InRange bid) :
    Read.val_main_v2 (F := Ideal) h bid = Cert.Spec.segsum h bid := by
  funext i
  obtain ⟨s, j, rfl⟩ : ∃ (s : Fin 64) (j : Fin 512), i = ix2 s j := ⟨i 0, i 1, eq_ix2 i⟩
  refine (Cert.ScatterRows.hostScatterAdd_rows scatter_S64x512_S262144x1_S262144x512_1_0_0_1 rfl rfl rfl rfl
    (Read.val_main_v0 (F := Ideal)) (Read.val_main_v1 (F := Ideal) bid) h s j).trans ?_
  rw [Read.val_main_v0_apply, Read.val_main_cst_apply, Ideal.ofBits_def, Ideal.ofBits_zero_f32, zero_add]
  show _ = ∑ n : Fin 262144, if (Cert.Spec.segOf (bid (ix1 n))).val = s.val then h (ix2 n j) else 0
  refine Finset.sum_congr rfl fun n _ => ?_
  rw [col1]
  exact if_congr (toInt_eq_iff (hr n).1 (hr n).2 s) rfl rfl

/-- Under the range hypothesis the row-count scatter-add is the number of rows of the segment. -/
theorem v6_eq (bid : IVec S262144 32) (hr : Cert.Spec.InRange bid) (s : Fin 64) :
    Read.val_main_v6 (F := Ideal) bid (ix1 s) = Cert.Spec.count bid s := by
  refine (Cert.ScatterRows.hostScatterAdd_vec scatter_S64_S262144x1_S262144_n_0_0_1 rfl rfl rfl rfl
    (Read.val_main_v4 (F := Ideal)) (Read.val_main_v5 (F := Ideal) bid) (Read.val_main_v3 (F := Ideal)) s).trans ?_
  rw [Read.val_main_v4_apply, Read.val_main_cst_1_apply, Ideal.ofBits_def, Ideal.ofBits_zero_f32, zero_add]
  show _ = ∑ n : Fin 262144, if (Cert.Spec.segOf (bid (ix1 n))).val = s.val then Cert.Spec.one32 else 0
  refine Finset.sum_congr rfl fun n _ => ?_
  rw [col5, Read.val_main_v3_apply, Read.val_main_cst_0_apply, Ideal.ofBits_def]
  exact if_congr (toInt_eq_iff (hr n).1 (hr n).2 s) rfl rfl

/-- Under the range hypothesis the divisor table is the row count of the segment, at least one. -/
theorem v10_eq (bid : IVec S262144 32) (hr : Cert.Spec.InRange bid) :
    Read.val_main_v10 (F := Ideal) bid = Cert.Spec.den bid := by
  funext i
  obtain ⟨s, j, rfl⟩ : ∃ (s : Fin 64) (j : Fin 512), i = ix2 s j := ⟨i 0, i 1, eq_ix2 i⟩
  have e1 : Read.idx_main_v9 (Read.idx_main_v10 (ix2 s j)) = ix1 s := funext fun a => match a with | ⟨0, _⟩ => rfl
  rw [Read.val_main_v10_apply, Read.val_main_v9_apply, e1, Read.val_main_v8_apply, v6_eq bid hr s,
    Read.val_main_v7_apply, Read.val_main_cst_2_apply, Ideal.ofBits_def, Ideal.maximumf_def]
  rfl

/-- Under the range hypothesis the product with the gathered gate rows is the specification's last line. -/
theorem gather_eq (gate : FVec Ideal S64x512 .f32) (h : FVec Ideal S262144x512 .f32) (bid : IVec S262144 32)
    (hr : Cert.Spec.InRange bid) :
    mulf h (Host.gather gather_S64x512_S262144x1_S262144x512_1_0_n_n_0_1_1512 gate (Read.val_main_v34 (F := Ideal) bid))
      = Cert.Spec.gathered gate h bid := by
  funext i
  obtain ⟨n, j, rfl⟩ : ∃ (n : Fin 262144) (j : Fin 512), i = ix2 n j := ⟨i 0, i 1, eq_ix2 i⟩
  show h (ix2 n j) * Host.gather gather_S64x512_S262144x1_S262144x512_1_0_n_n_0_1_1512 gate
      (Read.val_main_v34 (F := Ideal) bid) (ix2 n j) = h (ix2 n j) * gate (ix2 (Cert.Spec.segOf (bid (ix1 n))) j)
  rw [Cert.ScatterRows.gather_rows gather_S64x512_S262144x1_S262144x512_1_0_n_n_0_1_1512 rfl rfl rfl rfl rfl rfl
    gate (Read.val_main_v34 (F := Ideal) bid) n j (by decide)]
  have hs := toInt_eq_segOf (hr n).1 (hr n).2
  have hlt : (Cert.Spec.segOf (bid (ix1 n))).val < 64 := (Cert.Spec.segOf (bid (ix1 n))).isLt
  congr 3
  apply Fin.ext
  show min (Read.val_main_v34 (F := Ideal) bid (ixP n)).toInt.toNat (64 - 1) = (Cert.Spec.segOf (bid (ix1 n))).val
  rw [col34 bid hr n]
  omega

/-- The reference's result, as the specification of the arguments. -/
theorem result_eq (h : FVec Ideal S262144x512 .f32) (bid : IVec S262144 32) (W1 : FVec Ideal S512x512 .f32)
    (b1 : FVec Ideal S512 .f32) (W2 : FVec Ideal S512x512 .f32) (b2 : FVec Ideal S512 .f32) (hr : Cert.Spec.InRange bid) :
    Read.val_main_v36 (F := Ideal) h bid W1 b1 W2 b2
      = Cert.Spec.gathered (gateR (Host.divf (F := Ideal) (Cert.Spec.segsum h bid) (Cert.Spec.den bid)) W1 b1 W2 b2) h bid := by
  rw [term_eq, v2_eq h bid hr, v10_eq bid hr, gather_eq _ h bid hr]

/-- Every weakly fair execution of the reference ends with its result at the specification of the arguments, the
    arguments unchanged. -/
theorem run_spec (m : (ℓ : Loc nD τ sig) → Buf (Elt Ideal) ℓ) (ρ : Dev nD → PrngReg)
    (hr : ∀ c : Dev nD, Cert.Spec.InRange (m ((c.tc : Thread nD τ).loc main_arg1))) :
    θ_run (defs (F := Ideal)) (onTc (τ := τ) (main (F := Ideal))) ⟨m, fun _ => 0, ρ⟩ (fun r => ∀ c : Dev nD,
      r.2.mem ((c.tc : Thread nD τ).loc main_v36)
        = Cert.Spec.gathered
            (gateR (Host.divf (F := Ideal)
                (Cert.Spec.segsum (m ((c.tc : Thread nD τ).loc main_arg0)) (m ((c.tc : Thread nD τ).loc main_arg1)))
                (Cert.Spec.den (m ((c.tc : Thread nD τ).loc main_arg1))))
              (m ((c.tc : Thread nD τ).loc main_arg2)) (m ((c.tc : Thread nD τ).loc main_arg3))
              (m ((c.tc : Thread nD τ).loc main_arg4)) (m ((c.tc : Thread nD τ).loc main_arg5)))
            (m ((c.tc : Thread nD τ).loc main_arg0)) (m ((c.tc : Thread nD τ).loc main_arg1))
      ∧ r.2.mem ((c.tc : Thread nD τ).loc main_arg0) = m ((c.tc : Thread nD τ).loc main_arg0)
      ∧ r.2.mem ((c.tc : Thread nD τ).loc main_arg1) = m ((c.tc : Thread nD τ).loc main_arg1)
      ∧ r.2.mem ((c.tc : Thread nD τ).loc main_arg2) = m ((c.tc : Thread nD τ).loc main_arg2)
      ∧ r.2.mem ((c.tc : Thread nD τ).loc main_arg3) = m ((c.tc : Thread nD τ).loc main_arg3)
      ∧ r.2.mem ((c.tc : Thread nD τ).loc main_arg4) = m ((c.tc : Thread nD τ).loc main_arg4)
      ∧ r.2.mem ((c.tc : Thread nD τ).loc main_arg5) = m ((c.tc : Thread nD τ).loc main_arg5)) :=
  (θ_run (defs (F := Ideal)) _ _).mono (fun _ hh c => ⟨(hh c).1.trans (by
      rw [Read.val_main_v36_eq]
      exact result_eq _ _ _ _ _ _ (hr c)), (hh c).2⟩)
    (Cert.ReferenceIdeal.Value.run (F := Ideal) m ρ)

end Cert.ReferenceIdeal.RefValue

end
-- ==== Proof.PreRange.lean ====
/-
  The precondition, read back on the segment ids.

  The printed precondition is a conjunction of six one-bit scalars. The first five say that every entry of a
  float input is finite; the last is the and, over all 262144 rows n, of the bit
      (0 ≤ batch_id[n]) and (batch_id[n] < 64),
  both comparisons signed, against the constants 0 and 64 broadcast to the id vector's shape. When the whole
  conjunction is 1 its last conjunct is 1; an and over all rows that came out 1 met a 1 at every row; and a
  signed comparison bit that is 1 says the inequality of the two words read as signed integers. The constants
  read 0 and 64. Hence every id, read signed, lies in [0, 64). Nothing is used of the five float conjuncts, so the
  statement holds for every float model.
-/
import proofs.«409112_j63488206570149_3_alg».proof.Proof.Gen.Pre_finite_inputs
import proofs.«409112_j63488206570149_3_alg».proof.Proof.Spec
import Idealize.ShloMosaic.Lib.ReduceAll
import Idealize.ShloMosaic.Lib.ValueIdx

namespace Cert.PreRange

open Idealize.ShloMosaic Idealize.ShloMosaic.ValueIdx

/-- The scalar shape has exactly one index. -/
instance subsingleton_scalarIdx : Subsingleton Cert.Pre_finite_inputs.S_.Idx :=
  ⟨fun a b => funext fun d => d.elim0⟩

/-- An elementwise and of two bit arrays, read at an index, is the and of the two bits read there. -/
theorem andi_apply {s : Shape} {w : Nat} (x y : IVec s w) (i : s.Idx) : andi x y i = IntOp.andi (x i) (y i) := rfl

/-- If the precondition holds then every segment id, read as a signed integer, lies in [0, 64). -/
theorem inRange_of_pre {F : FTy → Type} [FloatOps F] [Cert.Pre_finite_inputs.Facts]
    (a0 : FVec F Cert.Pre_finite_inputs.S262144x512 .f32) (a1 : IVec Cert.Pre_finite_inputs.S262144 32)
    (a2 : FVec F Cert.Pre_finite_inputs.S512x512 .f32) (a3 : FVec F Cert.Pre_finite_inputs.S512 .f32)
    (a4 : FVec F Cert.Pre_finite_inputs.S512x512 .f32) (a5 : FVec F Cert.Pre_finite_inputs.S512 .f32)
    (h : Cert.Pre_finite_inputs.fn (F := F) a0 a1 a2 a3 a4 a5 = (fun _ => 1#1)) : Cert.Spec.InRange a1 := by
  intro n
  -- the one bit of the result, as the and of the first five conjuncts with the last
  have e := congrFun h ValueIdx.ix0
  dsimp only [Cert.Pre_finite_inputs.fn, Cert.Pre_finite_inputs.fn_part1] at e
  rw [andi_apply] at e
  obtain ⟨-, hr⟩ := IntOp.andi_eq_one.1 e
  -- the last conjunct is an and over all rows: it is 1 at row n
  have hp := Host.reduce_andi_all _ _ _ _ _ hr (ix1 n)
  rw [andi_apply] at hp
  obtain ⟨hge, hlt⟩ := IntOp.andi_eq_one.1 hp
  -- a broadcast constant reads the constant at every row
  have hge' : IntOp.cmpi .sge (a1 (ix1 n)) 0#32 = 1#1 := hge
  have hlt' : IntOp.cmpi .slt (a1 (ix1 n)) 64#32 = 1#1 := hlt
  -- the two signed comparisons, read on the integers
  have h0 := IntOp.cmpi_sge.1 hge'
  have h64 := IntOp.cmpi_slt.1 hlt'
  have z0 : (0#32 : BitVec 32).toInt = 0 := by decide
  have z64 : (64#32 : BitVec 32).toInt = 64 := by decide
  rw [z0] at h0
  rw [z64] at h64
  exact ⟨h0, h64⟩

end Cert.PreRange
-- ==== Proof.lean ====
/-
  The certificate of the one-hot segment-sum / gated-MLP / gather-multiply kernel against its jnp reference.

  Both programs compute, for a node table h [262144, 512] and segment ids in [0, 64) (the precondition's added
  conjunct; the float inputs are also finite, which the proof never needs),

      out[n, j] = h[n, j] * gate[seg(n), j],     gate = G(segsum / max(count, 1)),

  where segsum[s, j] is the sum of the rows of segment s, count[s] their number, and G the chain of host
  operations (two affine layers, a relu, a logistic) that both programs apply literally. The kernel reaches segsum
  and count by one-hot matrix products accumulated tile by tile on two cores in VMEM scratch, adds the two cores'
  halves on the host, and gathers the gate rows by another one-hot matrix product; the reference scatters and
  gathers. Sums over the extended reals commute, 0 * x = 0 and 1 * x = x there, so the two agree index by index
  wherever every id is a segment number.

  The frames: the kernel program's run (both at the word level and idealized) is the several-region launch over
  the two regions' proof data — region 0 with its two accumulators carried between grid points in the region
  invariant, region 1 stateless —; the reference's run is its generated straight-line run.
-/
import proofs.«409112_j63488206570149_3_alg».proof.Defs
import proofs.«409112_j63488206570149_3_alg».proof.Proof.Gen.Kernel
import proofs.«409112_j63488206570149_3_alg».proof.Proof.Gen.KernelIdeal
import proofs.«409112_j63488206570149_3_alg».proof.Proof.Gen.ReferenceIdeal
import proofs.«409112_j63488206570149_3_alg».proof.Proof.Gen.Pre_finite_inputs
import proofs.«409112_j63488206570149_3_alg».proof.Proof.Gen.ReferenceIdeal.Run
import proofs.«409112_j63488206570149_3_alg».proof.Proof.Run
import proofs.«409112_j63488206570149_3_alg».proof.Proof.RunK
import proofs.«409112_j63488206570149_3_alg».proof.Proof.KValue
import proofs.«409112_j63488206570149_3_alg».proof.Proof.RefValue
import proofs.«409112_j63488206570149_3_alg».proof.Proof.PreRange
import Idealize.ShloMosaic.Adequacy
import Idealize.ShloMosaic.Init

noncomputable section

namespace Cert.Proof

open Idealize.ShloMosaic Idealize.SL.Sem

attribute [local instance] Cert.Kernel.Gen.facts Cert.KernelIdeal.Gen.facts Cert.ReferenceIdeal.Gen.facts Cert.Pre_finite_inputs.Gen.facts

/-- The word-level kernel program runs and leaves its arguments: its run with the result dropped. -/
theorem frame_k : Cert.frame_Kernel := fun m ρ _ =>
  (θ_run Cert.Kernel.defs _ _).mono (fun _ h c => (h c).2) (Cert.Kernel.Run.run (F := Bits) m ρ)

/-- The idealized kernel program likewise. -/
theorem frame_ki : Cert.frame_KernelIdeal := fun m ρ _ =>
  (θ_run Cert.KernelIdeal.defs _ _).mono (fun _ h c => (h c).2) (Cert.KernelIdeal.Run.run (F := Ideal) m ρ)

/-- The reference: its straight-line run with the result dropped. -/
theorem frame_ri : Cert.frame_ReferenceIdeal := fun m ρ _ =>
  (θ_run Cert.ReferenceIdeal.defs _ _).mono (fun _ h c => (h c).2) (Cert.ReferenceIdeal.Value.run (F := Ideal) m ρ)

/-- The one rewrite of the ideal pass: a round trip through bf16 of the one-hot table is the identity at the
    ideal instance. -/
theorem preserves : Cert.preserves_Kernel_KernelIdeal :=
  IdealRules.truncf_extf.statement _ .f32 .bf16

/-- The precondition puts every segment id in [0, 64). -/
theorem inRange_k (m : (ℓ : Loc Cert.KernelIdeal.nD Cert.KernelIdeal.τ Cert.KernelIdeal.sig) → Buf (Elt Ideal) ℓ) (h : Cert.Pre_KernelIdeal m)
    (c : Dev Cert.KernelIdeal.nD) : Cert.Spec.InRange (m ((c.tc : Thread Cert.KernelIdeal.nD Cert.KernelIdeal.τ).loc Cert.KernelIdeal.main_arg1)) :=
  Cert.PreRange.inRange_of_pre _ _ _ _ _ _ (h c)

/-- The two programs apply the same chain of host operations to the per-segment means. -/
theorem gate_eq : Cert.ReferenceIdeal.RefValue.gateR = Cert.KernelIdeal.HostValue.gateK := rfl

/-- From memories agreeing on the arguments both idealized programs end with every row times the gate row of its
    segment. -/
theorem algebraic : Cert.algebraic_KernelIdeal_ReferenceIdeal := by
  intro m ρ m' ρ' hpre hagree
  have hr := inRange_k m hpre
  refine ⟨fun c => Cert.KernelIdeal.Run.outs m 6 Cert.KernelIdeal.main_v26 c,
    Cert.KernelIdeal.Run.run (F := Ideal) m ρ, ?_⟩
  have hr' : ∀ c : Dev Cert.ReferenceIdeal.nD,
      Cert.Spec.InRange (m' ((c.tc : Thread Cert.ReferenceIdeal.nD Cert.ReferenceIdeal.τ).loc Cert.ReferenceIdeal.main_arg1)) := fun c => by
    rw [(hagree c).2.1]; exact hr c
  refine (θ_run Cert.ReferenceIdeal.defs _ _).mono (fun _ h c => ⟨(h c).1.trans ?_, (h c).2⟩)
    (Cert.ReferenceIdeal.RefValue.run_spec m' ρ' hr')
  rw [(hagree c).1, (hagree c).2.1, (hagree c).2.2.1, (hagree c).2.2.2.1, (hagree c).2.2.2.2.1, (hagree c).2.2.2.2.2, gate_eq]
  exact (Cert.KernelIdeal.KValue.result_eq m c (hr c)).symm

theorem claim : Cert.Claim := ⟨Cert.Kernel.Gen.facts, Cert.KernelIdeal.Gen.facts, Cert.ReferenceIdeal.Gen.facts, Cert.Pre_finite_inputs.Gen.facts,
  frame_k, frame_ki, frame_ri, preserves, algebraic⟩

end Cert.Proof

end
